-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S4096x32x512 : Shape := ⟨3, ![4096, 32, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S4096x32x512 : S_.BroadcastsInDim S4096x32x512 (![] : Fin 0 → Fin S4096x32x512.rank)
  reducesTo_S4096x32x512_S_d0_1_2 : S4096x32x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S1x512 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_v33

def fn {F : FTy → Type} [FloatOps F] (main_arg0 : FVec F S32x512 .f32) (main_arg1 : FVec F S4096x32x512 .f32) (main_arg2 : FVec F S512x512 .f32) (main_arg3 : FVec F S512 .f32) (main_arg4 : FVec F S512x512 .f32) (main_arg5 : FVec F S512 .f32) (main_arg6 : FVec F S1x512 .f32) (main_arg7 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S4096x32x512 .f32 := Host.absf main_arg1
  let main_cst_0 : FVec F S_ .f32 := constant S_ .f32 0x7F800000#32
  let main_v5 : FVec F S4096x32x512 .f32 := broadcastInDim S4096x32x512 ![] bcast_S_S4096x32x512 main_cst_0
  let main_v6 : IVec S4096x32x512 1 := cmpf .olt main_v4 main_v5
  let main_c_1 : IVec S_ 1 := constantI S_ 1 1#1
  let main_v7 : IVec S_ 1 := (fun x v => Host.reduce IntOp.andi x v reducesTo_S4096x32x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32x512 : Shape := ⟨2, ![32, 512]⟩
abbrev S4096x32x512 : Shape := ⟨3, ![4096, 32, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S4096x32 : Shape := ⟨2, ![4096, 32]⟩
abbrev S2x32x512 : Shape := ⟨3, ![2, 32, 512]⟩
abbrev S2x32x1 : Shape := ⟨3, ![2, 32, 1]⟩
abbrev S64x32x512 : Shape := ⟨3, ![64, 32, 512]⟩
abbrev S64x32 : Shape := ⟨2, ![64, 32]⟩
abbrev S1x32x512 : Shape := ⟨3, ![1, 32, 512]⟩
abbrev S1x32x1 : Shape := ⟨3, ![1, 32, 1]⟩
abbrev S32x1 : Shape := ⟨2, ![32, 1]⟩
abbrev S2048x512 : Shape := ⟨2, ![2048, 512]⟩
abbrev S1x1x512 : Shape := ⟨3, ![1, 1, 512]⟩
abbrev S64x32x1 : Shape := ⟨3, ![64, 32, 1]⟩
abbrev S32x64 : Shape := ⟨2, ![32, 64]⟩
abbrev S32 : Shape := ⟨1, ![32]⟩
abbrev S_ : Shape := ⟨0, ![]⟩
abbrev S1x32 : Shape := ⟨2, ![1, 32]⟩
abbrev S4096x32x1 : Shape := ⟨3, ![4096, 32, 1]⟩

abbrev nBuf : Space → Nat
  | .hbm => 63
  | .vmem => 18
  | .smem => 0
  | _ => 0

abbrev bufTy : (tb : Table) → Fin (tcTables nBuf tb) → BufTy
  | .hbm, ⟨0, _⟩ => ⟨S32x512, .f32⟩
  | .hbm, ⟨1, _⟩ => ⟨S4096x32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S512x512, .f32⟩
  | .hbm, ⟨9, _⟩ => ⟨S32x512, .f32⟩
  | .hbm, ⟨10, _⟩ => ⟨S1x512, .f32⟩
  | .hbm, ⟨11, _⟩ => ⟨S32x512, .f32⟩
  | .hbm, ⟨12, _⟩ => ⟨S32x512, .f32⟩
  | .hbm, ⟨13, _⟩ => ⟨S512x512, .f32⟩
  | .hbm, ⟨14, _⟩ => ⟨S512x512, .bf16⟩
  | .hbm, ⟨15, _⟩ => ⟨S1x512, .f32⟩
  | .hbm, ⟨16, _⟩ => ⟨S1x1, .f32⟩
  | .hbm, ⟨17, _⟩ => ⟨S4096x32, .f32⟩
  | .hbm, ⟨18, _⟩ => ⟨S2x32x512, .f32⟩
  | .hbm, ⟨19, _⟩ => ⟨S2x32x1, .f32⟩
  | .hbm, ⟨20, _⟩ => ⟨S2x32x1, .f32⟩
  | .hbm, ⟨21, _⟩ => ⟨S1x32x1, .f32⟩
  | .hbm, ⟨22, _⟩ => ⟨S32x1, .f32⟩
  | .hbm, ⟨23, _⟩ => ⟨S1x32x1, .f32⟩
  | .hbm, ⟨24, _⟩ => ⟨S32x1, .f32⟩
  | .hbm, ⟨25, _⟩ => ⟨S1x32x1, .f32⟩
  | .hbm, ⟨26, _⟩ => ⟨S32x1, .f32⟩
  | .hbm, ⟨27, _⟩ => ⟨S1x32x1, .f32⟩
  | .hbm, ⟨28, _⟩ => ⟨S32x1, .f32⟩
  | .hbm, ⟨29, _⟩ => ⟨S1x32x512, .f32⟩
  | .hbm, ⟨30, _⟩ => ⟨S32x512, .f32⟩
  | .hbm, ⟨31, _⟩ => ⟨S1x32x512, .f32⟩
  | .hbm, ⟨32, _⟩ => ⟨S32x512, .f32⟩
  | .hbm, ⟨33, _⟩ => ⟨S32x1, .f32⟩
  | .hbm, ⟨34, _⟩ => ⟨S32x1, .f32⟩
  | .hbm, ⟨35, _⟩ => ⟨S32x1, .f32⟩
  | .hbm, ⟨36, _⟩ => ⟨S32x1, .f32⟩
  | .hbm, ⟨37, _⟩ => ⟨S32x1, .f32⟩
  | .hbm, ⟨38, _⟩ => ⟨S32x1, .f32⟩
  | .hbm, ⟨39, _⟩ => ⟨S32x1, .f32⟩
  | .hbm, ⟨40, _⟩ => ⟨S32x1, .f32⟩
  | .hbm, ⟨41, _⟩ => ⟨S_, .f32⟩
  | .hbm, ⟨42, _⟩ => ⟨S32x1, .f32⟩
  | .hbm, ⟨43, _⟩ => ⟨S32x1, .f32⟩
  | .hbm, ⟨44, _⟩ => ⟨S32x1, .f32⟩
  | .hbm, ⟨45, _⟩ => ⟨S32x1, .f32⟩
  | .hbm, ⟨46, _⟩ => ⟨S32x512, .f32⟩
  | .hbm, ⟨47, _⟩ => ⟨S32x512, .f32⟩
  | .hbm, ⟨48, _⟩ => ⟨S32x1, .f32⟩
  | .hbm, ⟨49, _⟩ => ⟨S32x1, .f32⟩
  | .hbm, ⟨50, _⟩ => ⟨S32x512, .f32⟩
  | .hbm, ⟨51, _⟩ => ⟨S32x512, .f32⟩
  | .hbm, ⟨52, _⟩ => ⟨S32x512, .f32⟩
  | .hbm, ⟨53, _⟩ => ⟨S32x512, .f32⟩
  | .hbm, ⟨54, _⟩ => ⟨S32x512, .f32⟩
  | .hbm, ⟨55, _⟩ => ⟨S1x32, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32x1, .f32⟩
  | .local _ .vmem, ⟨0, _⟩ => ⟨S64x32x512, .f32⟩
  | .local _ .vmem, ⟨1, _⟩ => ⟨S64x32x512, .f32⟩
  | .local _ .vmem, ⟨2, _⟩ => ⟨S32x512, .f32⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S64x32, .f32⟩
  | .local _ .vmem, ⟨8, _⟩ => ⟨S64x32, .f32⟩
  | .local _ .vmem, ⟨9, _⟩ => ⟨S1x32x512, .f32⟩
  | .local _ .vmem, ⟨10, _⟩ => ⟨S1x32x512, .f32⟩
  | .local _ .vmem, ⟨11, _⟩ => ⟨S1x32x1, .f32⟩
  | .local _ .vmem, ⟨12, _⟩ => ⟨S1x32x1, .f32⟩
  | .local _ .vmem, ⟨13, _⟩ => ⟨S1x32x1, .f32⟩
  | .local _ .vmem, ⟨14, _⟩ => ⟨S1x32x1, .f32⟩
  | .local _ .vmem, ⟨15, _⟩ => ⟨S32x1, .f32⟩
  | .local _ .vmem, ⟨16, _⟩ => ⟨S32x1, .f32⟩
  | .local _ .vmem, ⟨17, _⟩ => ⟨S32x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v67 : BitVec 1 := Scalar.cmpi .eq arg1 c31_i32
  let v68 : BitVec 32 := Scalar.extui v67
  let c0_i32_33 : BitVec 32 := 0#32
  let v69 : BitVec 1 := Scalar.cmpi .ne v68 c0_i32_33
  v69

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S512x512_S512x512_1_0 : S512x512.Transposes [1, 0] S512x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bitsLt_bf16_f32 : FTy.bits .bf16 < FTy.bits .f32
  shapeCasts_S512_S1x512 : S512.ShapeCasts S1x512
  shapeCasts_S1_S1x1 : S1.ShapeCasts S1x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S64x32x512_S64x32x512_0_0_0 : ∀ a, (![0, 0, 0] : Fin 3 → Nat) a + S64x32x512.size a ≤ S64x32x512.size a
  h_S64x32x512 : 0 < S64x32x512.numel
  shapeCasts_S64x32x512_S2048x512 : S64x32x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S64x32x512 : S2048x512.ShapeCasts S64x32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S64x32x512 : S1x1x512.Broadcasts S64x32x512
  shapeCasts_S32x512_S1x32x512 : S32x512.ShapeCasts S1x32x512
  broadcasts_S1x32x512_S64x32x512 : S1x32x512.Broadcasts S64x32x512
  reduces_S64x32x512_S64x32 : S64x32x512.Reduces [2] S64x32
  shapeCasts_S64x32_S64x32x1 : S64x32.ShapeCasts S64x32x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64x32x1_S64x32 : S64x32x1.ShapeCasts S64x32
  transposes_S64x32_p1_0_S32x64 : S64x32.Transposes [1, 0] S32x64
  reduces_S32x64_S32 : S32x64.Reduces [1] S32
  shapeCasts_S32_S32x1 : S32.ShapeCasts S32x1
  broadcasts_S32x1_S32x64 : S32x1.Broadcasts S32x64
  transposes_S32x64_p1_0_S64x32 : S32x64.Transposes [1, 0] S64x32
  broadcasts_S64x32x1_S64x32x512 : S64x32x1.Broadcasts S64x32x512
  reduces_S64x32x512_S32x512 : S64x32x512.Reduces [0] S32x512
  broadcasts_S32x1_S32x512 : S32x1.Broadcasts S32x512
  inb_S64x32_S64x32_0_0 : ∀ a, (![0, 0] : Fin 2 → Nat) a + S64x32.size a ≤ S64x32.size a
  h_S64x32 : 0 < S64x32.numel
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  slices_S2x32x1_S1x32x1_0_0_0 : S2x32x1.Slices ![0, 0, 0] S1x32x1
  slices_S2x32x1_S1x32x1_1_0_0 : S2x32x1.Slices ![1, 0, 0] S1x32x1
  slices_S2x32x512_S1x32x512_0_0_0 : S2x32x512.Slices ![0, 0, 0] S1x32x512
  slices_S2x32x512_S1x32x512_1_0_0 : S2x32x512.Slices ![1, 0, 0] S1x32x512
  bcast_S_S32x1 : S_.BroadcastsInDim S32x1 (![] : Fin 0 → Fin S32x1.rank)
  bcast_S32x1_S32x512_0_1 : S32x1.BroadcastsInDim S32x512 (![0, 1] : Fin 2 → Fin S32x512.rank)
  shapeCasts_S32x1_S1x32 : S32x1.ShapeCasts S1x32
  bcast_S1x32_S4096x32_0_1 : S1x32.BroadcastsInDim S4096x32 (![0, 1] : Fin 2 → Fin S4096x32.rank)
  bcast_S4096x32_S4096x32x1_0_1 : S4096x32.BroadcastsInDim S4096x32x1 (![0, 1] : Fin 2 → Fin S4096x32x1.rank)
  dot_S32x512_S512x512_S32x512_1_0_0_1_n_n_wf : DotDims.WF S32x512 S512x512 S32x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x512.size a ≤ S4096x32x512.size a
  hwx0_0 : ∀ i : grid0.Coords, EltTy.bits .f32 = 32 ∨ (Rect.block (s := S4096x32x512) S64x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S4096x32.size a
  hwx0_6 : ∀ i : grid0.Coords, EltTy.bits .f32 = 32 ∨ (Rect.block (s := S4096x32) S64x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x512.size a ≤ S2x32x512.size a
  hwx0_7 : ∀ i : grid0.Coords, EltTy.bits .f32 = 32 ∨ (Rect.block (s := S2x32x512) S1x32x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x1.size a ≤ S2x32x1.size a
  hwx0_8 : ∀ i : grid0.Coords, EltTy.bits .f32 = 32 ∨ (Rect.block (s := S2x32x1) S1x32x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x1.size a ≤ S2x32x1.size a
  hwx0_9 : ∀ i : grid0.Coords, EltTy.bits .f32 = 32 ∨ (Rect.block (s := S2x32x1) S1x32x1.size (cc0_transform_9 i) (hinb0_9 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg1) S64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S64x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1x32x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_2) S1x32x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_3) S1x32x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S32x512 : Shape := ⟨2, ![32, 512]⟩
abbrev S4096x32x512 : Shape := ⟨3, ![4096, 32, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1x512 : Shape := ⟨3, ![1, 1, 512]⟩
abbrev S1x32x512 : Shape := ⟨3, ![1, 32, 512]⟩
abbrev S4096x32x1 : Shape := ⟨3, ![4096, 32, 1]⟩
abbrev S1x1x1 : Shape := ⟨3, ![1, 1, 1]⟩
abbrev S_ : Shape := ⟨0, ![]⟩
abbrev S32x1 : Shape := ⟨2, ![32, 1]⟩
abbrev S1x32x1 : Shape := ⟨3, ![1, 32, 1]⟩

abbrev nBuf : Space → Nat
  | .hbm => 43
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S4096x32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S512x512, .f32⟩
  | .hbm, ⟨9, _⟩ => ⟨S32x512, .f32⟩
  | .hbm, ⟨10, _⟩ => ⟨S1x512, .f32⟩
  | .hbm, ⟨11, _⟩ => ⟨S32x512, .f32⟩
  | .hbm, ⟨12, _⟩ => ⟨S32x512, .f32⟩
  | .hbm, ⟨13, _⟩ => ⟨S4096x32x512, .f32⟩
  | .hbm, ⟨14, _⟩ => ⟨S1x1x512, .f32⟩
  | .hbm, ⟨15, _⟩ => ⟨S4096x32x512, .f32⟩
  | .hbm, ⟨16, _⟩ => ⟨S4096x32x512, .f32⟩
  | .hbm, ⟨17, _⟩ => ⟨S1x32x512, .f32⟩
  | .hbm, ⟨18, _⟩ => ⟨S4096x32x512, .f32⟩
  | .hbm, ⟨19, _⟩ => ⟨S4096x32x512, .f32⟩
  | .hbm, ⟨20, _⟩ => ⟨S4096x32x512, .f32⟩
  | .hbm, ⟨21, _⟩ => ⟨S4096x32x1, .f32⟩
  | .hbm, ⟨22, _⟩ => ⟨S1x1x1, .f32⟩
  | .hbm, ⟨23, _⟩ => ⟨S4096x32x1, .f32⟩
  | .hbm, ⟨24, _⟩ => ⟨S4096x32x1, .f32⟩
  | .hbm, ⟨25, _⟩ => ⟨S_, .f32⟩
  | .hbm, ⟨26, _⟩ => ⟨S32x1, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S1x32x1, .f32⟩
  | .hbm, ⟨31, _⟩ => ⟨S4096x32x1, .f32⟩
  | .hbm, ⟨32, _⟩ => ⟨S4096x32x1, .f32⟩
  | .hbm, ⟨33, _⟩ => ⟨S4096x32x1, .f32⟩
  | .hbm, ⟨34, _⟩ => ⟨S_, .f32⟩
  | .hbm, ⟨35, _⟩ => ⟨S32x1, .f32⟩
  | .hbm, ⟨36, _⟩ => ⟨S1x32x1, .f32⟩
  | .hbm, ⟨37, _⟩ => ⟨S4096x32x1, .f32⟩
  | .hbm, ⟨38, _⟩ => ⟨S4096x32x1, .f32⟩
  | .hbm, ⟨39, _⟩ => ⟨S4096x32x512, .f32⟩
  | .hbm, ⟨40, _⟩ => ⟨S4096x32x512, .f32⟩
  | .hbm, ⟨41, _⟩ => ⟨S_, .f32⟩
  | .hbm, ⟨42, _⟩ => ⟨S32x512, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S512_S1x1x512_2 : S512.BroadcastsInDim S1x1x512 (![2] : Fin 1 → Fin S1x1x512.rank)
  bcast_S1x1x512_S4096x32x512_0_1_2 : S1x1x512.BroadcastsInDim S4096x32x512 (![0, 1, 2] : Fin 3 → Fin S4096x32x512.rank)
  bcast_S32x512_S1x32x512_1_2 : S32x512.BroadcastsInDim S1x32x512 (![1, 2] : Fin 2 → Fin S1x32x512.rank)
  bcast_S1x32x512_S4096x32x512_0_1_2 : S1x32x512.BroadcastsInDim S4096x32x512 (![0, 1, 2] : Fin 3 → Fin S4096x32x512.rank)
  bcast_S1_S1x1x1_2 : S1.BroadcastsInDim S1x1x1 (![2] : Fin 1 → Fin S1x1x1.rank)
  bcast_S1x1x1_S4096x32x1_0_1_2 : S1x1x1.BroadcastsInDim S4096x32x1 (![0, 1, 2] : Fin 3 → Fin S4096x32x1.rank)
  reducesTo_S4096x32x1_S32x1_d0 : S4096x32x1.ReducesTo [0] S32x1
  h_S_ : 0 < S_.numel
  bcast_S_S32x1 : S_.BroadcastsInDim S32x1 (![] : Fin 0 → Fin S32x1.rank)
  bcast_S32x1_S1x32x1_1_2 : S32x1.BroadcastsInDim S1x32x1 (![1, 2] : Fin 2 → Fin S1x32x1.rank)
  bcast_S1x32x1_S4096x32x1_0_1_2 : S1x32x1.BroadcastsInDim S4096x32x1 (![0, 1, 2] : Fin 3 → Fin S4096x32x1.rank)
  bcast_S4096x32x1_S4096x32x512_0_1_2 : S4096x32x1.BroadcastsInDim S4096x32x512 (![0, 1, 2] : Fin 3 → Fin S4096x32x512.rank)
  reducesTo_S4096x32x512_S32x512_d0 : S4096x32x512.ReducesTo [0] S32x512
  dot_S32x512_S512x512_S32x512_1_0_0_1_n_n_wf : DotDims.WF S32x512 S512x512 S32x512 [1] [0] [0] [1] [] []
  dot_S4096x32x512_S512x512_S4096x32x512_2_1_01_0_n_n_wf : DotDims.WF S4096x32x512 S512x512 S4096x32x512 [2] [1] [0, 1] [0] [] []
  dot_S4096x32x512_S1x512_S4096x32x1_2_1_01_0_n_n_wf : DotDims.WF S4096x32x512 S1x512 S4096x32x1 [2] [1] [0, 1] [0] [] []

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S4096x32x512_S512x512_S4096x32x512_2_1_01_0_n_n : DotDims S4096x32x512 S512x512 S4096x32x512 where
  lhsContracting := [2]
  rhsContracting := [1]
  lhsNonContracting := [0, 1]
  rhsNonContracting := [0]
  lhsBatch := []
  rhsBatch := []
  wf := dot_S4096x32x512_S512x512_S4096x32x512_2_1_01_0_n_n_wf
def dot_S4096x32x512_S1x512_S4096x32x1_2_1_01_0_n_n : DotDims S4096x32x512 S1x512 S4096x32x1 where
  lhsContracting := [2]
  rhsContracting := [1]
  lhsNonContracting := [0, 1]
  rhsNonContracting := [0]
  lhsBatch := []
  rhsBatch := []
  wf := dot_S4096x32x512_S1x512_S4096x32x1_2_1_01_0_n_n_wf

class Facts : Prop extends Facts₀ where

variable [Facts]
-- ==== Proof.KernelVocab.lean ====
/-
  The body's arithmetic, named.

  One grid point loads a tile of 64 positions of the encoder output (`x0`), the projected hidden state (`x1`), the
  transposed projection matrix (`x2`), its bias row (`x3`), the scoring row (`x4`) and the scoring bias (`x5`), and
  carries three running values between points: the maximum `m`, the normaliser `l` and the weighted sum `a`.
  `tileScore` is the tile's 64 × 32 logits, `newM` the updated maximum, and `stM`, `stL`, `stA` what the point stores
  back into the three running values.
-/
import proofs.«420586_j87265145520380_3_alg».proof.Proof.Gen.KernelIdeal.Skeleton

noncomputable section

namespace Cert.KernelIdeal.Body

open Idealize.ShloMosaic Cert.KernelIdeal Cert.KernelIdeal.Gen

variable {F : FTy → Type} [FloatOps F]

/-- The tile's logits, position by batch row. -/
def tileScore (x0 : Vec F S64x32x512 .f32) (x1 : Vec F S32x512 .f32) (x2 : Vec F S512x512 .bf16) (x3 : Vec F S1x512 .f32)
    (x4 : Vec F S1x512 .f32) (x5 : Vec F S1x1 .f32) : FVec F S64x32 .f32 :=
  k0_pay12 x0 x2 x3 x1 x4 x5

/-- The same, batch row by position. -/
def tileScoreT (x0 : Vec F S64x32x512 .f32) (x1 : Vec F S32x512 .f32) (x2 : Vec F S512x512 .bf16) (x3 : Vec F S1x512 .f32)
    (x4 : Vec F S1x512 .f32) (x5 : Vec F S1x1 .f32) : FVec F S32x64 .f32 :=
  k0_pay13 x0 x2 x3 x1 x4 x5

/-- The running maximum after this tile. -/
def newM (x0 : Vec F S64x32x512 .f32) (x1 : Vec F S32x512 .f32) (x2 : Vec F S512x512 .bf16) (x3 : Vec F S1x512 .f32)
    (x4 : Vec F S1x512 .f32) (x5 : Vec F S1x1 .f32) (m : Vec F S32x1 .f32) : FVec F S32x1 .f32 :=
  k0_pay14 x0 x2 x3 x1 x4 x5 m

/-- What the point stores as the running maximum. -/
def stM (x0 : Vec F S64x32x512 .f32) (x1 : Vec F S32x512 .f32) (x2 : Vec F S512x512 .bf16) (x3 : Vec F S1x512 .f32)
    (x4 : Vec F S1x512 .f32) (x5 : Vec F S1x1 .f32) (m : Vec F S32x1 .f32) : FVec F S32x1 .f32 :=
  k0_pay4 (newM x0 x1 x2 x3 x4 x5 m)

/-- What the point stores as the running normaliser. -/
def stL (x0 : Vec F S64x32x512 .f32) (x1 : Vec F S32x512 .f32) (x2 : Vec F S512x512 .bf16) (x3 : Vec F S1x512 .f32)
    (x4 : Vec F S1x512 .f32) (x5 : Vec F S1x1 .f32) (m l : Vec F S32x1 .f32) : FVec F S32x1 .f32 :=
  k0_pay3 (tileScoreT x0 x1 x2 x3 x4 x5) (newM x0 x1 x2 x3 x4 x5 m) m l

/-- What the point stores as the running weighted sum. -/
def stA (x0 : Vec F S64x32x512 .f32) (x1 : Vec F S32x512 .f32) (x2 : Vec F S512x512 .bf16) (x3 : Vec F S1x512 .f32)
    (x4 : Vec F S1x512 .f32) (x5 : Vec F S1x1 .f32) (m : Vec F S32x1 .f32) (a : Vec F S32x512 .f32) : FVec F S32x512 .f32 :=
  k0_pay5 x0 (tileScoreT x0 x1 x2 x3 x4 x5) (newM x0 x1 x2 x3 x4 x5 m) m a

end Cert.KernelIdeal.Body

end
-- ==== Proof.KernelPieces.lean ====
/-
  What each control case of the body leaves in its outputs and in the three running values, as the named step functions.

  The body has three cases: the first point of a core's half resets the running values and then updates them; a middle
  point updates them from what the previous point left; the last point does the same and also publishes them. In every
  case the logits' block is the tile's logits, and the three running values end at the step functions of the loaded
  blocks and of the values the update started from.
-/
import proofs.«420586_j87265145520380_3_alg».proof.Proof.Gen.KernelIdeal.Frame
import proofs.«420586_j87265145520380_3_alg».proof.Proof.KernelVocab
import Idealize.ShloMosaic.Lib.Pipeline.Value

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F]

/-- The zero offsets of a rank-2 block, however spelt. -/
private theorem hz2 : (![0, 0] : Fin 2 → Nat) = fun _ => 0 := funext fun a => by fin_cases a <;> rfl

/-- The zero offsets of a rank-3 block, however spelt. -/
private theorem hz3 : (![0, 0, 0] : Fin 3 → Nat) = fun _ => 0 := funext fun a => by fin_cases a <;> rfl

/-! ## Case A: the first point of a core's half (the running values are reset before they are read) -/

/-- The logits' block is the tile's logits. -/
theorem out_A_6 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) :
    out0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = tileScore x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The running maximum left behind. -/
theorem sout_A_0 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = stM x0 x1 x2 x3 x4 x5 (k0_pay9 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S32x1) hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2,
    View.readCov_unit_zero (S := S32x1) _ hz2, View.readCov_unit_zero (S := S32x512) _ hz2]
  rfl

/-- The running normaliser left behind. -/
theorem sout_A_1 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = stL x0 x1 x2 x3 x4 x5 (k0_pay9 (F := F)) (k0_pay10 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S32x1) hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2,
    View.readCov_unit_zero (S := S32x1) _ hz2, View.readCov_unit_zero (S := S32x512) _ hz2]
  rfl

/-- The running weighted sum left behind. -/
theorem sout_A_2 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 = stA x0 x1 x2 x3 x4 x5 (k0_pay9 (F := F)) (k0_pay11 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold kernelRun0_A
  dsimp only
  sl_unfold_words
  rw [View.canon_cons_unit_zero (S := S32x512) hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2,
    View.readCov_unit_zero (S := S32x1) _ hz2, View.readCov_unit_zero (S := S32x512) _ hz2]
  rfl

/-! ## Case B: a middle point (the running values are the previous point's) -/

/-- The logits' block is the tile's logits. -/
theorem out_B_6 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    out0_B_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = tileScore x0 x1 x2 x3 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The running maximum left behind. -/
theorem sout_B_0 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = stM x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The running normaliser left behind. -/
theorem sout_B_1 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = stL x0 x1 x2 x3 x4 x5 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The running weighted sum left behind. -/
theorem sout_B_2 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : ¬cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = stA x0 x1 x2 x3 x4 x5 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-! ## Case C: the last point of a core's half (the running values are the previous point's, and are published) -/

/-- The logits' block is the tile's logits. -/
theorem out_C_6 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = tileScore x0 x1 x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The running maximum left behind. -/
theorem sout_C_0 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = stM x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The running normaliser left behind. -/
theorem sout_C_1 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = stL x0 x1 x2 x3 x4 x5 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The running weighted sum left behind. -/
theorem sout_C_2 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = stA x0 x1 x2 x3 x4 x5 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2]
  rfl

/-- The published weighted sum: the one just stored, with a leading unit axis. -/
theorem out_C_7 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay6 (stA x0 x1 x2 x3 x4 x5 xs0 xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2,
    View.readCov_unit_zero (S := S32x512) _ hz2]
  rfl

/-- The published maximum: the one just stored, with a leading unit axis. -/
theorem out_C_8 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay7 (stM x0 x1 x2 x3 x4 x5 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2,
    View.readCov_unit_zero (S := S32x1) _ hz2]
  rfl

/-- The published normaliser: the one just stored, with a leading unit axis. -/
theorem out_C_9 (c : Dev nD) (i : grid0.Coords) (arg2 : Memref sig .tc .vmem S64x32x512 .f32) (harg2 : arg2.IsWhole) (arg3 : Memref sig .tc .vmem S32x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S64x32 .f32) (harg8 : arg8.IsWhole) (arg9 : Memref sig .tc .vmem S1x32x512 .f32) (harg9 : arg9.IsWhole) (arg10 : Memref sig .tc .vmem S1x32x1 .f32) (harg10 : arg10.IsWhole) (arg11 : Memref sig .tc .vmem S1x32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S32x512 .f32) (harg14 : arg14.IsWhole) (hc0 : ¬cond0_0 i) (hc1 : cond0_1 i)
    (x0 : Vec F S64x32x512 .f32) (x1 : Vec F S32x512 .f32) (x2 : Vec F S512x512 .bf16) (x3 : Vec F S1x512 .f32) (x4 : Vec F S1x512 .f32) (x5 : Vec F S1x1 .f32) (xs0 : Vec F S32x1 .f32) (xs1 : Vec F S32x1 .f32) (xs2 : Vec F S32x512 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 = k0_pay8 (stL x0 x1 x2 x3 x4 x5 xs0 xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread,
    harg7.read_unread, harg12.read_unread, harg13.read_unread, harg14.read_unread,
    View.ld_unit_zero (S := S64x32x512) hz3, View.ld_unit_zero (S := S512x512) hz2, View.ld_unit_zero (S := S1x512) hz2,
    View.ld_unit_zero (S := S32x512) hz2, View.ld_unit_zero (S := S1x1) hz2, View.ld_unit_zero (S := S32x1) hz2,
    View.readCov_unit_zero (S := S32x1) _ hz2]
  rfl

end Cert.KernelIdeal.Body

end
-- ==== Proof.LibOnlineSoftmax.lean ====
/-
  Online softmax over tiles, on the reals.

  A row of scores is visited tile by tile (a tile is `K` consecutive scores). The running state is a triple:
  the maximum `m` of the scores seen so far, the sum `l` of `exp (x - m)` over them, and the weighted sum `a` of
  `exp (x - m) * y` over them. Visiting a further tile with maximum `t` rescales the old sums by
  `exp (m - max m t)` and adds the tile's own terms. This file states the recursion (`runM`, `runL`, `runA`), its closed
  forms (each sum is the plain sum over every score visited, taken against the current maximum), that two such runs over
  two halves of a row merge into the whole row's sums against the overall maximum, and that the merged normaliser is at
  least one (the maximal score contributes `exp 0`). Nothing here mentions a program.
-/
import Mathlib.Analysis.SpecialFunctions.Exp
import Mathlib.Algebra.BigOperators.Intervals
import Mathlib.Order.Interval.Finset.Nat

noncomputable section

namespace OnlineSoftmax

open Finset

variable {K : ℕ} [NeZero K]

/-- The largest score of one tile. -/
def tileMax (X : Fin K → ℝ) : ℝ := (Finset.univ : Finset (Fin K)).sup' Finset.univ_nonempty X

/-- A tile's sum of `exp (x - m)`. -/
def tileExp (m : ℝ) (X : Fin K → ℝ) : ℝ := ∑ a, Real.exp (X a - m)

/-- A tile's sum of `exp (x - m) * y`. -/
def tileWt (m : ℝ) (X Y : Fin K → ℝ) : ℝ := ∑ a, Real.exp (X a - m) * Y a

/-- The running maximum after tiles `0 … j`. -/
def runM (Xs : ℕ → Fin K → ℝ) : ℕ → ℝ
  | 0 => tileMax (Xs 0)
  | j + 1 => max (runM Xs j) (tileMax (Xs (j + 1)))

/-- The running normaliser after tiles `0 … j`, as the online update computes it. -/
def runL (Xs : ℕ → Fin K → ℝ) : ℕ → ℝ
  | 0 => tileExp (runM Xs 0) (Xs 0)
  | j + 1 => Real.exp (runM Xs j - runM Xs (j + 1)) * runL Xs j + tileExp (runM Xs (j + 1)) (Xs (j + 1))

/-- The running weighted sum after tiles `0 … j`, as the online update computes it. -/
def runA (Xs Ys : ℕ → Fin K → ℝ) : ℕ → ℝ
  | 0 => tileWt (runM Xs 0) (Xs 0) (Ys 0)
  | j + 1 => Real.exp (runM Xs j - runM Xs (j + 1)) * runA Xs Ys j + tileWt (runM Xs (j + 1)) (Xs (j + 1)) (Ys (j + 1))

/-! ### Unfolding equations of the recursions -/

private theorem runM_zero (Xs : ℕ → Fin K → ℝ) : runM Xs 0 = tileMax (Xs 0) := rfl

private theorem runM_succ (Xs : ℕ → Fin K → ℝ) (j : ℕ) :
    runM Xs (j + 1) = max (runM Xs j) (tileMax (Xs (j + 1))) := rfl

private theorem runL_zero (Xs : ℕ → Fin K → ℝ) : runL Xs 0 = tileExp (runM Xs 0) (Xs 0) := rfl

private theorem runL_succ (Xs : ℕ → Fin K → ℝ) (j : ℕ) :
    runL Xs (j + 1)
      = Real.exp (runM Xs j - runM Xs (j + 1)) * runL Xs j + tileExp (runM Xs (j + 1)) (Xs (j + 1)) := rfl

private theorem runA_zero (Xs Ys : ℕ → Fin K → ℝ) : runA Xs Ys 0 = tileWt (runM Xs 0) (Xs 0) (Ys 0) := rfl

private theorem runA_succ (Xs Ys : ℕ → Fin K → ℝ) (j : ℕ) :
    runA Xs Ys (j + 1)
      = Real.exp (runM Xs j - runM Xs (j + 1)) * runA Xs Ys j
        + tileWt (runM Xs (j + 1)) (Xs (j + 1)) (Ys (j + 1)) := rfl

/-! ### One tile -/

/-- Every score of a tile is below the tile's maximum. -/
private theorem le_tileMax (X : Fin K → ℝ) (a : Fin K) : X a ≤ tileMax X :=
  Finset.le_sup' X (Finset.mem_univ a)

/-- A tile's maximum is one of its scores. -/
private theorem tileMax_mem (X : Fin K → ℝ) : ∃ a : Fin K, tileMax X = X a := by
  obtain ⟨a, _, ha⟩ := Finset.exists_mem_eq_sup' (Finset.univ_nonempty (α := Fin K)) X
  exact ⟨a, ha⟩

/-- Changing the reference point from `m` to `m'` multiplies a tile's exponential sum by `exp (m - m')`:
termwise, `exp (m - m') * exp (x - m) = exp (x - m')`. -/
private theorem tileExp_rescale (m m' : ℝ) (X : Fin K → ℝ) :
    Real.exp (m - m') * tileExp m X = tileExp m' X := by
  unfold tileExp
  rw [Finset.mul_sum]
  refine Finset.sum_congr rfl (fun a _ => ?_)
  rw [← Real.exp_add]
  congr 1
  ring

/-- The same change of reference point for the weighted sum. -/
private theorem tileWt_rescale (m m' : ℝ) (X Y : Fin K → ℝ) :
    Real.exp (m - m') * tileWt m X Y = tileWt m' X Y := by
  unfold tileWt
  rw [Finset.mul_sum]
  refine Finset.sum_congr rfl (fun a _ => ?_)
  rw [← mul_assoc, ← Real.exp_add]
  congr 2
  ring

/-- A tile's exponential sum is nonnegative. -/
private theorem tileExp_nonneg (m : ℝ) (X : Fin K → ℝ) : 0 ≤ tileExp m X :=
  Finset.sum_nonneg (fun a _ => (Real.exp_pos (X a - m)).le)

/-- If the reference point `m` is itself a visited score, that score contributes `exp 0 = 1` and every other
term is nonnegative, so the whole sum is at least one. -/
private theorem one_le_sum_tileExp (m : ℝ) (Xs : ℕ → Fin K → ℝ) (j i : ℕ) (hi : i ≤ j) (a : Fin K)
    (h : m = Xs i a) : 1 ≤ ∑ k ∈ Finset.range (j + 1), tileExp m (Xs k) := by
  have h1 : (1 : ℝ) = Real.exp (Xs i a - m) := by rw [h, sub_self, Real.exp_zero]
  have h2 : Real.exp (Xs i a - m) ≤ tileExp m (Xs i) :=
    Finset.single_le_sum (f := fun b => Real.exp (Xs i b - m))
      (fun b _ => (Real.exp_pos (Xs i b - m)).le) (Finset.mem_univ a)
  have h3 : tileExp m (Xs i) ≤ ∑ k ∈ Finset.range (j + 1), tileExp m (Xs k) :=
    Finset.single_le_sum (f := fun k => tileExp m (Xs k))
      (fun k _ => tileExp_nonneg m (Xs k)) (Finset.mem_range.mpr (Nat.lt_succ_of_le hi))
  linarith

/-! ### The theorems -/

/-- Every score of every visited tile is below the running maximum. -/
theorem le_runM (Xs : ℕ → Fin K → ℝ) (j i : ℕ) (hi : i ≤ j) (a : Fin K) : Xs i a ≤ runM Xs j := by
  induction j with
  | zero =>
    have h0 : i = 0 := Nat.le_zero.mp hi
    subst h0
    exact le_tileMax (Xs 0) a
  | succ j ih =>
    rw [runM_succ]
    rcases Nat.lt_or_ge i (j + 1) with h | h
    · exact le_trans (ih (Nat.lt_succ_iff.mp h)) (le_max_left _ _)
    · have h1 : i = j + 1 := le_antisymm hi h
      subst h1
      exact le_trans (le_tileMax (Xs (j + 1)) a) (le_max_right _ _)

/-- The running maximum is one of the visited scores. -/
theorem runM_mem (Xs : ℕ → Fin K → ℝ) (j : ℕ) : ∃ i, i ≤ j ∧ ∃ a : Fin K, runM Xs j = Xs i a := by
  induction j with
  | zero =>
    obtain ⟨a, ha⟩ := tileMax_mem (Xs 0)
    exact ⟨0, le_refl 0, a, ha⟩
  | succ j ih =>
    obtain ⟨i, hi, a, ha⟩ := ih
    rcases max_choice (runM Xs j) (tileMax (Xs (j + 1))) with h | h
    · exact ⟨i, Nat.le_succ_of_le hi, a, by rw [runM_succ, h, ha]⟩
    · obtain ⟨b, hb⟩ := tileMax_mem (Xs (j + 1))
      exact ⟨j + 1, le_refl (j + 1), b, by rw [runM_succ, h, hb]⟩

/-- Closed form of the normaliser: the sum over every visited score against the current maximum. -/
theorem runL_eq (Xs : ℕ → Fin K → ℝ) (j : ℕ) :
    runL Xs j = ∑ i ∈ Finset.range (j + 1), tileExp (runM Xs j) (Xs i) := by
  induction j with
  | zero =>
    rw [Finset.sum_range_one, runL_zero]
  | succ j ih =>
    rw [Finset.sum_range_succ _ (j + 1), runL_succ, ih, Finset.mul_sum]
    congr 1
    exact Finset.sum_congr rfl (fun i _ => tileExp_rescale (runM Xs j) (runM Xs (j + 1)) (Xs i))

/-- Closed form of the weighted sum. -/
theorem runA_eq (Xs Ys : ℕ → Fin K → ℝ) (j : ℕ) :
    runA Xs Ys j = ∑ i ∈ Finset.range (j + 1), tileWt (runM Xs j) (Xs i) (Ys i) := by
  induction j with
  | zero =>
    rw [Finset.sum_range_one, runA_zero]
  | succ j ih =>
    rw [Finset.sum_range_succ _ (j + 1), runA_succ, ih, Finset.mul_sum]
    congr 1
    exact Finset.sum_congr rfl
      (fun i _ => tileWt_rescale (runM Xs j) (runM Xs (j + 1)) (Xs i) (Ys i))

/-- Two runs merged against the larger of their maxima: the normaliser over both. -/
theorem merge_L (X0 X1 : ℕ → Fin K → ℝ) (j : ℕ) :
    runL X0 j * Real.exp (runM X0 j - max (runM X0 j) (runM X1 j))
      + runL X1 j * Real.exp (runM X1 j - max (runM X0 j) (runM X1 j))
      = ∑ i ∈ Finset.range (j + 1), tileExp (max (runM X0 j) (runM X1 j)) (X0 i)
        + ∑ i ∈ Finset.range (j + 1), tileExp (max (runM X0 j) (runM X1 j)) (X1 i) := by
  rw [runL_eq X0 j, runL_eq X1 j, Finset.sum_mul, Finset.sum_mul]
  congr 1
  · refine Finset.sum_congr rfl (fun i _ => ?_)
    rw [mul_comm]
    exact tileExp_rescale (runM X0 j) (max (runM X0 j) (runM X1 j)) (X0 i)
  · refine Finset.sum_congr rfl (fun i _ => ?_)
    rw [mul_comm]
    exact tileExp_rescale (runM X1 j) (max (runM X0 j) (runM X1 j)) (X1 i)

/-- Two runs merged against the larger of their maxima: the weighted sum over both. -/
theorem merge_A (X0 X1 Y0 Y1 : ℕ → Fin K → ℝ) (j : ℕ) :
    runA X0 Y0 j * Real.exp (runM X0 j - max (runM X0 j) (runM X1 j))
      + runA X1 Y1 j * Real.exp (runM X1 j - max (runM X0 j) (runM X1 j))
      = ∑ i ∈ Finset.range (j + 1), tileWt (max (runM X0 j) (runM X1 j)) (X0 i) (Y0 i)
        + ∑ i ∈ Finset.range (j + 1), tileWt (max (runM X0 j) (runM X1 j)) (X1 i) (Y1 i) := by
  rw [runA_eq X0 Y0 j, runA_eq X1 Y1 j, Finset.sum_mul, Finset.sum_mul]
  congr 1
  · refine Finset.sum_congr rfl (fun i _ => ?_)
    rw [mul_comm]
    exact tileWt_rescale (runM X0 j) (max (runM X0 j) (runM X1 j)) (X0 i) (Y0 i)
  · refine Finset.sum_congr rfl (fun i _ => ?_)
    rw [mul_comm]
    exact tileWt_rescale (runM X1 j) (max (runM X0 j) (runM X1 j)) (X1 i) (Y1 i)

/-- The merged normaliser is at least one: the maximal score contributes `exp 0` and every term is positive. -/
theorem one_le_merged (X0 X1 : ℕ → Fin K → ℝ) (j : ℕ) :
    1 ≤ ∑ i ∈ Finset.range (j + 1), tileExp (max (runM X0 j) (runM X1 j)) (X0 i)
        + ∑ i ∈ Finset.range (j + 1), tileExp (max (runM X0 j) (runM X1 j)) (X1 i) := by
  have n0 : 0 ≤ ∑ i ∈ Finset.range (j + 1), tileExp (max (runM X0 j) (runM X1 j)) (X0 i) :=
    Finset.sum_nonneg (fun i _ => tileExp_nonneg _ (X0 i))
  have n1 : 0 ≤ ∑ i ∈ Finset.range (j + 1), tileExp (max (runM X0 j) (runM X1 j)) (X1 i) :=
    Finset.sum_nonneg (fun i _ => tileExp_nonneg _ (X1 i))
  rcases max_choice (runM X0 j) (runM X1 j) with h | h
  · obtain ⟨i, hi, a, ha⟩ := runM_mem X0 j
    have h1 := one_le_sum_tileExp (max (runM X0 j) (runM X1 j)) X0 j i hi a (h.trans ha)
    linarith
  · obtain ⟨i, hi, a, ha⟩ := runM_mem X1 j
    have h1 := one_le_sum_tileExp (max (runM X0 j) (runM X1 j)) X1 j i hi a (h.trans ha)
    linarith

end OnlineSoftmax

end
-- ==== Proof.KernelStep.lean ====
/-
  One point's update of the running values, read index by index over the reals.

  When the tile's logits are real numbers `X n a` (batch row `n`, offset `a`) and the tile's encoder outputs are real
  numbers `Y n h a`, the point's stores are the online-softmax step: from the reset values (maximum `-∞`, sums `0`) they
  are the tile's own maximum and sums (`exp (-∞ - t) = 0` kills the old sums); from real running values they are the
  rescaled old sums plus the tile's terms.
-/
import Idealize.ShloMosaic.Lib.ValueIdx
import Idealize.ShloMosaic.Lib.ValueLayout
import Idealize.ShloMosaic.Lib.Pipeline.Value
import Idealize.ShloMosaic.PureOps.Ideal.Laws
import proofs.«420586_j87265145520380_3_alg».proof.Proof.KernelVocab
import proofs.«420586_j87265145520380_3_alg».proof.Proof.LibOnlineSoftmax

noncomputable section

namespace Cert.KernelIdeal.Body

open Idealize.ShloMosaic Idealize.ShloMosaic.ValueIdx Cert.KernelIdeal Cert.KernelIdeal.Gen OnlineSoftmax

/-! ### Columns, broadcasts and lane reductions at the kernel's shapes -/

section Layout
variable {α : Type}

/-- A `[32]` vector viewed as a `[32, 1]` column reads, at `(n, z)`, the vector at `n`. -/
private theorem col32_apply (v : S32.Idx → α) (h : S32.ShapeCasts S32x1) (n : Fin 32) (z : Fin 1) :
    shapeCast S32x1 v h (ix2 n z) = v (ix1 n) :=
  shapeCast_apply v h _ _ (by
    have hz : z.val = 0 := by omega
    rw [Shape.rowMajor_val_one, Shape.rowMajor_val_two]
    show n.val = n.val * 1 + z.val
    rw [hz, Nat.mul_one, Nat.add_zero])

/-- A `[64, 32]` matrix viewed as `[64, 32, 1]` reads, at `(a, n, z)`, the matrix at `(a, n)`. -/
private theorem col64x32_apply (v : S64x32.Idx → α) (h : S64x32.ShapeCasts S64x32x1) (a : Fin 64) (n : Fin 32)
    (z : Fin 1) : shapeCast S64x32x1 v h (ix3 a n z) = v (ix2 a n) :=
  shapeCast_apply v h _ _ (by
    have hz : z.val = 0 := by omega
    rw [Shape.rowMajor_val_two, Shape.rowMajor_val_three]
    show a.val * 32 + n.val = (a.val * 32 + n.val) * 1 + z.val
    rw [hz, Nat.mul_one, Nat.add_zero])

/-- A `[32, 1]` column broadcast along 64 lanes reads, at `(n, a)`, the column at `(n, 0)`. -/
private theorem bc32x1_32x64_apply (v : S32x1.Idx → α) (h : S32x1.Broadcasts S32x64) (n : Fin 32) (a : Fin 64) :
    broadcastTo S32x64 v h (ix2 n a) = v (ix2 n (0 : Fin 1)) := by
  refine broadcastTo_apply v h (ix2 n a) (ix2 n (0 : Fin 1)) fun ax => ?_
  match ax with
  | ⟨0, _⟩ => rfl
  | ⟨1, _⟩ => rfl

/-- A `[32, 1]` column broadcast along 512 lanes reads, at `(n, k)`, the column at `(n, 0)`. -/
private theorem bc32x1_32x512_apply (v : S32x1.Idx → α) (h : S32x1.Broadcasts S32x512) (n : Fin 32) (k : Fin 512) :
    broadcastTo S32x512 v h (ix2 n k) = v (ix2 n (0 : Fin 1)) := by
  refine broadcastTo_apply v h (ix2 n k) (ix2 n (0 : Fin 1)) fun ax => ?_
  match ax with
  | ⟨0, _⟩ => rfl
  | ⟨1, _⟩ => rfl

/-- A `[64, 32, 1]` array broadcast along 512 lanes reads, at `(a, n, k)`, the array at `(a, n, 0)`. -/
private theorem bc64x32x1_apply (v : S64x32x1.Idx → α) (h : S64x32x1.Broadcasts S64x32x512) (a : Fin 64) (n : Fin 32)
    (k : Fin 512) : broadcastTo S64x32x512 v h (ix3 a n k) = v (ix3 a n (0 : Fin 1)) := by
  refine broadcastTo_apply v h (ix3 a n k) (ix3 a n (0 : Fin 1)) fun ax => ?_
  match ax with
  | ⟨0, _⟩ => rfl
  | ⟨1, _⟩ => rfl
  | ⟨2, _⟩ => rfl

end Layout

/-- The source index over row `n` with lane `a` inserted is `(n, a)`. -/
private theorem lift_row (h : S32x64.Reduces [1] S32) (n : Fin 32) (a : Fin 64) : h.lift (ix1 n) a = ix2 n a := by
  funext c
  match c with
  | ⟨0, _⟩ => exact Fin.ext rfl
  | ⟨1, _⟩ => exact Fin.ext rfl

/-- The source index over `(n, k)` with position `a` inserted in front is `(a, n, k)`. -/
private theorem lift_tile (h : S64x32x512.Reduces [0] S32x512) (n : Fin 32) (k : Fin 512) (a : Fin 64) :
    h.lift (ix2 n k) a = ix3 a n k := by
  funext c
  match c with
  | ⟨0, _⟩ => exact Fin.ext rfl
  | ⟨1, _⟩ => exact Fin.ext rfl
  | ⟨2, _⟩ => exact Fin.ext rfl

/-- A row's maximum from `-∞`: the fold of `max` from `⊥` over the row's 64 entries. -/
private theorem rowMax_apply (T : FVec Ideal S32x64 .f32) (h : S32x64.Reduces [1] S32) (n : Fin 32) :
    multiReduction (F := Ideal) .maximumf [1] S32 T 0xFF800000#32 h (.inl rfl) rfl (ix1 n)
      = (Finset.univ : Finset (Fin 64)).fold max (⊥ : EReal) (fun a => T (ix2 n a)) := by
  refine (Ideal.multiReduction_maximumf_single T 0xFF800000#32 h (.inl rfl) rfl (ix1 n)).trans ?_
  have hb : FloatOps.ofBits (F := Ideal) .f32 0xFF800000#32 = (⊥ : EReal) := by
    simp [Ideal.ofBits, Ideal.ieee]
  have hf : (T ∘ h.lift (ix1 n)) = fun a : Fin 64 => T (ix2 n a) := by
    funext a
    exact congrArg T (lift_row h n a)
  rw [hb]
  exact congrArg (fun g => (Finset.univ : Finset (Fin 64)).fold max (⊥ : EReal) g) hf

/-- A row's sum from zero: the sum of the row's 64 entries. -/
private theorem rowSum_apply (E : FVec Ideal S32x64 .f32) (h : S32x64.Reduces [1] S32) (n : Fin 32) :
    multiReduction (F := Ideal) .add [1] S32 E 0x00000000#32 h (.inl rfl) rfl (ix1 n)
      = ∑ a : Fin 64, E (ix2 n a) := by
  refine (Ideal.multiReduction_add_single E 0x00000000#32 h (.inl rfl) rfl (ix1 n)).trans ?_
  exact Finset.sum_congr rfl fun a _ => congrArg E (lift_row h n a)

/-- The sum over the tile's 64 positions, at `(n, k)`. -/
private theorem tileSum_apply (P : FVec Ideal S64x32x512 .f32) (h : S64x32x512.Reduces [0] S32x512) (n : Fin 32)
    (k : Fin 512) :
    multiReduction (F := Ideal) .add [0] S32x512 P 0x00000000#32 h (.inl rfl) rfl (ix2 n k)
      = ∑ a : Fin 64, P (ix3 a n k) := by
  refine (Ideal.multiReduction_add_single P 0x00000000#32 h (.inl rfl) rfl (ix2 n k)).trans ?_
  exact Finset.sum_congr rfl fun a _ => congrArg P (lift_tile h n k a)

/-! ### Real numbers inside the extended reals -/

/-- The larger of two reals, taken in the extended reals. -/
private theorem coe_max' (a b : ℝ) : max (a : EReal) (b : EReal) = ((max a b : ℝ) : EReal) :=
  (EReal.coe_strictMono.monotone.map_max).symm

/-- The fold of `max` from `-∞` over 64 reals is their largest. -/
private theorem fold_max_coe (f : Fin 64 → ℝ) :
    (Finset.univ : Finset (Fin 64)).fold max (⊥ : EReal) (fun a => ((f a : ℝ) : EReal)) = ((tileMax f : ℝ) : EReal) := by
  unfold tileMax
  have h1 : (Finset.univ : Finset (Fin 64)).fold max (⊥ : EReal) (fun a => ((f a : ℝ) : EReal))
      = (Finset.univ : Finset (Fin 64)).sup (fun a => ((f a : ℝ) : EReal)) := rfl
  rw [h1, ← Finset.sup'_eq_sup Finset.univ_nonempty]
  exact (Finset.comp_sup'_eq_sup'_comp Finset.univ_nonempty (fun r : ℝ => (r : EReal))
    (fun _ _ => EReal.coe_strictMono.monotone.map_max)).symm

/-- A finite sum of reals, taken in the extended reals. -/
private theorem coe_sum (s : Finset (Fin 64)) (f : Fin 64 → ℝ) :
    (∑ a ∈ s, ((f a : ℝ) : EReal)) = ((∑ a ∈ s, f a : ℝ) : EReal) := by
  induction s using Finset.induction_on with
  | empty => simp
  | insert a s ha ih => rw [Finset.sum_insert ha, Finset.sum_insert ha, ih, EReal.coe_add]

/-- The exponential of a difference of reals. -/
private theorem exp_sub_coe (x m : ℝ) : Ideal.exp ((x : EReal) - (m : EReal)) = ((Real.exp (x - m) : ℝ) : EReal) := by
  rw [← EReal.coe_sub, Ideal.exp_coe]

/-- A tile's sum of `exp (x - μ)`, taken in the extended reals. -/
private theorem sum_exp_coe (X : Fin 64 → ℝ) (μ : ℝ) :
    ∑ a : Fin 64, Ideal.exp ((X a : EReal) - (μ : EReal)) = ((tileExp μ X : ℝ) : EReal) := by
  unfold tileExp
  exact (Finset.sum_congr rfl fun a _ => exp_sub_coe (X a) μ).trans (coe_sum Finset.univ _)

/-- A tile's sum of `exp (x - μ) * y`, taken in the extended reals. -/
private theorem sum_exp_mul_coe (X Y : Fin 64 → ℝ) (μ : ℝ) :
    ∑ a : Fin 64, Ideal.exp ((X a : EReal) - (μ : EReal)) * (Y a : EReal) = ((tileWt μ X Y : ℝ) : EReal) := by
  unfold tileWt
  refine (Finset.sum_congr rfl fun a _ => ?_).trans (coe_sum Finset.univ _)
  rw [exp_sub_coe, ← EReal.coe_mul]

/-! ### The reset values and the two exponential payloads at an index -/

/-- The reset maximum is `-∞` everywhere. -/
private theorem pay9_apply (i : S32x1.Idx) : (k0_pay9 (F := Ideal)) i = (⊥ : EReal) := by
  unfold k0_pay9
  refine (congrFun (shapeCast_self _ shapeCasts_S32x1_S32x1) i).trans ?_
  show Ideal.ofBits .f32 0xFF800000#32 = ⊥
  simp [Ideal.ofBits, Ideal.ieee]

/-- The reset normaliser is `0` everywhere. -/
private theorem pay10_apply (i : S32x1.Idx) : (k0_pay10 (F := Ideal)) i = (0 : EReal) := by
  unfold k0_pay10
  refine (congrFun (shapeCast_self _ shapeCasts_S32x1_S32x1) i).trans ?_
  exact Ideal.ofBits_zero_f32

/-- The reset weighted sum is `0` everywhere. -/
private theorem pay11_apply (i : S32x512.Idx) : (k0_pay11 (F := Ideal)) i = (0 : EReal) := by
  unfold k0_pay11
  refine (congrFun (shapeCast_self _ shapeCasts_S32x512_S32x512) i).trans ?_
  exact Ideal.ofBits_zero_f32

/-- The rescaling factor `exp (m - M)`, index by index. -/
private theorem pay1_apply (M : FVec Ideal S32x1 .f32) (m : Vec Ideal S32x1 .f32) (i : S32x1.Idx) :
    k0_pay1 M m i = Ideal.exp ((m i : EReal) - (M i : EReal)) := rfl

/-- The tile's `exp (x - M)`: at `(n, a)` the logit there against row `n`'s maximum. -/
private theorem pay2_apply (T : FVec Ideal S32x64 .f32) (M : FVec Ideal S32x1 .f32) (n : Fin 32) (a : Fin 64) :
    k0_pay2 T M (ix2 n a) = Ideal.exp ((T (ix2 n a) : EReal) - (M (ix2 n (0 : Fin 1)) : EReal)) := by
  unfold k0_pay2
  show Ideal.exp ((T (ix2 n a) : EReal) - (broadcastTo S32x64 M broadcasts_S32x1_S32x64 (ix2 n a) : EReal)) = _
  rw [bc32x1_32x64_apply]

variable (x0 : Vec Ideal S64x32x512 .f32) (x1 : Vec Ideal S32x512 .f32) (x2 : Vec Ideal S512x512 .bf16)
  (x3 : Vec Ideal S1x512 .f32) (x4 : Vec Ideal S1x512 .f32) (x5 : Vec Ideal S1x1 .f32)

/-- The transposed logits are the logits with the coordinates swapped. -/
theorem tileScoreT_apply (n : Fin 32) (a : Fin 64) :
    tileScoreT x0 x1 x2 x3 x4 x5 (ix2 n a) = tileScore x0 x1 x2 x3 x4 x5 (ix2 a n) := by
  unfold tileScoreT tileScore k0_pay13
  exact transpose_ix2_apply (k0_pay12 x0 x2 x3 x1 x4 x5) transposes_S64x32_p1_0_S32x64 n a

/-! ### The three stores at an index, before anything is known to be real -/

/-- The updated maximum of row `n`: the larger of the old one and the fold of `max` over the row's logits. -/
private theorem newM_apply (m : Vec Ideal S32x1 .f32) (n : Fin 32) (z : Fin 1) :
    newM x0 x1 x2 x3 x4 x5 m (ix2 n z)
      = max (m (ix2 n z) : EReal)
          ((Finset.univ : Finset (Fin 64)).fold max (⊥ : EReal) (fun a => tileScoreT x0 x1 x2 x3 x4 x5 (ix2 n a))) := by
  unfold newM k0_pay14
  refine (maximumf_apply _ _ _).trans ?_
  refine congrArg (max (m (ix2 n z) : EReal)) ?_
  refine (col32_apply _ shapeCasts_S32_S32x1 n z).trans ?_
  exact rowMax_apply (k0_pay13 x0 x2 x3 x1 x4 x5) reduces_S32x64_S32 n

/-- The stored maximum is the updated maximum. -/
private theorem stM_apply (m : Vec Ideal S32x1 .f32) (i : S32x1.Idx) :
    stM x0 x1 x2 x3 x4 x5 m i = newM x0 x1 x2 x3 x4 x5 m i := by
  unfold stM k0_pay4
  exact congrFun (shapeCast_self _ shapeCasts_S32x1_S32x1) i

/-- The stored normaliser of row `n`: the old one rescaled, plus the row's sum of `exp (x - M)`. -/
private theorem stL_apply (m l : Vec Ideal S32x1 .f32) (n : Fin 32) :
    stL x0 x1 x2 x3 x4 x5 m l (ix2 n (0 : Fin 1))
      = Ideal.exp ((m (ix2 n (0 : Fin 1)) : EReal) - (newM x0 x1 x2 x3 x4 x5 m (ix2 n (0 : Fin 1)) : EReal))
            * (l (ix2 n (0 : Fin 1)) : EReal)
        + ∑ a : Fin 64, Ideal.exp ((tileScoreT x0 x1 x2 x3 x4 x5 (ix2 n a) : EReal)
            - (newM x0 x1 x2 x3 x4 x5 m (ix2 n (0 : Fin 1)) : EReal)) := by
  unfold stL k0_pay3
  refine (congrFun (shapeCast_self _ shapeCasts_S32x1_S32x1) (ix2 n (0 : Fin 1))).trans ?_
  refine (addf_apply _ _ _).trans ?_
  refine congrArg₂ (· + ·) ?_ ?_
  · rfl
  · refine (col32_apply _ shapeCasts_S32_S32x1 n 0).trans ?_
    refine (rowSum_apply _ reduces_S32x64_S32 n).trans ?_
    exact Finset.sum_congr rfl fun a _ => pay2_apply _ _ n a

/-- The stored weighted sum at `(n, k)`: the old one rescaled, plus the sum over the tile's positions of
`exp (x - M)` times the encoder output. -/
private theorem stA_apply (m : Vec Ideal S32x1 .f32) (ac : Vec Ideal S32x512 .f32) (n : Fin 32) (k : Fin 512) :
    stA x0 x1 x2 x3 x4 x5 m ac (ix2 n k)
      = Ideal.exp ((m (ix2 n (0 : Fin 1)) : EReal) - (newM x0 x1 x2 x3 x4 x5 m (ix2 n (0 : Fin 1)) : EReal))
            * (ac (ix2 n k) : EReal)
        + ∑ a : Fin 64, Ideal.exp ((tileScoreT x0 x1 x2 x3 x4 x5 (ix2 n a) : EReal)
            - (newM x0 x1 x2 x3 x4 x5 m (ix2 n (0 : Fin 1)) : EReal)) * (x0 (ix3 a n k) : EReal) := by
  unfold stA k0_pay5
  refine (congrFun (shapeCast_self _ shapeCasts_S32x512_S32x512) (ix2 n k)).trans ?_
  refine (addf_apply _ _ _).trans ?_
  refine congrArg₂ (· + ·) ?_ ?_
  · refine (mulf_apply _ _ _).trans ?_
    refine congrArg (· * (ac (ix2 n k) : EReal)) ?_
    exact bc32x1_32x512_apply _ broadcasts_S32x1_S32x512 n k
  · refine (tileSum_apply _ reduces_S64x32x512_S32x512 n k).trans ?_
    refine Finset.sum_congr rfl fun a _ => ?_
    refine (mulf_apply _ _ _).trans ?_
    refine congrArg (· * (x0 (ix3 a n k) : EReal)) ?_
    refine (bc64x32x1_apply _ broadcasts_S64x32x1_S64x32x512 a n k).trans ?_
    refine (col64x32_apply _ shapeCasts_S64x32_S64x32x1 a n 0).trans ?_
    refine (transpose_ix2_apply _ transposes_S32x64_p1_0_S64x32 a n).trans ?_
    exact pay2_apply _ _ n a

/-! ### Real logits -/

section RealLogits
variable (X : Fin 32 → Fin 64 → ℝ) (hX : ∀ a n, tileScore x0 x1 x2 x3 x4 x5 (ix2 a n) = ((X n a : ℝ) : EReal))
include hX

/-- The transposed logits are real. -/
private theorem tileScoreT_coe (n : Fin 32) (a : Fin 64) :
    tileScoreT x0 x1 x2 x3 x4 x5 (ix2 n a) = ((X n a : ℝ) : EReal) :=
  (tileScoreT_apply x0 x1 x2 x3 x4 x5 n a).trans (hX a n)

/-- The fold of `max` over row `n`'s logits is the tile's maximum. -/
private theorem rowMax_coe (n : Fin 32) :
    (Finset.univ : Finset (Fin 64)).fold max (⊥ : EReal) (fun a => tileScoreT x0 x1 x2 x3 x4 x5 (ix2 n a))
      = ((tileMax (X n) : ℝ) : EReal) := by
  have h : (fun a : Fin 64 => tileScoreT x0 x1 x2 x3 x4 x5 (ix2 n a)) = fun a => ((X n a : ℝ) : EReal) :=
    funext fun a => tileScoreT_coe x0 x1 x2 x3 x4 x5 X hX n a
  rw [h]
  exact fold_max_coe (X n)

/-- From the reset maximum the updated maximum is the tile's: `max (-∞) t = t`. -/
private theorem newM_first (n : Fin 32) (z : Fin 1) :
    newM x0 x1 x2 x3 x4 x5 (k0_pay9 (F := Ideal)) (ix2 n z) = ((tileMax (X n) : ℝ) : EReal) := by
  rw [newM_apply, rowMax_coe x0 x1 x2 x3 x4 x5 X hX n, pay9_apply]
  exact max_eq_right bot_le

/-- From a real running maximum the updated maximum is the larger of the two. -/
private theorem newM_next (m : Vec Ideal S32x1 .f32) (n : Fin 32) (z : Fin 1) (μ : ℝ)
    (hm : m (ix2 n z) = ((μ : ℝ) : EReal)) :
    newM x0 x1 x2 x3 x4 x5 m (ix2 n z) = ((max μ (tileMax (X n)) : ℝ) : EReal) := by
  rw [newM_apply, rowMax_coe x0 x1 x2 x3 x4 x5 X hX n, hm]
  exact coe_max' μ (tileMax (X n))

/-- Row `n`'s sum of `exp (x - μ)` against a real `μ`. -/
private theorem rowExp_coe (n : Fin 32) (μ : ℝ) :
    ∑ a : Fin 64, Ideal.exp ((tileScoreT x0 x1 x2 x3 x4 x5 (ix2 n a) : EReal) - ((μ : ℝ) : EReal))
      = ((tileExp μ (X n) : ℝ) : EReal) := by
  refine (Finset.sum_congr rfl fun a _ => ?_).trans (sum_exp_coe (X n) μ)
  rw [tileScoreT_coe x0 x1 x2 x3 x4 x5 X hX n a]

/-- Row `n`'s sum of `exp (x - μ) * y` at feature `k`, against a real `μ` and real encoder outputs. -/
private theorem rowWt_coe (Y : Fin 32 → Fin 512 → Fin 64 → ℝ) (hY : ∀ a n h, x0 (ix3 a n h) = ((Y n h a : ℝ) : EReal))
    (n : Fin 32) (k : Fin 512) (μ : ℝ) :
    ∑ a : Fin 64, Ideal.exp ((tileScoreT x0 x1 x2 x3 x4 x5 (ix2 n a) : EReal) - ((μ : ℝ) : EReal))
        * (x0 (ix3 a n k) : EReal)
      = ((tileWt μ (X n) (Y n k) : ℝ) : EReal) := by
  refine (Finset.sum_congr rfl fun a _ => ?_).trans (sum_exp_mul_coe (X n) (Y n k) μ)
  rw [tileScoreT_coe x0 x1 x2 x3 x4 x5 X hX n a, hY a n k]

end RealLogits

/-- From the reset maximum `-∞`: the stored maximum is the tile's. -/
theorem stM_first (X : Fin 32 → Fin 64 → ℝ) (hX : ∀ a n, tileScore x0 x1 x2 x3 x4 x5 (ix2 a n) = ((X n a : ℝ) : EReal)) :
    stM x0 x1 x2 x3 x4 x5 (k0_pay9 (F := Ideal)) = fun i => ((tileMax (X (i 0)) : ℝ) : EReal) := by
  funext i
  obtain ⟨n, z, rfl⟩ : ∃ (n : Fin 32) (z : Fin 1), i = ix2 n z := ⟨i 0, i 1, eq_ix2 i⟩
  show stM x0 x1 x2 x3 x4 x5 (k0_pay9 (F := Ideal)) (ix2 n z) = ((tileMax (X n) : ℝ) : EReal)
  rw [stM_apply]
  exact newM_first x0 x1 x2 x3 x4 x5 X hX n z

/-- From the reset values: the stored normaliser is the tile's sum of `exp (x - t)`. -/
theorem stL_first (X : Fin 32 → Fin 64 → ℝ) (hX : ∀ a n, tileScore x0 x1 x2 x3 x4 x5 (ix2 a n) = ((X n a : ℝ) : EReal)) :
    stL x0 x1 x2 x3 x4 x5 (k0_pay9 (F := Ideal)) (k0_pay10 (F := Ideal))
      = fun i => ((tileExp (tileMax (X (i 0))) (X (i 0)) : ℝ) : EReal) := by
  funext i
  obtain ⟨n, z, rfl⟩ : ∃ (n : Fin 32) (z : Fin 1), i = ix2 n z := ⟨i 0, i 1, eq_ix2 i⟩
  obtain rfl : z = 0 := Subsingleton.elim _ _
  show stL x0 x1 x2 x3 x4 x5 (k0_pay9 (F := Ideal)) (k0_pay10 (F := Ideal)) (ix2 n (0 : Fin 1))
    = ((tileExp (tileMax (X n)) (X n) : ℝ) : EReal)
  rw [stL_apply, newM_first x0 x1 x2 x3 x4 x5 X hX n 0, pay10_apply, mul_zero, zero_add]
  exact rowExp_coe x0 x1 x2 x3 x4 x5 X hX n (tileMax (X n))

/-- From the reset values: the stored weighted sum is the tile's. -/
theorem stA_first (X : Fin 32 → Fin 64 → ℝ) (hX : ∀ a n, tileScore x0 x1 x2 x3 x4 x5 (ix2 a n) = ((X n a : ℝ) : EReal))
    (Y : Fin 32 → Fin 512 → Fin 64 → ℝ) (hY : ∀ a n h, x0 (ix3 a n h) = ((Y n h a : ℝ) : EReal)) :
    stA x0 x1 x2 x3 x4 x5 (k0_pay9 (F := Ideal)) (k0_pay11 (F := Ideal))
      = fun i => ((tileWt (tileMax (X (i 0))) (X (i 0)) (Y (i 0) (i 1)) : ℝ) : EReal) := by
  funext i
  obtain ⟨n, k, rfl⟩ : ∃ (n : Fin 32) (k : Fin 512), i = ix2 n k := ⟨i 0, i 1, eq_ix2 i⟩
  show stA x0 x1 x2 x3 x4 x5 (k0_pay9 (F := Ideal)) (k0_pay11 (F := Ideal)) (ix2 n k)
    = ((tileWt (tileMax (X n)) (X n) (Y n k) : ℝ) : EReal)
  rw [stA_apply, newM_first x0 x1 x2 x3 x4 x5 X hX n 0, pay11_apply, mul_zero, zero_add]
  exact rowWt_coe x0 x1 x2 x3 x4 x5 X hX Y hY n k (tileMax (X n))

/-- From a real running maximum: the stored maximum is the larger of it and the tile's. -/
theorem stM_next (X : Fin 32 → Fin 64 → ℝ) (hX : ∀ a n, tileScore x0 x1 x2 x3 x4 x5 (ix2 a n) = ((X n a : ℝ) : EReal))
    (m : Vec Ideal S32x1 .f32) (mo : Fin 32 → ℝ) (hm : m = fun i => ((mo (i 0) : ℝ) : EReal)) :
    stM x0 x1 x2 x3 x4 x5 m = fun i => ((max (mo (i 0)) (tileMax (X (i 0))) : ℝ) : EReal) := by
  funext i
  obtain ⟨n, z, rfl⟩ : ∃ (n : Fin 32) (z : Fin 1), i = ix2 n z := ⟨i 0, i 1, eq_ix2 i⟩
  have hm0 : m (ix2 n z) = ((mo n : ℝ) : EReal) := congrFun hm (ix2 n z)
  show stM x0 x1 x2 x3 x4 x5 m (ix2 n z) = ((max (mo n) (tileMax (X n)) : ℝ) : EReal)
  rw [stM_apply]
  exact newM_next x0 x1 x2 x3 x4 x5 X hX m n z (mo n) hm0

/-- From real running values: the stored normaliser is the old one rescaled plus the tile's sum. -/
theorem stL_next (X : Fin 32 → Fin 64 → ℝ) (hX : ∀ a n, tileScore x0 x1 x2 x3 x4 x5 (ix2 a n) = ((X n a : ℝ) : EReal))
    (m l : Vec Ideal S32x1 .f32) (mo lo : Fin 32 → ℝ) (hm : m = fun i => ((mo (i 0) : ℝ) : EReal))
    (hl : l = fun i => ((lo (i 0) : ℝ) : EReal)) :
    stL x0 x1 x2 x3 x4 x5 m l
      = fun i => ((Real.exp (mo (i 0) - max (mo (i 0)) (tileMax (X (i 0)))) * lo (i 0)
          + tileExp (max (mo (i 0)) (tileMax (X (i 0)))) (X (i 0)) : ℝ) : EReal) := by
  funext i
  obtain ⟨n, z, rfl⟩ : ∃ (n : Fin 32) (z : Fin 1), i = ix2 n z := ⟨i 0, i 1, eq_ix2 i⟩
  obtain rfl : z = 0 := Subsingleton.elim _ _
  have hm0 : m (ix2 n (0 : Fin 1)) = ((mo n : ℝ) : EReal) := congrFun hm (ix2 n 0)
  have hl0 : l (ix2 n (0 : Fin 1)) = ((lo n : ℝ) : EReal) := congrFun hl (ix2 n 0)
  show stL x0 x1 x2 x3 x4 x5 m l (ix2 n (0 : Fin 1))
    = ((Real.exp (mo n - max (mo n) (tileMax (X n))) * lo n + tileExp (max (mo n) (tileMax (X n))) (X n) : ℝ) : EReal)
  rw [stL_apply, newM_next x0 x1 x2 x3 x4 x5 X hX m n 0 (mo n) hm0,
    rowExp_coe x0 x1 x2 x3 x4 x5 X hX n (max (mo n) (tileMax (X n))), hm0, hl0, exp_sub_coe, ← EReal.coe_mul,
    ← EReal.coe_add]

/-- From real running values: the stored weighted sum is the old one rescaled plus the tile's. -/
theorem stA_next (X : Fin 32 → Fin 64 → ℝ) (hX : ∀ a n, tileScore x0 x1 x2 x3 x4 x5 (ix2 a n) = ((X n a : ℝ) : EReal))
    (Y : Fin 32 → Fin 512 → Fin 64 → ℝ) (hY : ∀ a n h, x0 (ix3 a n h) = ((Y n h a : ℝ) : EReal))
    (m : Vec Ideal S32x1 .f32) (ac : Vec Ideal S32x512 .f32) (mo : Fin 32 → ℝ) (ao : Fin 32 → Fin 512 → ℝ)
    (hm : m = fun i => ((mo (i 0) : ℝ) : EReal)) (ha : ac = fun i => ((ao (i 0) (i 1) : ℝ) : EReal)) :
    stA x0 x1 x2 x3 x4 x5 m ac
      = fun i => ((Real.exp (mo (i 0) - max (mo (i 0)) (tileMax (X (i 0)))) * ao (i 0) (i 1)
          + tileWt (max (mo (i 0)) (tileMax (X (i 0)))) (X (i 0)) (Y (i 0) (i 1)) : ℝ) : EReal) := by
  funext i
  obtain ⟨n, k, rfl⟩ : ∃ (n : Fin 32) (k : Fin 512), i = ix2 n k := ⟨i 0, i 1, eq_ix2 i⟩
  have hm0 : m (ix2 n (0 : Fin 1)) = ((mo n : ℝ) : EReal) := congrFun hm (ix2 n 0)
  have ha0 : ac (ix2 n k) = ((ao n k : ℝ) : EReal) := congrFun ha (ix2 n k)
  show stA x0 x1 x2 x3 x4 x5 m ac (ix2 n k)
    = ((Real.exp (mo n - max (mo n) (tileMax (X n))) * ao n k
        + tileWt (max (mo n) (tileMax (X n))) (X n) (Y n k) : ℝ) : EReal)
  rw [stA_apply, newM_next x0 x1 x2 x3 x4 x5 X hX m n 0 (mo n) hm0,
    rowWt_coe x0 x1 x2 x3 x4 x5 X hX Y hY n k (max (mo n) (tileMax (X n))), hm0, ha0, exp_sub_coe, ← EReal.coe_mul,
    ← EReal.coe_add]

end Cert.KernelIdeal.Body

end
-- ==== Proof.KernelScore.lean ====
/-
  A tile's logits, read index by index.

  At position offset `a` and batch row `n` the body computes the contraction of the tile's encoder row with the
  transposed projection matrix, adds the projection's bias and the projected hidden state, applies `tanh`, contracts
  with the scoring row over the 512 features, and adds the scoring bias.
-/
import Idealize.ShloMosaic.Lib.ValueIdx
import Idealize.ShloMosaic.Lib.ValueLayout
import Idealize.ShloMosaic.Lib.Pipeline.Value
import Idealize.ShloMosaic.PureOps.Ideal.Laws
import proofs.«420586_j87265145520380_3_alg».proof.Proof.KernelVocab

noncomputable section

namespace Cert.KernelIdeal.Body

open Idealize.ShloMosaic Idealize.ShloMosaic.ValueIdx Cert.KernelIdeal Cert.KernelIdeal.Gen

/-- Row 32·a + n of the flattened tile is one of its 2048 rows. -/
private theorem row_lt (a : Fin 64) (n : Fin 32) : 32 * a.val + n.val < 2048 := by omega

/-- The flattened tile's row under position offset a and batch row n. -/
private abbrev flatRow (a : Fin 64) (n : Fin 32) : Fin 2048 := ⟨32 * a.val + n.val, row_lt a n⟩

/-- The tile flattened to 2048 rows reads, at row 32·a + n, the tile at (a, n). -/
private theorem flatten_apply {α : Type} (v : S64x32x512.Idx → α) (h : S64x32x512.ShapeCasts S2048x512)
    (a : Fin 64) (n : Fin 32) (j : Fin 512) :
    shapeCast S2048x512 v h (ix2 (flatRow a n) j) = v (ix3 a n j) :=
  shapeCast_apply v h _ _ (by
    rw [Shape.rowMajor_val_three, Shape.rowMajor_val_two]
    show (a.val * 32 + n.val) * 512 + j.val = (32 * a.val + n.val) * 512 + j.val
    omega)

/-- The 2048 rows folded back to the tile read, at (a, n), row 32·a + n. -/
private theorem unflatten_apply {α : Type} (m : S2048x512.Idx → α) (h : S2048x512.ShapeCasts S64x32x512)
    (a : Fin 64) (n : Fin 32) (k : Fin 512) :
    shapeCast S64x32x512 m h (ix3 a n k) = m (ix2 (flatRow a n) k) :=
  shapeCast_apply m h _ _ (by
    rw [Shape.rowMajor_val_three, Shape.rowMajor_val_two]
    show (32 * a.val + n.val) * 512 + k.val = (a.val * 32 + n.val) * 512 + k.val
    omega)

/-- One row of 512 features spread over the whole tile reads that row's feature everywhere. -/
private theorem spreadRow_apply {α : Type} (w : S1x1x512.Idx → α) (h : S1x1x512.Broadcasts S64x32x512)
    (a : Fin 64) (n : Fin 32) (k : Fin 512) :
    broadcastTo S64x32x512 w h (ix3 a n k) = w (ix3 (0 : Fin 1) (0 : Fin 1) k) := by
  refine broadcastTo_apply w h (ix3 a n k) (ix3 (0 : Fin 1) (0 : Fin 1) k) fun ax => ?_
  match ax with
  | ⟨0, _⟩ => rfl
  | ⟨1, _⟩ => rfl
  | ⟨2, _⟩ => rfl

/-- A 32 × 512 matrix spread over the 64 position offsets reads the matrix at every offset. -/
private theorem spreadMat_apply {α : Type} (w : S1x32x512.Idx → α) (h : S1x32x512.Broadcasts S64x32x512)
    (a : Fin 64) (n : Fin 32) (k : Fin 512) :
    broadcastTo S64x32x512 w h (ix3 a n k) = w (ix3 (0 : Fin 1) n k) := by
  refine broadcastTo_apply w h (ix3 a n k) (ix3 (0 : Fin 1) n k) fun ax => ?_
  match ax with
  | ⟨0, _⟩ => rfl
  | ⟨1, _⟩ => rfl
  | ⟨2, _⟩ => rfl

/-- The sum over the 512 features of a tile-shaped value, at (a, n). -/
private theorem laneSum_apply (v : FVec Ideal S64x32x512 .f32) (h : S64x32x512.Reduces [2] S64x32) (hφ : FKind.Formats .f32)
    (hacc : (0x00000000#32 : BitVec 32) = FKind.add.neutral .f32 hφ) (a : Fin 64) (n : Fin 32) :
    multiReduction (F := Ideal) .add [2] S64x32 v 0x00000000#32 h hφ hacc (ix2 a n) = ∑ k : Fin 512, v (ix3 a n k) := by
  refine (Ideal.multiReduction_add_single (φ := .f32) v _ h hφ hacc (ix2 a n)).trans ?_
  refine Finset.sum_congr rfl fun k _ => congrArg v (funext fun ax => Fin.ext ?_)
  match ax with
  | ⟨0, _⟩ => rfl
  | ⟨1, _⟩ => rfl
  | ⟨2, _⟩ => rfl

/-- The left operand's row coordinate is the result's. -/
private theorem lhs_score_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column coordinate is the contracted feature. -/
private theorem lhs_score_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- The right operand's row coordinate is the contracted feature. -/
private theorem rhs_score_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- The right operand's column coordinate is the result's. -/
private theorem rhs_score_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product of the 2048 flattened rows with the 512 × 512 matrix into a zero accumulator, at row r and column c:
    the sum over the contracted feature. -/
private theorem product_apply (l : FVec Ideal S2048x512 .bf16) (m : FVec Ideal S512x512 .bf16) (r : Fin 2048) (c : Fin 512) :
    matmul dot_S2048x512_S512x512_S2048x512_1_0_0_1_n_n none l m (constant (F := Ideal) S2048x512 .f32 0x00000000#32) (ix2 r c)
      = ∑ j : Fin 512, l (ix2 r j) * m (ix2 j c) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 r c) ((ValueIdx.contrEquiv1 dot_S2048x512_S512x512_S2048x512_1_0_0_1_n_n 512 rfl rfl).symm k) = ix2 r k := funext fun a => Fin.ext (by
    match a with
    | ⟨0, _⟩ => exact lhs_score_0 _ _
    | ⟨1, _⟩ => exact (lhs_score_1 _ _).trans hk)
  have er : dot_S2048x512_S512x512_S2048x512_1_0_0_1_n_n.rhsIdx (ix2 r c) ((ValueIdx.contrEquiv1 dot_S2048x512_S512x512_S2048x512_1_0_0_1_n_n 512 rfl rfl).symm k) = ix2 k c := funext fun a => Fin.ext (by
    match a with
    | ⟨0, _⟩ => exact (rhs_score_0 _ _).trans hk
    | ⟨1, _⟩ => exact rhs_score_1 _ _)
  rw [el, er]

/-- The scoring bias read out of its 1 × 1 block. -/
private theorem bias_apply {α : Type} (x : S1x1.Idx → α) (h : ∀ a, (![0, 0] : Fin 2 → Nat) a < S1x1.size a) :
    extractAt ![0, 0] x h = x (ix2 (0 : Fin 1) (0 : Fin 1)) :=
  congrArg x (funext fun a => match a with | ⟨0, _⟩ => rfl | ⟨1, _⟩ => rfl)

/-- The hyperbolic tangent of a vector, at an index. -/
private theorem tanh_apply {s : Shape} {φ : FTy} (v : FVec Ideal s φ) (i : s.Idx) : tanh v i = Ideal.tanh (v i) := rfl

/-- The tile's logit at offset `a`, batch row `n`. -/
theorem tileScore_apply (x0 : Vec Ideal S64x32x512 .f32) (x1 : Vec Ideal S32x512 .f32) (x2 : Vec Ideal S512x512 .bf16)
    (x3 : Vec Ideal S1x512 .f32) (x4 : Vec Ideal S1x512 .f32) (x5 : Vec Ideal S1x1 .f32) (a : Fin 64) (n : Fin 32) :
    tileScore x0 x1 x2 x3 x4 x5 (ix2 a n)
      = (∑ k : Fin 512, Ideal.tanh (((∑ j : Fin 512, x0 (ix3 a n j) * x2 (ix2 j k)) + x3 (ix2 0 k)) + x1 (ix2 n k)) * x4 (ix2 0 k))
          + x5 (ix2 0 0) := by
  unfold tileScore k0_pay12
  dsimp only
  rw [addf_apply, broadcast_apply, bias_apply, shapeCast_shapeCast]
  refine congrArg₂ (· + ·) ((laneSum_apply _ _ _ _ a n).trans (Finset.sum_congr rfl fun k _ => ?_)) rfl
  rw [mulf_apply, tanh_apply, addf_apply, addf_apply, unflatten_apply, product_apply, spreadMat_apply, spreadRow_apply,
    spreadRow_apply, shapeCast_ab_1ab_apply, shapeCast_ab_1ab_apply, shapeCast_ab_1ab_apply, shapeCast_self, shapeCast_self,
    shapeCast_self]
  simp only [flatten_apply, truncf_apply]

end Cert.KernelIdeal.Body

end
-- ==== Proof.Spec.lean ====
/-
  Additive attention over a sequence of 4096 positions, 32 batch rows and 512 features: the vocabulary both programs are
  read against.

  `score s n` is the attention logit of position `s` in batch row `n`: the hidden state and the encoder output are each
  projected (`wh`, `ue`), added, passed through `tanh`, and contracted with one row `vw`, plus the bias `vb`. Because
  `tanh` of any extended real is a real number, a score is a real number as soon as `vw` and `vb` are.
  Over real scores `x` and real encoder outputs `y`: `Mx` is a batch row's largest score, `Lx` its softmax normaliser,
  `wts` the attention weights (softmax over the positions) and `ctx` the context vector (the weights' average of the
  encoder outputs). `row p a` is the position that tile `p` of 64 consecutive positions holds at offset `a`; `tileX` and
  `tileY` cut a half-sequence (a core's 32 tiles) out of the scores and the encoder outputs.
-/
import Idealize.ShloMosaic.PureOps.Ideal
import Idealize.ShloMosaic.Lib.ValueIdx
import proofs.«420586_j87265145520380_3_alg».proof.Proof.LibOnlineSoftmax

noncomputable section

namespace Cert.Attn

open Idealize.ShloMosaic Idealize.ShloMosaic.ValueIdx

/-- The hidden state's projection: `wh n k = Σ_j hid[n,j] · Ww[k,j] + Wb[k]`. -/
def wh (hid : FVec Ideal ⟨2, ![32, 512]⟩ .f32) (Ww : FVec Ideal ⟨2, ![512, 512]⟩ .f32) (Wb : FVec Ideal ⟨1, ![512]⟩ .f32)
    (n : Fin 32) (k : Fin 512) : EReal :=
  (∑ j : Fin 512, hid (ix2 n j) * Ww (ix2 k j)) + Wb (ix1 k)

/-- The encoder output's projection: `ue s n k = Σ_j eo[s,n,j] · Uw[k,j] + Ub[k]`. -/
def ue (eo : FVec Ideal ⟨3, ![4096, 32, 512]⟩ .f32) (Uw : FVec Ideal ⟨2, ![512, 512]⟩ .f32) (Ub : FVec Ideal ⟨1, ![512]⟩ .f32)
    (s : Fin 4096) (n : Fin 32) (k : Fin 512) : EReal :=
  (∑ j : Fin 512, eo (ix3 s n j) * Uw (ix2 k j)) + Ub (ix1 k)

/-- The attention logit: `Σ_k tanh (wh n k + ue s n k) · vw[0,k] + vb[0]`. -/
def score (hid : FVec Ideal ⟨2, ![32, 512]⟩ .f32) (eo : FVec Ideal ⟨3, ![4096, 32, 512]⟩ .f32)
    (Ww : FVec Ideal ⟨2, ![512, 512]⟩ .f32) (Wb : FVec Ideal ⟨1, ![512]⟩ .f32)
    (Uw : FVec Ideal ⟨2, ![512, 512]⟩ .f32) (Ub : FVec Ideal ⟨1, ![512]⟩ .f32)
    (vw : FVec Ideal ⟨2, ![1, 512]⟩ .f32) (vb : FVec Ideal ⟨1, ![1]⟩ .f32) (s : Fin 4096) (n : Fin 32) : EReal :=
  (∑ k : Fin 512, Ideal.tanh (wh hid Ww Wb n k + ue eo Uw Ub s n k) * vw (ix2 0 k)) + vb (ix1 0)

/-- Scores read as reals. -/
def xr (sc : Fin 4096 → Fin 32 → EReal) (s : Fin 4096) (n : Fin 32) : ℝ := (sc s n).toReal

/-- Encoder outputs read as reals. -/
def yr (eo : FVec Ideal ⟨3, ![4096, 32, 512]⟩ .f32) (s : Fin 4096) (n : Fin 32) (h : Fin 512) : ℝ := (eo (ix3 s n h)).toReal

/-- A batch row's largest score. -/
def Mx (x : Fin 4096 → Fin 32 → ℝ) (n : Fin 32) : ℝ :=
  (Finset.univ : Finset (Fin 4096)).sup' Finset.univ_nonempty (fun s => x s n)

/-- A batch row's softmax normaliser. -/
def Lx (x : Fin 4096 → Fin 32 → ℝ) (n : Fin 32) : ℝ := ∑ s : Fin 4096, Real.exp (x s n - Mx x n)

/-- The attention weights: softmax over the positions. -/
def wts (x : Fin 4096 → Fin 32 → ℝ) (s : Fin 4096) (n : Fin 32) : ℝ := Real.exp (x s n - Mx x n) / Lx x n

/-- The context vector: the encoder outputs averaged by the attention weights. -/
def ctx (x : Fin 4096 → Fin 32 → ℝ) (y : Fin 4096 → Fin 32 → Fin 512 → ℝ) (n : Fin 32) (h : Fin 512) : ℝ :=
  ∑ s : Fin 4096, wts x s n * y s n h

/-- The position at offset `a` of tile `p` (tiles of 64 consecutive positions; total on the naturals, wrapped). -/
def row (p a : ℕ) : Fin 4096 := ⟨(64 * p + a) % 4096, Nat.mod_lt _ (by norm_num)⟩

theorem row_val (p a : ℕ) (hp : p < 64) (ha : a < 64) : (row p a).val = 64 * p + a := by
  show (64 * p + a) % 4096 = _
  exact Nat.mod_eq_of_lt (by omega)

/-- Core `c`'s tiles of scores of batch row `n`: tile `j` is tile `32 c + j` of the sequence. -/
def tileX (x : Fin 4096 → Fin 32 → ℝ) (c : ℕ) (n : Fin 32) : ℕ → Fin 64 → ℝ :=
  fun j a => x (row (32 * c + j) a.val) n

/-- Core `c`'s tiles of encoder outputs at batch row `n`, feature `h`. -/
def tileY (y : Fin 4096 → Fin 32 → Fin 512 → ℝ) (c : ℕ) (n : Fin 32) (h : Fin 512) : ℕ → Fin 64 → ℝ :=
  fun j a => y (row (32 * c + j) a.val) n h

end Cert.Attn

end
-- ==== Proof.KernelBlocks.lean ====
/-
  The blocks a grid point loads, read index by index from the program's arguments.

  Point `t` stages tile `t` of the encoder outputs (64 positions starting at `64 t`), and, whole, five small arrays the
  host lines before the region computed: the projected hidden state (the hidden state times the transposed first
  projection matrix, plus its bias), the transposed second projection matrix, its bias as a row, the scoring row, and
  the scoring bias as a 1 × 1 array.
-/
import proofs.«420586_j87265145520380_3_alg».proof.Proof.Gen.KernelIdeal.Frame
import proofs.«420586_j87265145520380_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Attn

variable (m : (ℓ : Loc nD τ sig) → Buf (Elt Ideal) ℓ)

/-- The tile of encoder outputs point `t` loads. -/
abbrev b0 (c : Dev nD) (t : Fin cfg0.N) : Vec Ideal S64x32x512 .f32 := iblk m c 0 t
/-- The projected hidden state, as every point loads it. -/
abbrev b1 (c : Dev nD) (t : Fin cfg0.N) : Vec Ideal S32x512 .f32 := iblk m c 1 t
/-- The transposed second projection matrix. -/
abbrev b2 (c : Dev nD) (t : Fin cfg0.N) : Vec Ideal S512x512 .bf16 := iblk m c 2 t
/-- The second projection's bias, as a row. -/
abbrev b3 (c : Dev nD) (t : Fin cfg0.N) : Vec Ideal S1x512 .f32 := iblk m c 3 t
/-- The scoring row. -/
abbrev b4 (c : Dev nD) (t : Fin cfg0.N) : Vec Ideal S1x512 .f32 := iblk m c 4 t
/-- The scoring bias. -/
abbrev b5 (c : Dev nD) (t : Fin cfg0.N) : Vec Ideal S1x1 .f32 := iblk m c 5 t

/-! ## Where a block's element sits in its array

The block index of every input window, decided once over the grid: window 0's block index on the position axis is the
point's own number, and every other block index is zero (windows 1 to 5 stage their whole arrays). -/

private theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
private theorem idx1 : ∀ t : Fin cfg0.N, win0_1.index t (0 : Fin 2) = 0 ∧ win0_1.index t (1 : Fin 2) = 0 :=
  (by decide +kernel : ∀ t : Fin grid0.N, _)
private theorem idx2 : ∀ t : Fin cfg0.N, win0_2.index t (0 : Fin 2) = 0 ∧ win0_2.index t (1 : Fin 2) = 0 :=
  (by decide +kernel : ∀ t : Fin grid0.N, _)
private theorem idx3 : ∀ t : Fin cfg0.N, win0_3.index t (0 : Fin 2) = 0 ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)

/-! ## The arrays the lines before the region computed, as terms of the arguments -/

/-- The projected hidden state: the hidden state contracted with the transposed first projection matrix, plus the bias
    broadcast along the batch rows. -/
private theorem V4_eq (c : Dev nD) :
    (V m c main_v4 : (⟨S32x512, .f32⟩ : BufTy).Contents (Elt Ideal))
      = addf (F := Ideal) (Host.dotGeneral (F := Ideal) (φ₁ := .f32) (φ₂ := .f32) dot_S32x512_S512x512_S32x512_1_0_0_1_n_n none (m ((c.tc : Thread nD τ).loc main_arg0))
                (transpose S512x512 [1, 0] (m ((c.tc : Thread nD τ).loc main_arg2)) transposes_S512x512_S512x512_1_0))
             (broadcastInDim S32x512 ![0, 1] bcast_S1x512_S32x512_0_1
                (broadcastInDim S1x512 ![1] bcast_S512_S1x512_1 (m ((c.tc : Thread nD τ).loc main_arg3)))) := by
  show StableHlo.after hostOps0 (fun b => m (c, b)) (Proc.devRef .tc main_v4) = _
  after_results

/-- The second projection matrix transposed (its narrowing to the short format is the identity on ideal values). -/
private theorem V6_eq (c : Dev nD) :
    (V m c main_v6 : (⟨S512x512, .bf16⟩ : BufTy).Contents (Elt Ideal))
      = truncf (F := Ideal) .bf16 (transpose S512x512 [1, 0] (m ((c.tc : Thread nD τ).loc main_arg4)) transposes_S512x512_S512x512_1_0) bitsLt_bf16_f32 := by
  show StableHlo.after hostOps0 (fun b => m (c, b)) (Proc.devRef .tc main_v6) = _
  after_results

/-- The second projection's bias reshaped to a row. -/
private theorem V7_eq (c : Dev nD) :
    (V m c main_v7 : (⟨S1x512, .f32⟩ : BufTy).Contents (Elt Ideal))
      = shapeCast S1x512 (m ((c.tc : Thread nD τ).loc main_arg5)) shapeCasts_S512_S1x512 := by
  show StableHlo.after hostOps0 (fun b => m (c, b)) (Proc.devRef .tc main_v7) = _
  after_results
  rfl

/-- The scoring bias reshaped to a 1 × 1 array. -/
private theorem V8_eq (c : Dev nD) :
    (V m c main_v8 : (⟨S1x1, .f32⟩ : BufTy).Contents (Elt Ideal))
      = shapeCast S1x1 (m ((c.tc : Thread nD τ).loc main_arg7)) shapeCasts_S1_S1x1 := by
  show StableHlo.after hostOps0 (fun b => m (c, b)) (Proc.devRef .tc main_v8) = _
  after_results
  rfl

/-! ## The contraction, read at an index -/

private theorem lhs_dot_0 (i : S32x512.Idx) (q : dot_S32x512_S512x512_S32x512_1_0_0_1_n_n.contr.Idx) :
    (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
private theorem lhs_dot_1 (i : S32x512.Idx) (q : dot_S32x512_S512x512_S32x512_1_0_0_1_n_n.contr.Idx) :
    (dot_S32x512_S512x512_S32x512_1_0_0_1_n_n.lhsIdx i q 1).val = (q ⟨0, by decide⟩).val :=
  dot_S32x512_S512x512_S32x512_1_0_0_1_n_n.lhsIdx_val_of_single rfl i q
private theorem rhs_dot_0 (i : S32x512.Idx) (q : dot_S32x512_S512x512_S32x512_1_0_0_1_n_n.contr.Idx) :
    (dot_S32x512_S512x512_S32x512_1_0_0_1_n_n.rhsIdx i q 0).val = (q ⟨0, by decide⟩).val :=
  dot_S32x512_S512x512_S32x512_1_0_0_1_n_n.rhsIdx_val_of_single rfl i q
private theorem rhs_dot_1 (i : S32x512.Idx) (q : dot_S32x512_S512x512_S32x512_1_0_0_1_n_n.contr.Idx) :
    (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl

/-- On ideal values the contraction of a [32,512] array with a [512,512] array over the shared axis is the sum of the
    products along it. -/
private theorem dot_apply (x0 : (⟨S32x512, .f32⟩ : BufTy).Contents (Elt Ideal)) (y0 : (⟨S512x512, .f32⟩ : BufTy).Contents (Elt Ideal))
    (n : Fin 32) (k : Fin 512) :
    Host.dotGeneral (F := Ideal) (φ₁ := .f32) (φ₂ := .f32) dot_S32x512_S512x512_S32x512_1_0_0_1_n_n none x0 y0 (ix2 n k) = ∑ j : Fin 512, x0 (ix2 n j) * y0 (ix2 j k) := by
  simp only [Host.dotGeneral]
  rw [Ideal.dotGeneral_apply, ← Equiv.sum_comp (ValueIdx.contrEquiv1 dot_S32x512_S512x512_S32x512_1_0_0_1_n_n 512 rfl rfl).symm]
  refine Finset.sum_congr rfl fun j _ => ?_
  have hj := ValueIdx.contrEquiv1_symm_val dot_S32x512_S512x512_S32x512_1_0_0_1_n_n 512 rfl rfl j
  have el : dot_S32x512_S512x512_S32x512_1_0_0_1_n_n.lhsIdx (ix2 n k) ((ValueIdx.contrEquiv1 dot_S32x512_S512x512_S32x512_1_0_0_1_n_n 512 rfl rfl).symm j) = ix2 n j := funext fun a => Fin.ext (by
    match a with
    | ⟨0, _⟩ => exact lhs_dot_0 _ _
    | ⟨1, _⟩ => exact (lhs_dot_1 _ _).trans hj)
  have er : dot_S32x512_S512x512_S32x512_1_0_0_1_n_n.rhsIdx (ix2 n k) ((ValueIdx.contrEquiv1 dot_S32x512_S512x512_S32x512_1_0_0_1_n_n 512 rfl rfl).symm j) = ix2 j k := funext fun a => Fin.ext (by
    match a with
    | ⟨0, _⟩ => exact (rhs_dot_0 _ _).trans hj
    | ⟨1, _⟩ => exact rhs_dot_1 _ _)
  rw [el, er]

/-! ## The six blocks -/

/-- The loaded tile holds positions `64 t … 64 t + 63` of the encoder outputs. -/
theorem b0_apply (c : Dev nD) (t : Fin cfg0.N) (a : Fin 64) (n : Fin 32) (h : Fin 512) :
    b0 m c t (ix3 a n h) = m ((c.tc : Thread nD τ).loc main_arg1) (ix3 (row t.val a.val) n h) := by
  obtain ⟨e0, e1, e2⟩ := idx0 t
  have ht : t.val < 64 := lt_of_lt_of_eq t.isLt N_0
  have hr := row_val t.val a.val ht a.isLt
  show iblk m c 0 t (ix3 a n h) = _
  unfold iblk
  rw [View.read_apply]
  show V m c main_arg1 (((cfg0.win 0).blk t).view.emb (ix3 a n h)) = m ((c.tc : Thread nD τ).loc main_arg1) (ix3 (row t.val a.val) n h)
  rw [V_main_arg1]
  refine congrArg (m ((c.tc : Thread nD τ).loc main_arg1)) (funext fun x => Fin.ext ?_)
  match x with
  | ⟨0, _⟩ => show win0_0.index t (0 : Fin 3) * 64 + 1 * a.val = (row t.val a.val).val; rw [e0, hr]; omega
  | ⟨1, _⟩ => show win0_0.index t (1 : Fin 3) * 32 + 1 * n.val = n.val; rw [e1]; omega
  | ⟨2, _⟩ => show win0_0.index t (2 : Fin 3) * 512 + 1 * h.val = h.val; rw [e2]; omega

/-- The projected hidden state. -/
theorem b1_apply (c : Dev nD) (t : Fin cfg0.N) (n : Fin 32) (k : Fin 512) :
    b1 m c t (ix2 n k)
      = wh (m ((c.tc : Thread nD τ).loc main_arg0)) (m ((c.tc : Thread nD τ).loc main_arg2)) (m ((c.tc : Thread nD τ).loc main_arg3)) n k := by
  obtain ⟨e0, e1⟩ := idx1 t
  show iblk m c 1 t (ix2 n k) = _
  unfold iblk
  rw [View.read_apply]
  show V m c main_v4 (((cfg0.win 1).blk t).view.emb (ix2 n k)) = _
  have hemb : ((cfg0.win 1).blk t).view.emb (ix2 n k) = (ix2 n k : S32x512.Idx) := by
    funext x; apply Fin.ext
    match x with
    | ⟨0, _⟩ => show win0_1.index t (0 : Fin 2) * 32 + 1 * n.val = n.val; rw [e0]; omega
    | ⟨1, _⟩ => show win0_1.index t (1 : Fin 2) * 512 + 1 * k.val = k.val; rw [e1]; omega
  rw [hemb, V4_eq, addf_apply, dot_apply]
  unfold wh
  congr 1
  · refine Finset.sum_congr rfl fun j _ => ?_
    congr 1
    exact transpose_apply [1, 0] _ transposes_S512x512_S512x512_1_0 (ix2 j k) (ix2 k j) (fun b => match b with
      | ⟨0, _⟩ => rfl
      | ⟨1, _⟩ => rfl)
  · refine (broadcastInDim_apply _ bcast_S1x512_S32x512_0_1 _ (ix2 n k) (ix2 0 k) (fun a => match a with
      | ⟨0, _⟩ => by show 0 = if (1 : Nat) = 1 then 0 else n.val; rw [if_pos rfl]
      | ⟨1, _⟩ => by show k.val = if (512 : Nat) = 1 then 0 else k.val; rw [if_neg (by decide)])).trans ?_
    exact broadcastInDim_apply _ bcast_S512_S1x512_1 _ (ix2 0 k) (ix1 k) (fun a => match a with
      | ⟨0, _⟩ => by show k.val = if (512 : Nat) = 1 then 0 else k.val; rw [if_neg (by decide)])

/-- The second projection matrix, transposed. -/
theorem b2_apply (c : Dev nD) (t : Fin cfg0.N) (j k : Fin 512) :
    b2 m c t (ix2 j k) = m ((c.tc : Thread nD τ).loc main_arg4) (ix2 k j) := by
  obtain ⟨e0, e1⟩ := idx2 t
  show iblk m c 2 t (ix2 j k) = _
  unfold iblk
  rw [View.read_apply]
  show V m c main_v6 (((cfg0.win 2).blk t).view.emb (ix2 j k)) = _
  have hemb : ((cfg0.win 2).blk t).view.emb (ix2 j k) = (ix2 j k : S512x512.Idx) := by
    funext x; apply Fin.ext
    match x with
    | ⟨0, _⟩ => show win0_2.index t (0 : Fin 2) * 512 + 1 * j.val = j.val; rw [e0]; omega
    | ⟨1, _⟩ => show win0_2.index t (1 : Fin 2) * 512 + 1 * k.val = k.val; rw [e1]; omega
  rw [hemb, V6_eq, truncf_apply]
  exact transpose_apply [1, 0] _ transposes_S512x512_S512x512_1_0 (ix2 j k) (ix2 k j) (fun b => match b with
    | ⟨0, _⟩ => rfl
    | ⟨1, _⟩ => rfl)

/-- The second projection's bias. -/
theorem b3_apply (c : Dev nD) (t : Fin cfg0.N) (k : Fin 512) :
    b3 m c t (ix2 0 k) = m ((c.tc : Thread nD τ).loc main_arg5) (ix1 k) := by
  obtain ⟨e0, e1⟩ := idx3 t
  show iblk m c 3 t (ix2 0 k) = _
  unfold iblk
  rw [View.read_apply]
  show V m c main_v7 (((cfg0.win 3).blk t).view.emb (ix2 0 k)) = _
  have hemb : ((cfg0.win 3).blk t).view.emb (ix2 0 k) = (ix2 0 k : S1x512.Idx) := by
    funext x; apply Fin.ext
    match x with
    | ⟨0, _⟩ => show win0_3.index t (0 : Fin 2) * 1 + 1 * 0 = 0; rw [e0]
    | ⟨1, _⟩ => show win0_3.index t (1 : Fin 2) * 512 + 1 * k.val = k.val; rw [e1]; omega
  rw [hemb, V7_eq]
  exact shapeCast_apply _ shapeCasts_S512_S1x512 (ix2 0 k) (ix1 k) (by
    rw [Shape.rowMajor_val_two, Shape.rowMajor_val_one]
    show k.val = 0 * 512 + k.val
    omega)

/-- The scoring row. -/
theorem b4_apply (c : Dev nD) (t : Fin cfg0.N) (k : Fin 512) :
    b4 m c t (ix2 0 k) = m ((c.tc : Thread nD τ).loc main_arg6) (ix2 0 k) := by
  obtain ⟨e0, e1⟩ := idx4 t
  show iblk m c 4 t (ix2 0 k) = _
  unfold iblk
  rw [View.read_apply]
  show V m c main_arg6 (((cfg0.win 4).blk t).view.emb (ix2 0 k)) = m ((c.tc : Thread nD τ).loc main_arg6) (ix2 0 k)
  rw [V_main_arg6]
  refine congrArg (m ((c.tc : Thread nD τ).loc main_arg6)) (funext fun x => Fin.ext ?_)
  match x with
  | ⟨0, _⟩ => show win0_4.index t (0 : Fin 2) * 1 + 1 * 0 = 0; rw [e0]
  | ⟨1, _⟩ => show win0_4.index t (1 : Fin 2) * 512 + 1 * k.val = k.val; rw [e1]; omega

/-- The scoring bias. -/
theorem b5_apply (c : Dev nD) (t : Fin cfg0.N) :
    b5 m c t (ix2 0 0) = m ((c.tc : Thread nD τ).loc main_arg7) (ix1 0) := by
  obtain ⟨e0, e1⟩ := idx5 t
  show iblk m c 5 t (ix2 0 0) = _
  unfold iblk
  rw [View.read_apply]
  show V m c main_v8 (((cfg0.win 5).blk t).view.emb (ix2 0 0)) = _
  have hemb : ((cfg0.win 5).blk t).view.emb (ix2 0 0) = (ix2 0 0 : S1x1.Idx) := by
    funext x; apply Fin.ext
    match x with
    | ⟨0, _⟩ => show win0_5.index t (0 : Fin 2) * 1 + 1 * 0 = 0; rw [e0]
    | ⟨1, _⟩ => show win0_5.index t (1 : Fin 2) * 1 + 1 * 0 = 0; rw [e1]
  rw [hemb, V8_eq]
  exact shapeCast_apply _ shapeCasts_S1_S1x1 (ix2 0 0) (ix1 0) (by
    rw [Shape.rowMajor_val_two, Shape.rowMajor_val_one]
    rfl)

end Cert.KernelIdeal.Blocks

end
-- ==== Proof.ScoreReal.lean ====
/-
  A score is a real number.

  `tanh` of any extended real is a real number in `[-1, 1]` (it is `-1` at `-∞` and `1` at `+∞`), so each of the 512
  summands `tanh (…) · vw` is real when the scoring row `vw` is, and the score is real when the bias `vb` is too.
  A real extended real is the coercion of its real part.
-/
import proofs.«420586_j87265145520380_3_alg».proof.Proof.Spec

noncomputable section

namespace Cert.Attn

open Idealize.ShloMosaic Idealize.ShloMosaic.ValueIdx

/-- `tanh` of an extended real is a real number. -/
theorem tanh_real (z : EReal) : ∃ r : ℝ, Ideal.tanh z = (r : EReal) := by
  induction z using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- A finite sum of real extended reals is a real extended real. -/
private theorem sum_real {ι : Type} (t : Finset ι) (f : ι → EReal) (hf : ∀ i ∈ t, ∃ r : ℝ, f i = (r : EReal)) :
    ∃ r : ℝ, ∑ i ∈ t, f i = (r : EReal) :=
  Finset.sum_induction f (fun z => ∃ r : ℝ, z = (r : EReal))
    (fun _ _ ⟨p, hp⟩ ⟨q, hq⟩ => ⟨p + q, by rw [hp, hq, EReal.coe_add]⟩) ⟨0, EReal.coe_zero.symm⟩ hf

/-- With a real scoring row and a real scoring bias every score is a real number. -/
theorem score_real (hid : FVec Ideal ⟨2, ![32, 512]⟩ .f32) (eo : FVec Ideal ⟨3, ![4096, 32, 512]⟩ .f32)
    (Ww : FVec Ideal ⟨2, ![512, 512]⟩ .f32) (Wb : FVec Ideal ⟨1, ![512]⟩ .f32)
    (Uw : FVec Ideal ⟨2, ![512, 512]⟩ .f32) (Ub : FVec Ideal ⟨1, ![512]⟩ .f32)
    (vw : FVec Ideal ⟨2, ![1, 512]⟩ .f32) (vb : FVec Ideal ⟨1, ![1]⟩ .f32)
    (hvw : ∀ i, ∃ r : ℝ, vw i = (r : EReal)) (hvb : ∀ i, ∃ r : ℝ, vb i = (r : EReal)) (s : Fin 4096) (n : Fin 32) :
    ∃ r : ℝ, score hid eo Ww Wb Uw Ub vw vb s n = (r : EReal) := by
  obtain ⟨b, hb⟩ := hvb (ix1 0)
  have hsum : ∃ r : ℝ, ∑ k : Fin 512, Ideal.tanh (wh hid Ww Wb n k + ue eo Uw Ub s n k) * vw (ix2 0 k) = (r : EReal) :=
    sum_real Finset.univ _ (fun k _ => by
      obtain ⟨t, ht⟩ := tanh_real (wh hid Ww Wb n k + ue eo Uw Ub s n k)
      obtain ⟨v, hv⟩ := hvw (ix2 0 k)
      exact ⟨t * v, by rw [ht, hv, EReal.coe_mul]⟩)
  obtain ⟨r, hr⟩ := hsum
  exact ⟨r + b, by rw [score, hr, hb, EReal.coe_add]⟩

/-- A score matrix whose entries are real is the coercion of its real reading. -/
theorem eq_coe_xr (sc : Fin 4096 → Fin 32 → EReal) (hsc : ∀ s n, ∃ r : ℝ, sc s n = (r : EReal)) (s : Fin 4096) (n : Fin 32) :
    sc s n = ((xr sc s n : ℝ) : EReal) := by
  obtain ⟨r, hr⟩ := hsc s n
  rw [xr, hr, EReal.toReal_coe]

/-- Real encoder outputs are the coercion of their real reading. -/
theorem eq_coe_yr (eo : FVec Ideal ⟨3, ![4096, 32, 512]⟩ .f32) (heo : ∀ i, ∃ r : ℝ, eo i = (r : EReal))
    (s : Fin 4096) (n : Fin 32) (h : Fin 512) : eo (ix3 s n h) = ((yr eo s n h : ℝ) : EReal) := by
  obtain ⟨r, hr⟩ := heo (ix3 s n h)
  rw [yr, hr, EReal.toReal_coe]

end Cert.Attn

end
-- ==== Proof.Running.lean ====
/-
  The running values after grid point `p`.

  Point `p` (0 … 63) belongs to core `p / 32` and is that core's tile `p % 32`; it visits tile `p` of the sequence. The
  running maximum, normaliser and weighted sum after it are the online recursion of that core at tile `p % 32`. At a
  core's first point (`p % 32 = 0`) they are the tile's own maximum and sums; at every other point they are the previous
  point's values updated by tile `p`.
-/
import proofs.«420586_j87265145520380_3_alg».proof.Proof.Spec

noncomputable section

namespace Cert.Attn

open OnlineSoftmax

/-- Tile `p` of the scores of batch row `n`. -/
def tX (x : Fin 4096 → Fin 32 → ℝ) (p : ℕ) (n : Fin 32) : Fin 64 → ℝ := fun a => x (row p a.val) n

/-- Tile `p` of the encoder outputs at batch row `n`, feature `h`. -/
def tY (y : Fin 4096 → Fin 32 → Fin 512 → ℝ) (p : ℕ) (n : Fin 32) (h : Fin 512) : Fin 64 → ℝ := fun a => y (row p a.val) n h

/-- The running maximum after point `p`. -/
def RM (x : Fin 4096 → Fin 32 → ℝ) (p : ℕ) (n : Fin 32) : ℝ := runM (tileX x (p / 32) n) (p % 32)

/-- The running normaliser after point `p`. -/
def RL (x : Fin 4096 → Fin 32 → ℝ) (p : ℕ) (n : Fin 32) : ℝ := runL (tileX x (p / 32) n) (p % 32)

/-- The running weighted sum after point `p`. -/
def RA (x : Fin 4096 → Fin 32 → ℝ) (y : Fin 4096 → Fin 32 → Fin 512 → ℝ) (p : ℕ) (n : Fin 32) (h : Fin 512) : ℝ :=
  runA (tileX x (p / 32) n) (tileY y (p / 32) n h) (p % 32)

/-! ### The recursion's defining equations, and a core's tile as a tile of the sequence -/

private theorem runM_at_zero (Xs : ℕ → Fin 64 → ℝ) : runM Xs 0 = tileMax (Xs 0) := rfl

private theorem runM_at_succ (Xs : ℕ → Fin 64 → ℝ) (j : ℕ) :
    runM Xs (j + 1) = max (runM Xs j) (tileMax (Xs (j + 1))) := rfl

private theorem runL_at_zero (Xs : ℕ → Fin 64 → ℝ) : runL Xs 0 = tileExp (runM Xs 0) (Xs 0) := rfl

private theorem runL_at_succ (Xs : ℕ → Fin 64 → ℝ) (j : ℕ) :
    runL Xs (j + 1)
      = Real.exp (runM Xs j - runM Xs (j + 1)) * runL Xs j + tileExp (runM Xs (j + 1)) (Xs (j + 1)) := rfl

private theorem runA_at_zero (Xs Ys : ℕ → Fin 64 → ℝ) : runA Xs Ys 0 = tileWt (runM Xs 0) (Xs 0) (Ys 0) := rfl

private theorem runA_at_succ (Xs Ys : ℕ → Fin 64 → ℝ) (j : ℕ) :
    runA Xs Ys (j + 1)
      = Real.exp (runM Xs j - runM Xs (j + 1)) * runA Xs Ys j
        + tileWt (runM Xs (j + 1)) (Xs (j + 1)) (Ys (j + 1)) := rfl

/-- Tile `p % 32` of core `p / 32` is tile `p` of the sequence, since `32 * (p / 32) + p % 32 = p`. -/
private theorem tileX_at (x : Fin 4096 → Fin 32 → ℝ) (p q : ℕ) (n : Fin 32) (hq : p % 32 = q) :
    tileX x (p / 32) n q = tX x p n := by
  have e : 32 * (p / 32) + q = p := by have := Nat.div_add_mod p 32; omega
  funext a
  show x (row (32 * (p / 32) + q) a.val) n = x (row p a.val) n
  rw [e]

private theorem tileY_at (y : Fin 4096 → Fin 32 → Fin 512 → ℝ) (p q : ℕ) (n : Fin 32) (h : Fin 512)
    (hq : p % 32 = q) : tileY y (p / 32) n h q = tY y p n h := by
  have e : 32 * (p / 32) + q = p := by have := Nat.div_add_mod p 32; omega
  funext a
  show y (row (32 * (p / 32) + q) a.val) n h = y (row p a.val) n h
  rw [e]

theorem RM_first (x : Fin 4096 → Fin 32 → ℝ) (p : ℕ) (h0 : p % 32 = 0) (n : Fin 32) :
    RM x p n = tileMax (tX x p n) := by
  unfold RM
  rw [h0, runM_at_zero, tileX_at x p 0 n h0]

theorem RL_first (x : Fin 4096 → Fin 32 → ℝ) (p : ℕ) (h0 : p % 32 = 0) (n : Fin 32) :
    RL x p n = tileExp (tileMax (tX x p n)) (tX x p n) := by
  unfold RL
  rw [h0, runL_at_zero, runM_at_zero, tileX_at x p 0 n h0]

theorem RA_first (x : Fin 4096 → Fin 32 → ℝ) (y : Fin 4096 → Fin 32 → Fin 512 → ℝ) (p : ℕ) (h0 : p % 32 = 0)
    (n : Fin 32) (h : Fin 512) :
    RA x y p n h = tileWt (tileMax (tX x p n)) (tX x p n) (tY y p n h) := by
  unfold RA
  rw [h0, runA_at_zero, runM_at_zero, tileX_at x p 0 n h0, tileY_at y p 0 n h h0]

theorem RM_next (x : Fin 4096 → Fin 32 → ℝ) (p : ℕ) (h0 : ¬p % 32 = 0) (n : Fin 32) :
    RM x p n = max (RM x (p - 1) n) (tileMax (tX x p n)) := by
  obtain ⟨q, hq⟩ : ∃ q, p % 32 = q + 1 := ⟨p % 32 - 1, by omega⟩
  have hd : (p - 1) / 32 = p / 32 := by omega
  have hm : (p - 1) % 32 = q := by omega
  unfold RM
  rw [hd, hm, hq, runM_at_succ, tileX_at x p (q + 1) n hq]

theorem RL_next (x : Fin 4096 → Fin 32 → ℝ) (p : ℕ) (h0 : ¬p % 32 = 0) (n : Fin 32) :
    RL x p n = Real.exp (RM x (p - 1) n - max (RM x (p - 1) n) (tileMax (tX x p n))) * RL x (p - 1) n
      + tileExp (max (RM x (p - 1) n) (tileMax (tX x p n))) (tX x p n) := by
  obtain ⟨q, hq⟩ : ∃ q, p % 32 = q + 1 := ⟨p % 32 - 1, by omega⟩
  have hd : (p - 1) / 32 = p / 32 := by omega
  have hm : (p - 1) % 32 = q := by omega
  unfold RL RM
  rw [hd, hm, hq, runL_at_succ, runM_at_succ, tileX_at x p (q + 1) n hq]

theorem RA_next (x : Fin 4096 → Fin 32 → ℝ) (y : Fin 4096 → Fin 32 → Fin 512 → ℝ) (p : ℕ) (h0 : ¬p % 32 = 0)
    (n : Fin 32) (h : Fin 512) :
    RA x y p n h = Real.exp (RM x (p - 1) n - max (RM x (p - 1) n) (tileMax (tX x p n))) * RA x y (p - 1) n h
      + tileWt (max (RM x (p - 1) n) (tileMax (tX x p n))) (tX x p n) (tY y p n h) := by
  obtain ⟨q, hq⟩ : ∃ q, p % 32 = q + 1 := ⟨p % 32 - 1, by omega⟩
  have hd : (p - 1) / 32 = p / 32 := by omega
  have hm : (p - 1) % 32 = q := by omega
  unfold RA RM
  rw [hd, hm, hq, runA_at_succ, runM_at_succ, tileX_at x p (q + 1) n hq, tileY_at y p (q + 1) n h hq]

/-- At a core's last point the running values are the core's final ones. -/
theorem RM_last (x : Fin 4096 → Fin 32 → ℝ) (k : Fin 2) (n : Fin 32) :
    RM x (32 * k.val + 31) n = runM (tileX x k.val n) 31 := by
  have hd : (32 * k.val + 31) / 32 = k.val := by omega
  have hm : (32 * k.val + 31) % 32 = 31 := by omega
  unfold RM
  rw [hd, hm]

theorem RL_last (x : Fin 4096 → Fin 32 → ℝ) (k : Fin 2) (n : Fin 32) :
    RL x (32 * k.val + 31) n = runL (tileX x k.val n) 31 := by
  have hd : (32 * k.val + 31) / 32 = k.val := by omega
  have hm : (32 * k.val + 31) % 32 = 31 := by omega
  unfold RL
  rw [hd, hm]

theorem RA_last (x : Fin 4096 → Fin 32 → ℝ) (y : Fin 4096 → Fin 32 → Fin 512 → ℝ) (k : Fin 2) (n : Fin 32) (h : Fin 512) :
    RA x y (32 * k.val + 31) n h = runA (tileX x k.val n) (tileY y k.val n h) 31 := by
  have hd : (32 * k.val + 31) / 32 = k.val := by omega
  have hm : (32 * k.val + 31) % 32 = 31 := by omega
  unfold RA
  rw [hd, hm]

end Cert.Attn

end
-- ==== Proof.KernelInvariant.lean ====
/-
  What the running values hold after every grid point.

  By induction on the point: at a core's first point the three running values are reset and then updated by the tile, so
  they are the tile's own maximum and sums; at every later point they are the previous point's values updated by the
  tile. Read over the reals (every score is real because `tanh` is and the scoring row and bias are; the encoder outputs
  are real by the precondition) these are the online recursion `RM`, `RL`, `RA` of the point. The logits' block a point
  writes is the tile's scores, and the last point of a core's half publishes the three running values.
-/
import proofs.«420586_j87265145520380_3_alg».proof.Proof.Gen.KernelIdeal.Frame
import proofs.«420586_j87265145520380_3_alg».proof.Proof.KernelVocab
import proofs.«420586_j87265145520380_3_alg».proof.Proof.KernelPieces
import proofs.«420586_j87265145520380_3_alg».proof.Proof.KernelStep
import proofs.«420586_j87265145520380_3_alg».proof.Proof.KernelScore
import proofs.«420586_j87265145520380_3_alg».proof.Proof.KernelBlocks
import proofs.«420586_j87265145520380_3_alg».proof.Proof.Spec
import proofs.«420586_j87265145520380_3_alg».proof.Proof.ScoreReal
import proofs.«420586_j87265145520380_3_alg».proof.Proof.Running
import Idealize.ShloMosaic.Lib.Pipeline.Value
import Idealize.ShloMosaic.Lib.ValueLayout

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Body Cert.KernelIdeal.Blocks Cert.Attn OnlineSoftmax

variable (m : (ℓ : Loc nD τ sig) → Buf (Elt Ideal) ℓ) (c : Dev nD)

/-- The program's argument arrays on core `c`. -/
abbrev g0 : FVec Ideal S32x512 .f32 := m ((c.tc : Thread nD τ).loc main_arg0)
abbrev g1 : FVec Ideal S4096x32x512 .f32 := m ((c.tc : Thread nD τ).loc main_arg1)
abbrev g2 : FVec Ideal S512x512 .f32 := m ((c.tc : Thread nD τ).loc main_arg2)
abbrev g3 : FVec Ideal S512 .f32 := m ((c.tc : Thread nD τ).loc main_arg3)
abbrev g4 : FVec Ideal S512x512 .f32 := m ((c.tc : Thread nD τ).loc main_arg4)
abbrev g5 : FVec Ideal S512 .f32 := m ((c.tc : Thread nD τ).loc main_arg5)
abbrev g6 : FVec Ideal S1x512 .f32 := m ((c.tc : Thread nD τ).loc main_arg6)
abbrev g7 : FVec Ideal S1 .f32 := m ((c.tc : Thread nD τ).loc main_arg7)

/-- The attention logits of this memory. -/
def sc : Fin 4096 → Fin 32 → EReal :=
  score (g0 m c) (g1 m c) (g2 m c) (g3 m c) (g4 m c) (g5 m c) (g6 m c) (g7 m c)

/-- The logits and the encoder outputs read as reals. -/
abbrev X : Fin 4096 → Fin 32 → ℝ := xr (sc m c)
abbrev Y : Fin 4096 → Fin 32 → Fin 512 → ℝ := yr (g1 m c)

/-- The tile a point computes is the tile of scores: inside `tanh` the body adds the projected hidden state last, the
    score adds it first. -/
theorem tile_score (t : Fin cfg0.N) (a : Fin 64) (n : Fin 32) :
    tileScore (b0 m c t) (b1 m c t) (b2 m c t) (b3 m c t) (b4 m c t) (b5 m c t) (ix2 a n) = sc m c (row t.val a.val) n := by
  rw [tileScore_apply]
  unfold sc score ue
  simp only [b0_apply, b1_apply, b2_apply, b3_apply, b4_apply, b5_apply]
  congr 1
  refine Finset.sum_congr rfl fun k _ => ?_
  rw [add_comm (wh _ _ _ n k)]

variable (h1 : ∀ i, ∃ r : ℝ, g1 m c i = (r : EReal)) (h6 : ∀ i, ∃ r : ℝ, g6 m c i = (r : EReal))
  (h7 : ∀ i, ∃ r : ℝ, g7 m c i = (r : EReal))

include h6 h7 in
/-- Every score is real. -/
theorem sc_real (s : Fin 4096) (n : Fin 32) : ∃ r : ℝ, sc m c s n = (r : EReal) :=
  score_real _ _ _ _ _ _ _ _ h6 h7 s n

include h6 h7 in
/-- The tile's logits as reals. -/
theorem tile_score_real (t : Fin cfg0.N) (a : Fin 64) (n : Fin 32) :
    tileScore (b0 m c t) (b1 m c t) (b2 m c t) (b3 m c t) (b4 m c t) (b5 m c t) (ix2 a n) = ((tX (X m c) t.val n a : ℝ) : EReal) :=
  (tile_score m c t a n).trans (eq_coe_xr (sc m c) (sc_real m c h6 h7) _ _)

include h1 in
/-- The tile's encoder outputs as reals. -/
theorem tile_eo_real (t : Fin cfg0.N) (a : Fin 64) (n : Fin 32) (h : Fin 512) :
    b0 m c t (ix3 a n h) = ((tY (Y m c) t.val n h a : ℝ) : EReal) :=
  (b0_apply m c t a n h).trans (eq_coe_yr (g1 m c) h1 _ _ _)

/-! ## The components after a point, case by case -/

theorem outs_A (t : Fin cfg0.N) (h0 : t.val % 32 = 0) (h1 : ¬t.val % 32 = 31) :
    (outsAt0 m c t.val t.isLt).1 = tileScore (b0 m c t) (b1 m c t) (b2 m c t) (b3 m c t) (b4 m c t) (b5 m c t)
    ∧ (outsAt0 m c t.val t.isLt).2.2.2.2.1 = stM (b0 m c t) (b1 m c t) (b2 m c t) (b3 m c t) (b4 m c t) (b5 m c t) (k0_pay9 (F := Ideal))
    ∧ (outsAt0 m c t.val t.isLt).2.2.2.2.2.1 = stL (b0 m c t) (b1 m c t) (b2 m c t) (b3 m c t) (b4 m c t) (b5 m c t) (k0_pay9 (F := Ideal)) (k0_pay10 (F := Ideal))
    ∧ (outsAt0 m c t.val t.isLt).2.2.2.2.2.2 = stA (b0 m c t) (b1 m c t) (b2 m c t) (b3 m c t) (b4 m c t) (b5 m c t) (k0_pay9 (F := Ideal)) (k0_pay11 (F := Ideal)) := by
  rw [outsAt0_A m c t h0 h1]
  dsimp only
  exact ⟨out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

theorem outs_B (t : Fin cfg0.N) (h0 : ¬t.val % 32 = 0) (h1 : ¬t.val % 32 = 31) :
    (outsAt0 m c t.val t.isLt).1 = tileScore (b0 m c t) (b1 m c t) (b2 m c t) (b3 m c t) (b4 m c t) (b5 m c t)
    ∧ (outsAt0 m c t.val t.isLt).2.2.2.2.1 = stM (b0 m c t) (b1 m c t) (b2 m c t) (b3 m c t) (b4 m c t) (b5 m c t) (outsAt0 m c (t.val - 1) (Nat.lt_of_le_of_lt (Nat.sub_le _ _) t.isLt)).2.2.2.2.1
    ∧ (outsAt0 m c t.val t.isLt).2.2.2.2.2.1 = stL (b0 m c t) (b1 m c t) (b2 m c t) (b3 m c t) (b4 m c t) (b5 m c t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
    ∧ (outsAt0 m c t.val t.isLt).2.2.2.2.2.2 = stA (b0 m c t) (b1 m c t) (b2 m c t) (b3 m c t) (b4 m c t) (b5 m c t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 := by
  rw [outsAt0_B m c t h0 h1]
  dsimp only
  exact ⟨out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

theorem outs_C (t : Fin cfg0.N) (h0 : ¬t.val % 32 = 0) (h1 : t.val % 32 = 31) :
    (outsAt0 m c t.val t.isLt).1 = tileScore (b0 m c t) (b1 m c t) (b2 m c t) (b3 m c t) (b4 m c t) (b5 m c t)
    ∧ (outsAt0 m c t.val t.isLt).2.2.2.2.1 = stM (b0 m c t) (b1 m c t) (b2 m c t) (b3 m c t) (b4 m c t) (b5 m c t) (outsAt0 m c (t.val - 1) (Nat.lt_of_le_of_lt (Nat.sub_le _ _) t.isLt)).2.2.2.2.1
    ∧ (outsAt0 m c t.val t.isLt).2.2.2.2.2.1 = stL (b0 m c t) (b1 m c t) (b2 m c t) (b3 m c t) (b4 m c t) (b5 m c t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1
    ∧ (outsAt0 m c t.val t.isLt).2.2.2.2.2.2 = stA (b0 m c t) (b1 m c t) (b2 m c t) (b3 m c t) (b4 m c t) (b5 m c t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2
    ∧ (outsAt0 m c t.val t.isLt).2.1 = k0_pay6 (stA (b0 m c t) (b1 m c t) (b2 m c t) (b3 m c t) (b4 m c t) (b5 m c t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2)
    ∧ (outsAt0 m c t.val t.isLt).2.2.1 = k0_pay7 (stM (b0 m c t) (b1 m c t) (b2 m c t) (b3 m c t) (b4 m c t) (b5 m c t) (outsAt0 m c (t.val - 1) (Nat.lt_of_le_of_lt (Nat.sub_le _ _) t.isLt)).2.2.2.2.1)
    ∧ (outsAt0 m c t.val t.isLt).2.2.2.1 = k0_pay8 (stL (b0 m c t) (b1 m c t) (b2 m c t) (b3 m c t) (b4 m c t) (b5 m c t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1) := by
  rw [outsAt0_C m c t h0 h1]
  dsimp only
  exact ⟨out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    out_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    out_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

/-! ## The running values after every point -/

include h1 h6 h7 in
/-- After point `n` the three running values are the online recursion of the point, read over the reals. -/
theorem scratch_after : ∀ (n : ℕ) (hn : n < cfg0.N),
    (outsAt0 m c n hn).2.2.2.2.1 = (fun i => ((RM (X m c) n (i 0) : ℝ) : EReal))
    ∧ (outsAt0 m c n hn).2.2.2.2.2.1 = (fun i => ((RL (X m c) n (i 0) : ℝ) : EReal))
    ∧ (outsAt0 m c n hn).2.2.2.2.2.2 = (fun i => ((RA (X m c) (Y m c) n (i 0) (i 1) : ℝ) : EReal)) := by
  intro n
  induction n using Nat.strong_induction_on with
  | _ n ih =>
    intro hn
    have hN : n < 64 := lt_of_lt_of_eq hn (show cfg0.N = 64 from N_0)
    by_cases h0 : n % 32 = 0
    · have hh : ¬n % 32 = 31 := by omega
      obtain ⟨-, eM, eL, eA⟩ := outs_A m c ⟨n, hn⟩ h0 hh
      refine ⟨eM.trans ((stM_first (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k)).trans
          (funext fun i => by rw [RM_first (X m c) n h0 (i 0)])),
        eL.trans ((stL_first (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k)).trans
          (funext fun i => by rw [RL_first (X m c) n h0 (i 0)])),
        eA.trans ((stA_first (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k) (tY (Y m c) n) (fun a k h => tile_eo_real m c h1 ⟨n, hn⟩ a k h)).trans
          (funext fun i => by rw [RA_first (X m c) (Y m c) n h0 (i 0) (i 1)]))⟩
    · have hpos : 0 < n := by
        rcases Nat.eq_zero_or_pos n with rfl | hp
        · exact absurd rfl h0
        · exact hp
      obtain ⟨iM, iL, iA⟩ := ih (n - 1) (by omega) (Nat.lt_of_le_of_lt (Nat.sub_le _ _) hn)
      by_cases hh : n % 32 = 31
      ·
        obtain ⟨-, eM, eL, eA, -, -, -⟩ := outs_C m c ⟨n, hn⟩ h0 hh
        refine ⟨eM.trans ((stM_next (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k) _ (RM (X m c) (n - 1)) iM).trans
            (funext fun i => by rw [RM_next (X m c) n h0 (i 0)])),
          eL.trans ((stL_next (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k) _ _ (RM (X m c) (n - 1)) (RL (X m c) (n - 1)) iM iL).trans
            (funext fun i => by rw [RL_next (X m c) n h0 (i 0)])),
          eA.trans ((stA_next (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k) (tY (Y m c) n) (fun a k h => tile_eo_real m c h1 ⟨n, hn⟩ a k h) _ _ (RM (X m c) (n - 1)) (RA (X m c) (Y m c) (n - 1)) iM iA).trans
            (funext fun i => by rw [RA_next (X m c) (Y m c) n h0 (i 0) (i 1)]))⟩
      ·
        obtain ⟨-, eM, eL, eA⟩ := outs_B m c ⟨n, hn⟩ h0 hh
        refine ⟨eM.trans ((stM_next (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k) _ (RM (X m c) (n - 1)) iM).trans
            (funext fun i => by rw [RM_next (X m c) n h0 (i 0)])),
          eL.trans ((stL_next (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k) _ _ (RM (X m c) (n - 1)) (RL (X m c) (n - 1)) iM iL).trans
            (funext fun i => by rw [RL_next (X m c) n h0 (i 0)])),
          eA.trans ((stA_next (b0 m c ⟨n, hn⟩) (b1 m c ⟨n, hn⟩) (b2 m c ⟨n, hn⟩) (b3 m c ⟨n, hn⟩) (b4 m c ⟨n, hn⟩) (b5 m c ⟨n, hn⟩) (tX (X m c) n) (fun a k => tile_score_real m c h6 h7 ⟨n, hn⟩ a k) (tY (Y m c) n) (fun a k h => tile_eo_real m c h1 ⟨n, hn⟩ a k h) _ _ (RM (X m c) (n - 1)) (RA (X m c) (Y m c) (n - 1)) iM iA).trans
            (funext fun i => by rw [RA_next (X m c) (Y m c) n h0 (i 0) (i 1)]))⟩

/-! ## What a point publishes -/

/-- A value stored under a leading unit axis reads back at the remaining coordinates. -/
theorem pay6_apply (v : Vec Ideal S32x512 .f32) (j : S1x32x512.Idx) : k0_pay6 v j = v (fun a => j a.succ) :=
  shapeCast_addUnit_apply ![32, 512] v shapeCasts_S32x512_S1x32x512 j

theorem pay7_apply (v : Vec Ideal S32x1 .f32) (j : S1x32x1.Idx) : k0_pay7 v j = v (fun a => j a.succ) :=
  shapeCast_addUnit_apply ![32, 1] v shapeCasts_S32x1_S1x32x1 j

theorem pay8_apply (v : Vec Ideal S32x1 .f32) (j : S1x32x1.Idx) : k0_pay8 v j = v (fun a => j a.succ) :=
  shapeCast_addUnit_apply ![32, 1] v shapeCasts_S32x1_S1x32x1 j

include h6 h7 in
/-- The logits' block a point writes is the tile's scores. -/
theorem out6_after (t : Fin cfg0.N) :
    (outsAt0 m c t.val t.isLt).1 = (fun i => ((X m c (row t.val (i 0).val) (i 1) : ℝ) : EReal)) := by
  have e : (outsAt0 m c t.val t.isLt).1 = tileScore (b0 m c t) (b1 m c t) (b2 m c t) (b3 m c t) (b4 m c t) (b5 m c t) := by
    have hN : t.val < 64 := lt_of_lt_of_eq t.isLt (show cfg0.N = 64 from N_0)
    by_cases h0 : t.val % 32 = 0
    · exact (outs_A m c t h0 (by omega)).1
    · by_cases hh : t.val % 32 = 31
      · exact (outs_C m c t h0 hh).1
      · exact (outs_B m c t h0 hh).1
  rw [e]
  funext i
  obtain ⟨a, n, rfl⟩ : ∃ (a : Fin 64) (n : Fin 32), i = ix2 a n := ⟨i 0, i 1, eq_ix2 i⟩
  exact tile_score_real m c h6 h7 t a n

include h1 h6 h7 in
/-- The last point of a core's half publishes the running weighted sum (under a leading unit axis). -/
theorem out7_after (t : Fin cfg0.N) (h31 : t.val % 32 = 31) :
    (outsAt0 m c t.val t.isLt).2.1 = (fun i => ((RA (X m c) (Y m c) t.val (i 1) (i 2) : ℝ) : EReal)) := by
  have h0 : ¬t.val % 32 = 0 := by omega
  obtain ⟨-, eM, eL, eA, e7, e8, e9⟩ := outs_C m c t h0 h31
  obtain ⟨sM, sL, sA⟩ := scratch_after m c h1 h6 h7 t.val t.isLt
  rw [e7, ← eA, sA]
  funext j
  rw [pay6_apply]
  rfl

include h1 h6 h7 in
/-- … the running maximum … -/
theorem out8_after (t : Fin cfg0.N) (h31 : t.val % 32 = 31) :
    (outsAt0 m c t.val t.isLt).2.2.1 = (fun i => ((RM (X m c) t.val (i 1) : ℝ) : EReal)) := by
  have h0 : ¬t.val % 32 = 0 := by omega
  obtain ⟨-, eM, eL, eA, e7, e8, e9⟩ := outs_C m c t h0 h31
  obtain ⟨sM, sL, sA⟩ := scratch_after m c h1 h6 h7 t.val t.isLt
  rw [e8, ← eM, sM]
  funext j
  rw [pay7_apply]
  rfl

include h1 h6 h7 in
/-- … and the running normaliser. -/
theorem out9_after (t : Fin cfg0.N) (h31 : t.val % 32 = 31) :
    (outsAt0 m c t.val t.isLt).2.2.2.1 = (fun i => ((RL (X m c) t.val (i 1) : ℝ) : EReal)) := by
  have h0 : ¬t.val % 32 = 0 := by omega
  obtain ⟨-, eM, eL, eA, e7, e8, e9⟩ := outs_C m c t h0 h31
  obtain ⟨sM, sL, sA⟩ := scratch_after m c h1 h6 h7 t.val t.isLt
  rw [e9, ← eL, sL]
  funext j
  rw [pay8_apply]
  rfl

end Cert.KernelIdeal.Inv

end
-- ==== Proof.KernelArrays.lean ====
/-
  The four arrays the region leaves.

  Every point writes its tile of logits back, and the tiles fill the 4096 × 32 array: it ends holding the scores. The
  per-core arrays are written back only by the last point of each core's half (point `32 k + 31` writes block `k`), and
  those two blocks fill them: they end holding each core's final running weighted sum, maximum and normaliser.
-/
import proofs.«420586_j87265145520380_3_alg».proof.Proof.Gen.KernelIdeal.Frame
import proofs.«420586_j87265145520380_3_alg».proof.Proof.KernelInvariant
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Inv Cert.Attn OnlineSoftmax

variable (m : (ℓ : Loc nD τ sig) → Buf (Elt Ideal) ℓ) (c : Dev nD)
  (h1 : ∀ i, ∃ r : ℝ, g1 m c i = (r : EReal)) (h6 : ∀ i, ∃ r : ℝ, g6 m c i = (r : EReal))
  (h7 : ∀ i, ∃ r : ℝ, g7 m c i = (r : EReal))

/-! ## The logits' array -/

/-- Where point `t`'s block of logits sits: block `t` along the positions, block 0 along the batch rows. -/
theorem idx6 : ∀ t : Fin cfg0.N, win0_6.index t (0 : Fin 2) = t.val ∧ win0_6.index t (1 : Fin 2) = 0 :=
  (by decide +kernel : ∀ t : Fin grid0.N, _)

include h6 h7 in
/-- What point `t` writes back is its block of the scores. -/
theorem flushed6_eq (t : Fin cfg0.N) :
    (dats m 0 c).flushed 6 t
      = ((cfg0.win 6).blk t).view.read (Elt Ideal) (fun i => ((X m c (i 0) (i 1) : ℝ) : EReal)) := by
  show (cfg0.win 6).cut (grid0.coords t) ((dats m 0 c).after 6 t) = _
  rw [after0_6, out6_after m c h6 h7 t]
  obtain ⟨e0, e1⟩ := idx6 t
  have ht : t.val < 64 := lt_of_lt_of_eq t.isLt N_0
  funext j
  rw [View.read_apply]
  show ((X m c (row t.val (j 0).val) (j 1) : ℝ) : EReal)
    = ((X m c ((((cfg0.win 6).blk t).view.emb j) 0) ((((cfg0.win 6).blk t).view.emb j) 1) : ℝ) : EReal)
  have hj0 : (j 0).val < 64 := (j 0).isLt
  have k0 : (((cfg0.win 6).blk t).view.emb j) 0 = row t.val (j 0).val := Fin.ext (by
    show win0_6.index t (0 : Fin 2) * 64 + 1 * (j 0).val = (row t.val (j 0).val).val
    rw [e0, row_val t.val (j 0).val ht hj0]; omega)
  have k1 : (((cfg0.win 6).blk t).view.emb j) 1 = j 1 := Fin.ext (by
    show win0_6.index t (1 : Fin 2) * 32 + 1 * (j 1).val = (j 1).val
    rw [e1]; omega)
  rw [k0, k1]

/-- An index of the logits' array is in point `t`'s block iff each coordinate is in the block's range on its axis. -/
theorem mem_blk6 (t : Fin cfg0.N) (i : S4096x32.Idx) :
    i ∈ ((cfg0.win 6).blk t).view.set ↔ ∀ a : Fin 2, win0_6.index t a * S64x32.size a ≤ (i a).val ∧ (i a).val < win0_6.index t a * S64x32.size a + S64x32.size a := by
  show i ∈ ((View.whole main_v9_0).slice (win0_6.rect t)).set ↔ _
  rw [View.set_slice_whole, Rect.mem_set_unit]
  exact Iff.rfl

/-- Position `s` is in the block of point `s / 64`, which writes back. -/
theorem cover6 (i : S4096x32.Idx) :
    ∃ t : Fin cfg0.N, (cfg0.win 6).flush t = true ∧ i ∈ ((cfg0.win 6).blk t).view.set := by
  have hi0 : (i 0).val < 4096 := (i 0).isLt
  have hi1 : (i 1).val < 32 := (i 1).isLt
  have hN : cfg0.N = 64 := N_0
  have hlt : (i 0).val / 64 < cfg0.N := lt_of_lt_of_eq (show (i 0).val / 64 < 64 by omega) hN.symm
  obtain ⟨e0, e1⟩ := idx6 ⟨(i 0).val / 64, hlt⟩
  have e0' : win0_6.index ⟨(i 0).val / 64, hlt⟩ (0 : Fin 2) = (i 0).val / 64 := e0
  refine ⟨⟨(i 0).val / 64, hlt⟩, flush0_6 _, ?_⟩
  rw [mem_blk6]
  intro a
  match a with
  | ⟨0, _⟩ =>
    show win0_6.index ⟨(i 0).val / 64, hlt⟩ (0 : Fin 2) * 64 ≤ (i 0).val ∧ (i 0).val < win0_6.index ⟨(i 0).val / 64, hlt⟩ (0 : Fin 2) * 64 + 64
    rw [e0']; omega
  | ⟨1, _⟩ =>
    show win0_6.index ⟨(i 0).val / 64, hlt⟩ (1 : Fin 2) * 32 ≤ (i 1).val ∧ (i 1).val < win0_6.index ⟨(i 0).val / 64, hlt⟩ (1 : Fin 2) * 32 + 32
    rw [e1]; omega

include h6 h7 in
/-- The logits' array ends holding the scores. -/
theorem arr6 : (dats m 0 c).arrAt 6 cfg0.N = (fun i => ((X m c (i 0) (i 1) : ℝ) : EReal)) := by
  exact (dats m 0 c).arrAt_eq_of_cover 6 _ (fun t _ => flushed6_eq m c h6 h7 t) cover6

/-! ## The per-core weighted sums -/

/-- Where point `t`'s block sits: block `t / 32` along the cores, block 0 along the other axes. -/
theorem idx7 : ∀ t : Fin cfg0.N, win0_7.index t (0 : Fin 3) = t.val / 32 ∧ win0_7.index t (1 : Fin 3) = 0 ∧ win0_7.index t (2 : Fin 3) = 0 :=
  (by decide +kernel : ∀ t : Fin grid0.N, _)

include h1 h6 h7 in
/-- What the last point of a core's half writes back is the core's block of the final values. -/
theorem flushed7_eq (t : Fin cfg0.N) (h31 : t.val % 32 = 31) :
    (dats m 0 c).flushed 7 t
      = ((cfg0.win 7).blk t).view.read (Elt Ideal) (fun i => ((runA (tileX (X m c) (i 0).val (i 1)) (tileY (Y m c) (i 0).val (i 1) (i 2)) 31 : ℝ) : EReal)) := by
  show (cfg0.win 7).cut (grid0.coords t) ((dats m 0 c).after 7 t) = _
  rw [after0_7, out7_after m c h1 h6 h7 t h31]
  obtain ⟨e0, e1, e2⟩ := idx7 t
  funext j
  rw [View.read_apply]
  show ((RA (X m c) (Y m c) t.val (j 1) (j 2) : ℝ) : EReal)
    = ((runA (tileX (X m c) ((((cfg0.win 7).blk t).view.emb j) 0).val ((((cfg0.win 7).blk t).view.emb j) 1)) (tileY (Y m c) ((((cfg0.win 7).blk t).view.emb j) 0).val ((((cfg0.win 7).blk t).view.emb j) 1) ((((cfg0.win 7).blk t).view.emb j) 2)) 31 : ℝ) : EReal)
  have hj0 : (j 0).val < 1 := (j 0).isLt
  have k0 : ((((cfg0.win 7).blk t).view.emb j) 0).val = t.val / 32 := by
    show win0_7.index t (0 : Fin 3) * 1 + 1 * (j 0).val = t.val / 32
    rw [e0]; omega
  have k1 : (((cfg0.win 7).blk t).view.emb j) 1 = j 1 := Fin.ext (by
    show win0_7.index t (1 : Fin 3) * 32 + 1 * (j 1).val = (j 1).val
    rw [e1]; omega)
  have k2 : (((cfg0.win 7).blk t).view.emb j) 2 = j 2 := Fin.ext (by
    show win0_7.index t (2 : Fin 3) * 512 + 1 * (j 2).val = (j 2).val
    rw [e2]; omega)
  rw [k0, k1, k2]
  unfold RA
  rw [h31]

/-- An index of the array is in point `t`'s block iff each coordinate is in the block's range on its axis. -/
theorem mem_blk7 (t : Fin cfg0.N) (i : S2x32x512.Idx) :
    i ∈ ((cfg0.win 7).blk t).view.set ↔ ∀ a : Fin 3, win0_7.index t a * S1x32x512.size a ≤ (i a).val ∧ (i a).val < win0_7.index t a * S1x32x512.size a + S1x32x512.size a := by
  show i ∈ ((View.whole main_v9_1).slice (win0_7.rect t)).set ↔ _
  rw [View.set_slice_whole, Rect.mem_set_unit]
  exact Iff.rfl

/-- Core `k`'s block is the block of point `32 k + 31`, which writes back. -/
theorem cover7 (i : S2x32x512.Idx) :
    ∃ t : Fin cfg0.N, (cfg0.win 7).flush t = true ∧ i ∈ ((cfg0.win 7).blk t).view.set := by
  have hi0 : (i 0).val < 2 := (i 0).isLt
  have hi1 : (i 1).val < 32 := (i 1).isLt
  have hi2 : (i 2).val < 512 := (i 2).isLt
  have hN : cfg0.N = 64 := N_0
  have hlt : 32 * (i 0).val + 31 < cfg0.N := lt_of_lt_of_eq (show 32 * (i 0).val + 31 < 64 by omega) hN.symm
  obtain ⟨e0, e1, e2⟩ := idx7 ⟨32 * (i 0).val + 31, hlt⟩
  have e0' : win0_7.index ⟨32 * (i 0).val + 31, hlt⟩ (0 : Fin 3) = (32 * (i 0).val + 31) / 32 := e0
  refine ⟨⟨32 * (i 0).val + 31, hlt⟩, (flush0_7 _).mpr (show (32 * (i 0).val + 31) % 32 = 31 by omega), ?_⟩
  rw [mem_blk7]
  intro a
  match a with
  | ⟨0, _⟩ =>
    show win0_7.index ⟨32 * (i 0).val + 31, hlt⟩ (0 : Fin 3) * 1 ≤ (i 0).val ∧ (i 0).val < win0_7.index ⟨32 * (i 0).val + 31, hlt⟩ (0 : Fin 3) * 1 + 1
    rw [e0']; omega
  | ⟨1, _⟩ =>
    show win0_7.index ⟨32 * (i 0).val + 31, hlt⟩ (1 : Fin 3) * 32 ≤ (i 1).val ∧ (i 1).val < win0_7.index ⟨32 * (i 0).val + 31, hlt⟩ (1 : Fin 3) * 32 + 32
    rw [e1]; omega
  | ⟨2, _⟩ =>
    show win0_7.index ⟨32 * (i 0).val + 31, hlt⟩ (2 : Fin 3) * 512 ≤ (i 2).val ∧ (i 2).val < win0_7.index ⟨32 * (i 0).val + 31, hlt⟩ (2 : Fin 3) * 512 + 512
    rw [e2]; omega

include h1 h6 h7 in
/-- The per-core weighted sums: core `k`'s final running weighted sum. -/
theorem arr7 : (dats m 0 c).arrAt 7 cfg0.N
    = (fun i => ((runA (tileX (X m c) (i 0).val (i 1)) (tileY (Y m c) (i 0).val (i 1) (i 2)) 31 : ℝ) : EReal)) := by
  exact (dats m 0 c).arrAt_eq_of_cover 7 _ (fun t hf => flushed7_eq m c h1 h6 h7 t ((flush0_7 t).mp hf)) cover7

/-! ## The per-core maxima -/

/-- Where point `t`'s block sits: block `t / 32` along the cores, block 0 along the other axes. -/
theorem idx8 : ∀ t : Fin cfg0.N, win0_8.index t (0 : Fin 3) = t.val / 32 ∧ win0_8.index t (1 : Fin 3) = 0 ∧ win0_8.index t (2 : Fin 3) = 0 :=
  (by decide +kernel : ∀ t : Fin grid0.N, _)

include h1 h6 h7 in
/-- What the last point of a core's half writes back is the core's block of the final values. -/
theorem flushed8_eq (t : Fin cfg0.N) (h31 : t.val % 32 = 31) :
    (dats m 0 c).flushed 8 t
      = ((cfg0.win 8).blk t).view.read (Elt Ideal) (fun i => ((runM (tileX (X m c) (i 0).val (i 1)) 31 : ℝ) : EReal)) := by
  show (cfg0.win 8).cut (grid0.coords t) ((dats m 0 c).after 8 t) = _
  rw [after0_8, out8_after m c h1 h6 h7 t h31]
  obtain ⟨e0, e1, e2⟩ := idx8 t
  funext j
  rw [View.read_apply]
  show ((RM (X m c) t.val (j 1) : ℝ) : EReal)
    = ((runM (tileX (X m c) ((((cfg0.win 8).blk t).view.emb j) 0).val ((((cfg0.win 8).blk t).view.emb j) 1)) 31 : ℝ) : EReal)
  have hj0 : (j 0).val < 1 := (j 0).isLt
  have k0 : ((((cfg0.win 8).blk t).view.emb j) 0).val = t.val / 32 := by
    show win0_8.index t (0 : Fin 3) * 1 + 1 * (j 0).val = t.val / 32
    rw [e0]; omega
  have k1 : (((cfg0.win 8).blk t).view.emb j) 1 = j 1 := Fin.ext (by
    show win0_8.index t (1 : Fin 3) * 32 + 1 * (j 1).val = (j 1).val
    rw [e1]; omega)
  rw [k0, k1]
  unfold RM
  rw [h31]

/-- An index of the array is in point `t`'s block iff each coordinate is in the block's range on its axis. -/
theorem mem_blk8 (t : Fin cfg0.N) (i : S2x32x1.Idx) :
    i ∈ ((cfg0.win 8).blk t).view.set ↔ ∀ a : Fin 3, win0_8.index t a * S1x32x1.size a ≤ (i a).val ∧ (i a).val < win0_8.index t a * S1x32x1.size a + S1x32x1.size a := by
  show i ∈ ((View.whole main_v9_2).slice (win0_8.rect t)).set ↔ _
  rw [View.set_slice_whole, Rect.mem_set_unit]
  exact Iff.rfl

/-- Core `k`'s block is the block of point `32 k + 31`, which writes back. -/
theorem cover8 (i : S2x32x1.Idx) :
    ∃ t : Fin cfg0.N, (cfg0.win 8).flush t = true ∧ i ∈ ((cfg0.win 8).blk t).view.set := by
  have hi0 : (i 0).val < 2 := (i 0).isLt
  have hi1 : (i 1).val < 32 := (i 1).isLt
  have hi2 : (i 2).val < 1 := (i 2).isLt
  have hN : cfg0.N = 64 := N_0
  have hlt : 32 * (i 0).val + 31 < cfg0.N := lt_of_lt_of_eq (show 32 * (i 0).val + 31 < 64 by omega) hN.symm
  obtain ⟨e0, e1, e2⟩ := idx8 ⟨32 * (i 0).val + 31, hlt⟩
  have e0' : win0_8.index ⟨32 * (i 0).val + 31, hlt⟩ (0 : Fin 3) = (32 * (i 0).val + 31) / 32 := e0
  refine ⟨⟨32 * (i 0).val + 31, hlt⟩, (flush0_8 _).mpr (show (32 * (i 0).val + 31) % 32 = 31 by omega), ?_⟩
  rw [mem_blk8]
  intro a
  match a with
  | ⟨0, _⟩ =>
    show win0_8.index ⟨32 * (i 0).val + 31, hlt⟩ (0 : Fin 3) * 1 ≤ (i 0).val ∧ (i 0).val < win0_8.index ⟨32 * (i 0).val + 31, hlt⟩ (0 : Fin 3) * 1 + 1
    rw [e0']; omega
  | ⟨1, _⟩ =>
    show win0_8.index ⟨32 * (i 0).val + 31, hlt⟩ (1 : Fin 3) * 32 ≤ (i 1).val ∧ (i 1).val < win0_8.index ⟨32 * (i 0).val + 31, hlt⟩ (1 : Fin 3) * 32 + 32
    rw [e1]; omega
  | ⟨2, _⟩ =>
    show win0_8.index ⟨32 * (i 0).val + 31, hlt⟩ (2 : Fin 3) * 1 ≤ (i 2).val ∧ (i 2).val < win0_8.index ⟨32 * (i 0).val + 31, hlt⟩ (2 : Fin 3) * 1 + 1
    rw [e2]; omega

include h1 h6 h7 in
/-- The per-core maxima. -/
theorem arr8 : (dats m 0 c).arrAt 8 cfg0.N = (fun i => ((runM (tileX (X m c) (i 0).val (i 1)) 31 : ℝ) : EReal)) := by
  exact (dats m 0 c).arrAt_eq_of_cover 8 _ (fun t hf => flushed8_eq m c h1 h6 h7 t ((flush0_8 t).mp hf)) cover8

/-! ## The per-core normalisers -/

/-- Where point `t`'s block sits: block `t / 32` along the cores, block 0 along the other axes. -/
theorem idx9 : ∀ t : Fin cfg0.N, win0_9.index t (0 : Fin 3) = t.val / 32 ∧ win0_9.index t (1 : Fin 3) = 0 ∧ win0_9.index t (2 : Fin 3) = 0 :=
  (by decide +kernel : ∀ t : Fin grid0.N, _)

include h1 h6 h7 in
/-- What the last point of a core's half writes back is the core's block of the final values. -/
theorem flushed9_eq (t : Fin cfg0.N) (h31 : t.val % 32 = 31) :
    (dats m 0 c).flushed 9 t
      = ((cfg0.win 9).blk t).view.read (Elt Ideal) (fun i => ((runL (tileX (X m c) (i 0).val (i 1)) 31 : ℝ) : EReal)) := by
  show (cfg0.win 9).cut (grid0.coords t) ((dats m 0 c).after 9 t) = _
  rw [after0_9, out9_after m c h1 h6 h7 t h31]
  obtain ⟨e0, e1, e2⟩ := idx9 t
  funext j
  rw [View.read_apply]
  show ((RL (X m c) t.val (j 1) : ℝ) : EReal)
    = ((runL (tileX (X m c) ((((cfg0.win 9).blk t).view.emb j) 0).val ((((cfg0.win 9).blk t).view.emb j) 1)) 31 : ℝ) : EReal)
  have hj0 : (j 0).val < 1 := (j 0).isLt
  have k0 : ((((cfg0.win 9).blk t).view.emb j) 0).val = t.val / 32 := by
    show win0_9.index t (0 : Fin 3) * 1 + 1 * (j 0).val = t.val / 32
    rw [e0]; omega
  have k1 : (((cfg0.win 9).blk t).view.emb j) 1 = j 1 := Fin.ext (by
    show win0_9.index t (1 : Fin 3) * 32 + 1 * (j 1).val = (j 1).val
    rw [e1]; omega)
  rw [k0, k1]
  unfold RL
  rw [h31]

/-- An index of the array is in point `t`'s block iff each coordinate is in the block's range on its axis. -/
theorem mem_blk9 (t : Fin cfg0.N) (i : S2x32x1.Idx) :
    i ∈ ((cfg0.win 9).blk t).view.set ↔ ∀ a : Fin 3, win0_9.index t a * S1x32x1.size a ≤ (i a).val ∧ (i a).val < win0_9.index t a * S1x32x1.size a + S1x32x1.size a := by
  show i ∈ ((View.whole main_v9_3).slice (win0_9.rect t)).set ↔ _
  rw [View.set_slice_whole, Rect.mem_set_unit]
  exact Iff.rfl

/-- Core `k`'s block is the block of point `32 k + 31`, which writes back. -/
theorem cover9 (i : S2x32x1.Idx) :
    ∃ t : Fin cfg0.N, (cfg0.win 9).flush t = true ∧ i ∈ ((cfg0.win 9).blk t).view.set := by
  have hi0 : (i 0).val < 2 := (i 0).isLt
  have hi1 : (i 1).val < 32 := (i 1).isLt
  have hi2 : (i 2).val < 1 := (i 2).isLt
  have hN : cfg0.N = 64 := N_0
  have hlt : 32 * (i 0).val + 31 < cfg0.N := lt_of_lt_of_eq (show 32 * (i 0).val + 31 < 64 by omega) hN.symm
  obtain ⟨e0, e1, e2⟩ := idx9 ⟨32 * (i 0).val + 31, hlt⟩
  have e0' : win0_9.index ⟨32 * (i 0).val + 31, hlt⟩ (0 : Fin 3) = (32 * (i 0).val + 31) / 32 := e0
  refine ⟨⟨32 * (i 0).val + 31, hlt⟩, (flush0_9 _).mpr (show (32 * (i 0).val + 31) % 32 = 31 by omega), ?_⟩
  rw [mem_blk9]
  intro a
  match a with
  | ⟨0, _⟩ =>
    show win0_9.index ⟨32 * (i 0).val + 31, hlt⟩ (0 : Fin 3) * 1 ≤ (i 0).val ∧ (i 0).val < win0_9.index ⟨32 * (i 0).val + 31, hlt⟩ (0 : Fin 3) * 1 + 1
    rw [e0']; omega
  | ⟨1, _⟩ =>
    show win0_9.index ⟨32 * (i 0).val + 31, hlt⟩ (1 : Fin 3) * 32 ≤ (i 1).val ∧ (i 1).val < win0_9.index ⟨32 * (i 0).val + 31, hlt⟩ (1 : Fin 3) * 32 + 32
    rw [e1]; omega
  | ⟨2, _⟩ =>
    show win0_9.index ⟨32 * (i 0).val + 31, hlt⟩ (2 : Fin 3) * 1 ≤ (i 2).val ∧ (i 2).val < win0_9.index ⟨32 * (i 0).val + 31, hlt⟩ (2 : Fin 3) * 1 + 1
    rw [e2]; omega

include h1 h6 h7 in
/-- The per-core normalisers. -/
theorem arr9 : (dats m 0 c).arrAt 9 cfg0.N = (fun i => ((runL (tileX (X m c) (i 0).val (i 1)) 31 : ℝ) : EReal)) := by
  exact (dats m 0 c).arrAt_eq_of_cover 9 _ (fun t hf => flushed9_eq m c h1 h6 h7 t ((flush0_9 t).mp hf)) cover9

end Cert.KernelIdeal.Arrays

end
-- ==== Proof.KernelTail.lean ====
/-
  The results after the host lines that follow the region.

  The region leaves four arrays: the logits (4096 × 32), and per core the running weighted sum (2 × 32 × 512), maximum
  and normaliser (2 × 32 × 1 each). The host lines slice the per-core arrays, merge them against the larger of the two
  maxima (`M`): the merged normaliser `l = l₀ exp (m₀ - M) + l₁ exp (m₁ - M)`, raised to at least the smallest normal
  float (which changes nothing when `l ≥ 1`), the context `(a₀ exp (m₀ - M) + a₁ exp (m₁ - M)) / l`, and the weights
  `exp (logit - M) / l`. Over real entries these are real quotients.
-/
import proofs.«420586_j87265145520380_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Tail

open Idealize.ShloMosaic Idealize.ShloMosaic.TcCoe Idealize.ShloMosaic.ValueIdx Idealize.SL.Sem
open Idealize.ShloMosaic.Pipeline (Dat)
open Cert.KernelIdeal Cert.KernelIdeal.Gen

/-! ## Scalars -/

private theorem coe_max (x y : ℝ) : ((max x y : ℝ) : EReal) = max (x : EReal) (y : EReal) :=
  EReal.coe_strictMono.monotone.map_max

/-- The smallest normal single-precision number is a real between 0 and 1. -/
private theorem tiny_eq : ∃ r : ℝ, 0 < r ∧ r ≤ 1 ∧ Ideal.ofBits .f32 0x00800000#32 = (r : EReal) := by
  refine ⟨(2 : ℝ) ^ (-126 : Int), by positivity, ?_, ?_⟩
  · exact zpow_le_one_of_nonpos₀ (by norm_num) (by norm_num)
  · simp [Ideal.ofBits, Ideal.ieee, -EReal.coe_mul]
    norm_num

/-- A rescaling factor over reals. -/
private theorem exp_sub_max (a m0 m1 : ℝ) :
    Ideal.exp ((a : EReal) - max (m0 : EReal) (m1 : EReal)) = ((Real.exp (a - max m0 m1) : ℝ) : EReal) := by
  rw [← coe_max, ← EReal.coe_sub, Ideal.exp_coe]

/-- The merged normaliser, raised to the smallest normal number, over reals. -/
private theorem merged_l (m0 m1 l0 l1 : ℝ)
    (hL : 1 ≤ l0 * Real.exp (m0 - max m0 m1) + l1 * Real.exp (m1 - max m0 m1)) :
    max ((l0 : EReal) * Ideal.exp ((m0 : EReal) - max (m0 : EReal) (m1 : EReal))
        + (l1 : EReal) * Ideal.exp ((m1 : EReal) - max (m0 : EReal) (m1 : EReal))) (Ideal.ofBits .f32 0x00800000#32)
      = ((l0 * Real.exp (m0 - max m0 m1) + l1 * Real.exp (m1 - max m0 m1) : ℝ) : EReal) := by
  obtain ⟨r, -, hr1, hr⟩ := tiny_eq
  rw [exp_sub_max, exp_sub_max, ← EReal.coe_mul, ← EReal.coe_mul, ← EReal.coe_add, hr, ← coe_max,
    max_eq_left (le_trans hr1 hL)]

/-- The merged context entry over reals. -/
private theorem merged_ctx (a0 a1 m0 m1 l : ℝ) (hl : l ≠ 0) :
    Ideal.div ((a0 : EReal) * Ideal.exp ((m0 : EReal) - max (m0 : EReal) (m1 : EReal))
        + (a1 : EReal) * Ideal.exp ((m1 : EReal) - max (m0 : EReal) (m1 : EReal))) (l : EReal)
      = (((a0 * Real.exp (m0 - max m0 m1) + a1 * Real.exp (m1 - max m0 m1)) / l : ℝ) : EReal) := by
  rw [Ideal.div_coe hl, exp_sub_max, exp_sub_max, ← EReal.coe_mul, ← EReal.coe_mul, ← EReal.coe_add, ← EReal.coe_mul,
    ← div_eq_mul_one_div]

/-- A weight over reals. -/
private theorem merged_wt (x m0 m1 l : ℝ) (hl : l ≠ 0) :
    Ideal.div (Ideal.exp ((x : EReal) - max (m0 : EReal) (m1 : EReal))) (l : EReal)
      = ((Real.exp (x - max m0 m1) / l : ℝ) : EReal) := by
  rw [Ideal.div_coe hl, exp_sub_max, ← EReal.coe_mul, ← div_eq_mul_one_div]

/-! ## Layout reads -/

section Reads
variable {α : Type}

/-- Core 0's slice of a per-core column, reshaped to a column. -/
private theorem col0_apply (A : S2x32x1.Idx → α) (hs : S2x32x1.Slices ![0, 0, 0] S1x32x1) (hc : S1x32x1.ShapeCasts S32x1)
    (n : Fin 32) (u : Fin 1) :
    shapeCast S32x1 (extractStridedSlice S1x32x1 ![0, 0, 0] A hs) hc (ix2 n u) = A (ix3 (0 : Fin 2) n u) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Core 1's slice of a per-core column, reshaped to a column. -/
private theorem col1_apply (A : S2x32x1.Idx → α) (hs : S2x32x1.Slices ![1, 0, 0] S1x32x1) (hc : S1x32x1.ShapeCasts S32x1)
    (n : Fin 32) (u : Fin 1) :
    shapeCast S32x1 (extractStridedSlice S1x32x1 ![1, 0, 0] A hs) hc (ix2 n u) = A (ix3 (1 : Fin 2) n u) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Core 0's slice of the per-core weighted sums, reshaped to a matrix. -/
private theorem mat0_apply (A : S2x32x512.Idx → α) (hs : S2x32x512.Slices ![0, 0, 0] S1x32x512) (hc : S1x32x512.ShapeCasts S32x512)
    (n : Fin 32) (h : Fin 512) :
    shapeCast S32x512 (extractStridedSlice S1x32x512 ![0, 0, 0] A hs) hc (ix2 n h) = A (ix3 (0 : Fin 2) n h) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Core 1's slice of the per-core weighted sums, reshaped to a matrix. -/
private theorem mat1_apply (A : S2x32x512.Idx → α) (hs : S2x32x512.Slices ![1, 0, 0] S1x32x512) (hc : S1x32x512.ShapeCasts S32x512)
    (n : Fin 32) (h : Fin 512) :
    shapeCast S32x512 (extractStridedSlice S1x32x512 ![1, 0, 0] A hs) hc (ix2 n h) = A (ix3 (1 : Fin 2) n h) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- A column broadcast along the features reads its row's entry. -/
private theorem bcastCol_apply (v : S32x1.Idx → α) (hb : S32x1.BroadcastsInDim S32x512 (![0, 1] : Fin 2 → Fin S32x512.rank))
    (n : Fin 32) (h : Fin 512) :
    broadcastInDim S32x512 ![0, 1] hb v (ix2 n h) = v (ix2 n (0 : Fin 1)) :=
  broadcastInDim_apply _ hb v _ _ (fun ax => by
    match ax with
    | ⟨0, _⟩ => rfl
    | ⟨1, _⟩ => rfl)

/-- A scalar broadcast to a column reads the scalar. -/
private theorem bcastScalar_apply (v : S_.Idx → α) (hb : S_.BroadcastsInDim S32x1 (![] : Fin 0 → Fin S32x1.rank))
    (j : S32x1.Idx) : broadcastInDim S32x1 ![] hb v j = v ix0 :=
  broadcastInDim_apply _ hb v _ _ (fun ax => ax.elim0)

/-- A column reshaped to a row reads the column's entry. -/
private theorem rowOfCol_apply (v : S32x1.Idx → α) (hc : S32x1.ShapeCasts S1x32) (u : Fin 1) (n : Fin 32) :
    shapeCast S1x32 v hc (ix2 u n) = v (ix2 n (0 : Fin 1)) :=
  shapeCast_apply v hc _ _ (by
    have hu : u.val = 0 := by omega
    rw [Shape.rowMajor_val_two, Shape.rowMajor_val_two]
    show n.val * 1 + 0 = u.val * 32 + n.val
    rw [hu]; omega)

/-- A row broadcast along the positions reads its column's entry. -/
private theorem bcastRow_apply (v : S1x32.Idx → α) (hb : S1x32.BroadcastsInDim S4096x32 (![0, 1] : Fin 2 → Fin S4096x32.rank))
    (s : Fin 4096) (n : Fin 32) :
    broadcastInDim S4096x32 ![0, 1] hb v (ix2 s n) = v (ix2 (0 : Fin 1) n) :=
  broadcastInDim_apply _ hb v _ _ (fun ax => by
    match ax with
    | ⟨0, _⟩ => rfl
    | ⟨1, _⟩ => rfl)

/-- A matrix given a trailing unit axis reads the matrix's entry. -/
private theorem bcastUnit_apply (v : S4096x32.Idx → α) (hb : S4096x32.BroadcastsInDim S4096x32x1 (![0, 1] : Fin 2 → Fin S4096x32x1.rank))
    (s : Fin 4096) (n : Fin 32) (u : Fin 1) :
    broadcastInDim S4096x32x1 ![0, 1] hb v (ix3 s n u) = v (ix2 s n) :=
  broadcastInDim_apply _ hb v _ _ (fun ax => by
    match ax with
    | ⟨0, _⟩ => rfl
    | ⟨1, _⟩ => rfl)

end Reads

/-! ## The composed terms -/

/-- Core 0's column of a per-core column array. -/
private def col0 (A : FVec Ideal S2x32x1 .f32) : FVec Ideal S32x1 .f32 :=
  fun i => shapeCast S32x1 (extractStridedSlice S1x32x1 ![0, 0, 0] A slices_S2x32x1_S1x32x1_0_0_0) shapeCasts_S1x32x1_S32x1 i
/-- Core 1's column of a per-core column array. -/
private def col1 (A : FVec Ideal S2x32x1 .f32) : FVec Ideal S32x1 .f32 :=
  fun i => shapeCast S32x1 (extractStridedSlice S1x32x1 ![1, 0, 0] A slices_S2x32x1_S1x32x1_1_0_0) shapeCasts_S1x32x1_S32x1 i
/-- Core 0's matrix of the per-core weighted sums. -/
private def mat0 (A : FVec Ideal S2x32x512 .f32) : FVec Ideal S32x512 .f32 :=
  fun i => shapeCast S32x512 (extractStridedSlice S1x32x512 ![0, 0, 0] A slices_S2x32x512_S1x32x512_0_0_0) shapeCasts_S1x32x512_S32x512 i
/-- Core 1's matrix of the per-core weighted sums. -/
private def mat1 (A : FVec Ideal S2x32x512 .f32) : FVec Ideal S32x512 .f32 :=
  fun i => shapeCast S32x512 (extractStridedSlice S1x32x512 ![1, 0, 0] A slices_S2x32x512_S1x32x512_1_0_0) shapeCasts_S1x32x512_S32x512 i
/-- The larger of the two cores' maxima. -/
private def mMax (A8 : FVec Ideal S2x32x1 .f32) : FVec Ideal S32x1 .f32 := maximumf (col0 A8) (col1 A8)
/-- Core 0's rescaling factor. -/
private def sc0 (A8 : FVec Ideal S2x32x1 .f32) : FVec Ideal S32x1 .f32 := Host.exp (subf (col0 A8) (mMax A8))
/-- Core 1's rescaling factor. -/
private def sc1 (A8 : FVec Ideal S2x32x1 .f32) : FVec Ideal S32x1 .f32 := Host.exp (subf (col1 A8) (mMax A8))
/-- The merged normaliser, raised to the smallest normal number. -/
private def lSafe (A8 A9 : FVec Ideal S2x32x1 .f32) : FVec Ideal S32x1 .f32 :=
  maximumf (addf (mulf (col0 A9) (sc0 A8)) (mulf (col1 A9) (sc1 A8)))
    (broadcastInDim S32x1 ![] bcast_S_S32x1 (constant (F := Ideal) S_ .f32 0x00800000#32))
/-- The context result as a function of the arrays. -/
private def ctxOf (A7 : FVec Ideal S2x32x512 .f32) (A8 A9 : FVec Ideal S2x32x1 .f32) : FVec Ideal S32x512 .f32 :=
  Host.divf
    (addf (mulf (mat0 A7) (broadcastInDim S32x512 ![0, 1] bcast_S32x1_S32x512_0_1 (sc0 A8)))
      (mulf (mat1 A7) (broadcastInDim S32x512 ![0, 1] bcast_S32x1_S32x512_0_1 (sc1 A8))))
    (broadcastInDim S32x512 ![0, 1] bcast_S32x1_S32x512_0_1 (lSafe A8 A9))
/-- The weights result as a function of the arrays. -/
private def wtsOf (A6 : FVec Ideal S4096x32 .f32) (A8 A9 : FVec Ideal S2x32x1 .f32) : FVec Ideal S4096x32x1 .f32 :=
  broadcastInDim S4096x32x1 ![0, 1] bcast_S4096x32_S4096x32x1_0_1
    (Host.divf
      (Host.exp (subf A6 (broadcastInDim S4096x32 ![0, 1] bcast_S1x32_S4096x32_0_1
        (fun i => shapeCast S1x32 (mMax A8) shapeCasts_S32x1_S1x32 i))))
      (broadcastInDim S4096x32 ![0, 1] bcast_S1x32_S4096x32_0_1
        (fun i => shapeCast S1x32 (lSafe A8 A9) shapeCasts_S32x1_S1x32 i)))

/-- The host's exponential read at an index. -/
private theorem hostExp_apply {s : Shape} {φ : FTy} (x : FVec Ideal s φ) (i : s.Idx) : Host.exp x i = Ideal.exp (x i) := rfl
/-- The host's quotient read at an index. -/
private theorem hostDivf_apply {s : Shape} {φ : FTy} (x y : FVec Ideal s φ) (i : s.Idx) : Host.divf x y i = Ideal.div (x i) (y i) := rfl

section AtReals
variable (xs : Fin 4096 → Fin 32 → ℝ) (mm ll : Fin 2 → Fin 32 → ℝ) (aa : Fin 2 → Fin 32 → Fin 512 → ℝ)

private theorem col0_real (n : Fin 32) (u : Fin 1) :
    col0 (fun i => ((mm (i 0) (i 1) : ℝ) : EReal)) (ix2 n u) = ((mm 0 n : ℝ) : EReal) := by
  unfold col0; rw [col0_apply]
private theorem col1_real (n : Fin 32) (u : Fin 1) :
    col1 (fun i => ((mm (i 0) (i 1) : ℝ) : EReal)) (ix2 n u) = ((mm 1 n : ℝ) : EReal) := by
  unfold col1; rw [col1_apply]
private theorem mat0_real (n : Fin 32) (h : Fin 512) :
    mat0 (fun i => ((aa (i 0) (i 1) (i 2) : ℝ) : EReal)) (ix2 n h) = ((aa 0 n h : ℝ) : EReal) := by
  unfold mat0; rw [mat0_apply]
private theorem mat1_real (n : Fin 32) (h : Fin 512) :
    mat1 (fun i => ((aa (i 0) (i 1) (i 2) : ℝ) : EReal)) (ix2 n h) = ((aa 1 n h : ℝ) : EReal) := by
  unfold mat1; rw [mat1_apply]

private theorem mMax_real (n : Fin 32) (u : Fin 1) :
    mMax (fun i => ((mm (i 0) (i 1) : ℝ) : EReal)) (ix2 n u) = max ((mm 0 n : ℝ) : EReal) ((mm 1 n : ℝ) : EReal) := by
  show max (col0 _ (ix2 n u)) (col1 _ (ix2 n u)) = _
  rw [col0_real, col1_real]

private theorem sc0_real (n : Fin 32) (u : Fin 1) :
    sc0 (fun i => ((mm (i 0) (i 1) : ℝ) : EReal)) (ix2 n u)
      = Ideal.exp (((mm 0 n : ℝ) : EReal) - max ((mm 0 n : ℝ) : EReal) ((mm 1 n : ℝ) : EReal)) := by
  unfold sc0
  rw [hostExp_apply, subf_apply, col0_real, mMax_real]
private theorem sc1_real (n : Fin 32) (u : Fin 1) :
    sc1 (fun i => ((mm (i 0) (i 1) : ℝ) : EReal)) (ix2 n u)
      = Ideal.exp (((mm 1 n : ℝ) : EReal) - max ((mm 0 n : ℝ) : EReal) ((mm 1 n : ℝ) : EReal)) := by
  unfold sc1
  rw [hostExp_apply, subf_apply, col1_real, mMax_real]

private theorem lSafe_real (hL : ∀ n, 1 ≤ ll 0 n * Real.exp (mm 0 n - max (mm 0 n) (mm 1 n)) + ll 1 n * Real.exp (mm 1 n - max (mm 0 n) (mm 1 n)))
    (n : Fin 32) (u : Fin 1) :
    lSafe (fun i => ((mm (i 0) (i 1) : ℝ) : EReal)) (fun i => ((ll (i 0) (i 1) : ℝ) : EReal)) (ix2 n u)
      = ((ll 0 n * Real.exp (mm 0 n - max (mm 0 n) (mm 1 n)) + ll 1 n * Real.exp (mm 1 n - max (mm 0 n) (mm 1 n)) : ℝ) : EReal) := by
  show max (col0 _ (ix2 n u) * sc0 _ (ix2 n u) + col1 _ (ix2 n u) * sc1 _ (ix2 n u))
    (broadcastInDim S32x1 ![] bcast_S_S32x1 (constant (F := Ideal) S_ .f32 0x00800000#32) (ix2 n u)) = _
  rw [bcastScalar_apply, constant_apply, col0_real, col1_real, sc0_real, sc1_real]
  exact merged_l _ _ _ _ (hL n)

private theorem ctxOf_real (hL : ∀ n, 1 ≤ ll 0 n * Real.exp (mm 0 n - max (mm 0 n) (mm 1 n)) + ll 1 n * Real.exp (mm 1 n - max (mm 0 n) (mm 1 n)))
    (n : Fin 32) (h : Fin 512) :
    ctxOf (fun i => ((aa (i 0) (i 1) (i 2) : ℝ) : EReal)) (fun i => ((mm (i 0) (i 1) : ℝ) : EReal))
        (fun i => ((ll (i 0) (i 1) : ℝ) : EReal)) (ix2 n h)
      = (((aa 0 n h * Real.exp (mm 0 n - max (mm 0 n) (mm 1 n)) + aa 1 n h * Real.exp (mm 1 n - max (mm 0 n) (mm 1 n)))
          / (ll 0 n * Real.exp (mm 0 n - max (mm 0 n) (mm 1 n)) + ll 1 n * Real.exp (mm 1 n - max (mm 0 n) (mm 1 n))) : ℝ) : EReal) := by
  show Ideal.div
    (mat0 _ (ix2 n h) * broadcastInDim S32x512 ![0, 1] bcast_S32x1_S32x512_0_1 (sc0 _) (ix2 n h)
      + mat1 _ (ix2 n h) * broadcastInDim S32x512 ![0, 1] bcast_S32x1_S32x512_0_1 (sc1 _) (ix2 n h))
    (broadcastInDim S32x512 ![0, 1] bcast_S32x1_S32x512_0_1 (lSafe _ _) (ix2 n h)) = _
  rw [bcastCol_apply, bcastCol_apply, bcastCol_apply, mat0_real, mat1_real, sc0_real, sc1_real, lSafe_real mm ll hL]
  exact merged_ctx _ _ _ _ _ (ne_of_gt (lt_of_lt_of_le one_pos (hL n)))

private theorem wtsOf_real (hL : ∀ n, 1 ≤ ll 0 n * Real.exp (mm 0 n - max (mm 0 n) (mm 1 n)) + ll 1 n * Real.exp (mm 1 n - max (mm 0 n) (mm 1 n)))
    (s : Fin 4096) (n : Fin 32) (u : Fin 1) :
    wtsOf (fun i => ((xs (i 0) (i 1) : ℝ) : EReal)) (fun i => ((mm (i 0) (i 1) : ℝ) : EReal))
        (fun i => ((ll (i 0) (i 1) : ℝ) : EReal)) (ix3 s n u)
      = ((Real.exp (xs s n - max (mm 0 n) (mm 1 n))
          / (ll 0 n * Real.exp (mm 0 n - max (mm 0 n) (mm 1 n)) + ll 1 n * Real.exp (mm 1 n - max (mm 0 n) (mm 1 n))) : ℝ) : EReal) := by
  unfold wtsOf
  rw [bcastUnit_apply, hostDivf_apply, hostExp_apply, subf_apply, bcastRow_apply, bcastRow_apply]
  beta_reduce
  rw [rowOfCol_apply, rowOfCol_apply, mMax_real, lSafe_real mm ll hL]
  show Ideal.div (Ideal.exp (((xs s n : ℝ) : EReal) - _)) _ = _
  exact merged_wt _ _ _ _ (ne_of_gt (lt_of_lt_of_le one_pos (hL n)))

end AtReals

variable (m : (ℓ : Loc nD τ sig) → Buf (Elt Ideal) ℓ)

/-- The context result is the composed term at the arrays the region leaves. -/
private theorem tail_ctx_term (dats : (p : Fin 1) → (c : Dev nD) → Dat τ (Elt Ideal) Unit ℕ (UR sig nD τ) ℕ (cfgs p) c) (c : Dev nD) :
    Pipeline.afterTail₀ cfgs dats 0 (V0 m) [hostOps1] c main_v42
      = ctxOf ((dats 0 c).arrAt 7 cfg0.N) ((dats 0 c).arrAt 8 cfg0.N) ((dats 0 c).arrAt 9 cfg0.N) := by
  have e7 : Pipeline.withArrays (cfgs 0).spec c (V0 m c) (fun w => (dats 0 c).arrAt w (cfgs 0).N) (Proc.devRef .tc main_v9_1)
      = (dats 0 c).arrAt 7 cfg0.N := Pipeline.withArrays_arr spec0 winFacts0.arr_inj c _ _ 7
  have e8 : Pipeline.withArrays (cfgs 0).spec c (V0 m c) (fun w => (dats 0 c).arrAt w (cfgs 0).N) (Proc.devRef .tc main_v9_2)
      = (dats 0 c).arrAt 8 cfg0.N := Pipeline.withArrays_arr spec0 winFacts0.arr_inj c _ _ 8
  have e9 : Pipeline.withArrays (cfgs 0).spec c (V0 m c) (fun w => (dats 0 c).arrAt w (cfgs 0).N) (Proc.devRef .tc main_v9_3)
      = (dats 0 c).arrAt 9 cfg0.N := Pipeline.withArrays_arr spec0 winFacts0.arr_inj c _ _ 9
  unfold Pipeline.afterTail₀
  show StableHlo.after hostOps1 _ (Proc.devRef .tc main_v42) = _
  after_results_simp
  rw [e7, e8, e9]
  generalize (dats 0 c).arrAt 7 cfg0.N = A7
  generalize (dats 0 c).arrAt 8 cfg0.N = A8
  generalize (dats 0 c).arrAt 9 cfg0.N = A9
  rfl

/-- The weights result is the composed term at the arrays the region leaves. -/
private theorem tail_wts_term (dats : (p : Fin 1) → (c : Dev nD) → Dat τ (Elt Ideal) Unit ℕ (UR sig nD τ) ℕ (cfgs p) c) (c : Dev nD) :
    Pipeline.afterTail₀ cfgs dats 0 (V0 m) [hostOps1] c main_v50
      = wtsOf ((dats 0 c).arrAt 6 cfg0.N) ((dats 0 c).arrAt 8 cfg0.N) ((dats 0 c).arrAt 9 cfg0.N) := by
  have e6 : Pipeline.withArrays (cfgs 0).spec c (V0 m c) (fun w => (dats 0 c).arrAt w (cfgs 0).N) (Proc.devRef .tc main_v9_0)
      = (dats 0 c).arrAt 6 cfg0.N := Pipeline.withArrays_arr spec0 winFacts0.arr_inj c _ _ 6
  have e8 : Pipeline.withArrays (cfgs 0).spec c (V0 m c) (fun w => (dats 0 c).arrAt w (cfgs 0).N) (Proc.devRef .tc main_v9_2)
      = (dats 0 c).arrAt 8 cfg0.N := Pipeline.withArrays_arr spec0 winFacts0.arr_inj c _ _ 8
  have e9 : Pipeline.withArrays (cfgs 0).spec c (V0 m c) (fun w => (dats 0 c).arrAt w (cfgs 0).N) (Proc.devRef .tc main_v9_3)
      = (dats 0 c).arrAt 9 cfg0.N := Pipeline.withArrays_arr spec0 winFacts0.arr_inj c _ _ 9
  unfold Pipeline.afterTail₀
  show StableHlo.after hostOps1 _ (Proc.devRef .tc main_v50) = _
  after_results_simp
  rw [e6, e8, e9]
  generalize (dats 0 c).arrAt 6 cfg0.N = A6
  generalize (dats 0 c).arrAt 8 cfg0.N = A8
  generalize (dats 0 c).arrAt 9 cfg0.N = A9
  rfl

/-- The context result after the tail, from the per-core partial results. -/
theorem tail_ctx (dats : (p : Fin 1) → (c : Dev nD) → Dat τ (Elt Ideal) Unit ℕ (UR sig nD τ) ℕ (cfgs p) c) (c : Dev nD)
    (mm ll : Fin 2 → Fin 32 → ℝ) (aa : Fin 2 → Fin 32 → Fin 512 → ℝ)
    (h7 : (dats 0 c).arrAt 7 cfg0.N = fun i => ((aa (i 0) (i 1) (i 2) : ℝ) : EReal))
    (h8 : (dats 0 c).arrAt 8 cfg0.N = fun i => ((mm (i 0) (i 1) : ℝ) : EReal))
    (h9 : (dats 0 c).arrAt 9 cfg0.N = fun i => ((ll (i 0) (i 1) : ℝ) : EReal))
    (hL : ∀ n, 1 ≤ ll 0 n * Real.exp (mm 0 n - max (mm 0 n) (mm 1 n)) + ll 1 n * Real.exp (mm 1 n - max (mm 0 n) (mm 1 n))) :
    Pipeline.afterTail₀ cfgs dats 0 (V0 m) [hostOps1] c main_v42
      = fun i => (((aa 0 (i 0) (i 1) * Real.exp (mm 0 (i 0) - max (mm 0 (i 0)) (mm 1 (i 0)))
            + aa 1 (i 0) (i 1) * Real.exp (mm 1 (i 0) - max (mm 0 (i 0)) (mm 1 (i 0))))
          / (ll 0 (i 0) * Real.exp (mm 0 (i 0) - max (mm 0 (i 0)) (mm 1 (i 0)))
            + ll 1 (i 0) * Real.exp (mm 1 (i 0) - max (mm 0 (i 0)) (mm 1 (i 0)))) : ℝ) : EReal) := by
  rw [tail_ctx_term m dats c, h7, h8, h9]
  funext i
  obtain ⟨n, h, rfl⟩ : ∃ n h, i = ix2 n h := ⟨i 0, i 1, eq_ix2 i⟩
  exact ctxOf_real mm ll aa hL n h

/-- The attention weights after the tail, from the logits and the per-core maxima and normalisers. -/
theorem tail_wts (dats : (p : Fin 1) → (c : Dev nD) → Dat τ (Elt Ideal) Unit ℕ (UR sig nD τ) ℕ (cfgs p) c) (c : Dev nD)
    (xs : Fin 4096 → Fin 32 → ℝ) (mm ll : Fin 2 → Fin 32 → ℝ)
    (h6 : (dats 0 c).arrAt 6 cfg0.N = fun i => ((xs (i 0) (i 1) : ℝ) : EReal))
    (h8 : (dats 0 c).arrAt 8 cfg0.N = fun i => ((mm (i 0) (i 1) : ℝ) : EReal))
    (h9 : (dats 0 c).arrAt 9 cfg0.N = fun i => ((ll (i 0) (i 1) : ℝ) : EReal))
    (hL : ∀ n, 1 ≤ ll 0 n * Real.exp (mm 0 n - max (mm 0 n) (mm 1 n)) + ll 1 n * Real.exp (mm 1 n - max (mm 0 n) (mm 1 n))) :
    Pipeline.afterTail₀ cfgs dats 0 (V0 m) [hostOps1] c main_v50
      = fun i => ((Real.exp (xs (i 0) (i 1) - max (mm 0 (i 1)) (mm 1 (i 1)))
          / (ll 0 (i 1) * Real.exp (mm 0 (i 1) - max (mm 0 (i 1)) (mm 1 (i 1)))
            + ll 1 (i 1) * Real.exp (mm 1 (i 1) - max (mm 0 (i 1)) (mm 1 (i 1)))) : ℝ) : EReal) := by
  rw [tail_wts_term m dats c, h6, h8, h9]
  funext i
  obtain ⟨s, n, u, rfl⟩ : ∃ s n u, i = ix3 s n u := ⟨i 0, i 1, i 2, eq_ix3 i⟩
  exact wtsOf_real xs mm ll hL s n u

end Cert.KernelIdeal.Tail

end
-- ==== Proof.Reindex.lean ====
/-
  The whole sequence is the two cores' tile runs laid end to end.

  A sum (or a maximum) over all 4096 positions of a batch row splits as core 0's 32 tiles of 64 followed by core 1's: so
  the larger of the two cores' running maxima is the row's maximum `Mx`, the two cores' sums of `exp (x - Mx)` add up
  to the normaliser `Lx`, the weighted sums to `Σ_s exp (x_s - Mx) · y_s`, and that sum divided by `Lx` is the context
  vector. The normaliser is at least one.
-/
import Mathlib.Algebra.BigOperators.Fin
import Mathlib.Algebra.BigOperators.Intervals
import proofs.«420586_j87265145520380_3_alg».proof.Proof.Spec

noncomputable section

namespace Cert.Attn

open OnlineSoftmax

/-! ### Positions as (tile, offset) pairs -/

/-- Every position is offset `s % 64` of tile `s / 64`. -/
private theorem row_div_mod (s : Fin 4096) : row (s.val / 64) (s.val % 64) = s := by
  have hs := s.isLt
  apply Fin.ext
  rw [row_val (s.val / 64) (s.val % 64) (by omega) (by omega)]
  omega

/-- A sum over the 4096 positions is the sum over the 64 tiles of the sums over each tile's 64 offsets:
`(p, a) ↦ 64 p + a` is a bijection from pairs of numbers below 64 onto the numbers below 4096. -/
private theorem sum_tiles (f : Fin 4096 → ℝ) :
    ∑ s, f s = ∑ p : Fin 64, ∑ a : Fin 64, f (row p.val a.val) := by
  rw [← Fintype.sum_prod_type' (f := fun (p a : Fin 64) => f (row p.val a.val))]
  symm
  refine Fintype.sum_bijective (fun pa : Fin 64 × Fin 64 => row pa.1.val pa.2.val) ⟨?_, ?_⟩ _ _ (fun _ => rfl)
  · rintro ⟨p, a⟩ ⟨p', a'⟩ h
    have h' : (row p.val a.val).val = (row p'.val a'.val).val := congrArg Fin.val h
    rw [row_val p.val a.val p.isLt a.isLt, row_val p'.val a'.val p'.isLt a'.isLt] at h'
    have h1 := p.isLt
    have h2 := a.isLt
    have h3 := p'.isLt
    have h4 := a'.isLt
    refine Prod.ext (Fin.ext ?_) (Fin.ext ?_)
    · show p.val = p'.val
      omega
    · show a.val = a'.val
      omega
  · intro s
    have hs := s.isLt
    exact ⟨(⟨s.val / 64, by omega⟩, ⟨s.val % 64, by omega⟩), row_div_mod s⟩

/-- A sum over the 4096 positions is the first 32 tiles' sums followed by the last 32 tiles' sums. -/
private theorem sum_split (f : Fin 4096 → ℝ) :
    ∑ s, f s = ∑ i ∈ Finset.range 32, ∑ a : Fin 64, f (row i a.val)
      + ∑ i ∈ Finset.range 32, ∑ a : Fin 64, f (row (32 + i) a.val) := by
  rw [sum_tiles f, Fin.sum_univ_eq_sum_range (fun p => ∑ a : Fin 64, f (row p a.val)) 64]
  exact Finset.sum_range_add (fun p => ∑ a : Fin 64, f (row p a.val)) 32 32

/-- Every score of the row is below the final running maximum of the core whose half holds its position. -/
private theorem le_merged (x : Fin 4096 → Fin 32 → ℝ) (n : Fin 32) (s : Fin 4096) :
    x s n ≤ max (runM (tileX x 0 n) 31) (runM (tileX x 1 n) 31) := by
  have hs := s.isLt
  rcases Nat.lt_or_ge s.val 2048 with h | h
  · have e : 32 * 0 + s.val / 64 = s.val / 64 := by omega
    have k : tileX x 0 n (s.val / 64) ⟨s.val % 64, by omega⟩ ≤ runM (tileX x 0 n) 31 :=
      le_runM (tileX x 0 n) 31 (s.val / 64) (by omega) ⟨s.val % 64, by omega⟩
    have t : tileX x 0 n (s.val / 64) ⟨s.val % 64, by omega⟩ = x s n := by
      show x (row (32 * 0 + s.val / 64) (s.val % 64)) n = x s n
      rw [e, row_div_mod s]
    rw [t] at k
    exact le_trans k (le_max_left _ _)
  · have e : 32 * 1 + (s.val / 64 - 32) = s.val / 64 := by omega
    have k : tileX x 1 n (s.val / 64 - 32) ⟨s.val % 64, by omega⟩ ≤ runM (tileX x 1 n) 31 :=
      le_runM (tileX x 1 n) 31 (s.val / 64 - 32) (by omega) ⟨s.val % 64, by omega⟩
    have t : tileX x 1 n (s.val / 64 - 32) ⟨s.val % 64, by omega⟩ = x s n := by
      show x (row (32 * 1 + (s.val / 64 - 32)) (s.val % 64)) n = x s n
      rw [e, row_div_mod s]
    rw [t] at k
    exact le_trans k (le_max_right _ _)

/-! ### The theorems -/

/-- The larger of the two cores' final running maxima is the row's maximum. -/
theorem merged_M (x : Fin 4096 → Fin 32 → ℝ) (n : Fin 32) :
    max (runM (tileX x 0 n) 31) (runM (tileX x 1 n) 31) = Mx x n := by
  apply le_antisymm
  · -- each core's running maximum is one of the row's scores
    apply max_le
    · obtain ⟨i, _, a, ha⟩ := runM_mem (tileX x 0 n) 31
      rw [ha]
      exact Finset.le_sup' (fun s => x s n) (Finset.mem_univ (row (32 * 0 + i) a.val))
    · obtain ⟨i, _, a, ha⟩ := runM_mem (tileX x 1 n) 31
      rw [ha]
      exact Finset.le_sup' (fun s => x s n) (Finset.mem_univ (row (32 * 1 + i) a.val))
  · -- each of the row's scores sits in one core's half
    exact Finset.sup'_le _ _ (fun s _ => le_merged x n s)

/-- The two cores' sums of `exp (x - Mx)` over their tiles add up to the normaliser. -/
theorem merged_L (x : Fin 4096 → Fin 32 → ℝ) (n : Fin 32) :
    ∑ i ∈ Finset.range 32, tileExp (Mx x n) (tileX x 0 n i) + ∑ i ∈ Finset.range 32, tileExp (Mx x n) (tileX x 1 n i)
      = Lx x n := by
  unfold Lx
  rw [sum_split (fun s => Real.exp (x s n - Mx x n))]
  simp only [tileExp, tileX, Nat.mul_zero, Nat.zero_add, Nat.mul_one]

/-- The two cores' weighted sums add up to the whole row's. -/
theorem merged_A (x : Fin 4096 → Fin 32 → ℝ) (y : Fin 4096 → Fin 32 → Fin 512 → ℝ) (n : Fin 32) (h : Fin 512) :
    ∑ i ∈ Finset.range 32, tileWt (Mx x n) (tileX x 0 n i) (tileY y 0 n h i)
      + ∑ i ∈ Finset.range 32, tileWt (Mx x n) (tileX x 1 n i) (tileY y 1 n h i)
      = ∑ s : Fin 4096, Real.exp (x s n - Mx x n) * y s n h := by
  rw [sum_split (fun s => Real.exp (x s n - Mx x n) * y s n h)]
  simp only [tileWt, tileX, tileY, Nat.mul_zero, Nat.zero_add, Nat.mul_one]

/-- Dividing the weighted sum by the normaliser gives the weights' average. -/
theorem ctx_eq (x : Fin 4096 → Fin 32 → ℝ) (y : Fin 4096 → Fin 32 → Fin 512 → ℝ) (n : Fin 32) (h : Fin 512) :
    (∑ s : Fin 4096, Real.exp (x s n - Mx x n) * y s n h) / Lx x n = ctx x y n h := by
  unfold ctx wts
  rw [Finset.sum_div]
  refine Finset.sum_congr rfl (fun s _ => ?_)
  ring

/-- The normaliser is at least one: the row's largest score contributes `exp 0`. -/
theorem one_le_Lx (x : Fin 4096 → Fin 32 → ℝ) (n : Fin 32) : 1 ≤ Lx x n := by
  obtain ⟨s, _, hs⟩ :=
    Finset.exists_mem_eq_sup' (Finset.univ_nonempty (α := Fin 4096)) (fun s => x s n)
  have hM : Mx x n = x s n := hs
  have h1 : (1 : ℝ) = Real.exp (x s n - Mx x n) := by rw [hM, sub_self, Real.exp_zero]
  have h2 : Real.exp (x s n - Mx x n) ≤ Lx x n :=
    Finset.single_le_sum (f := fun t => Real.exp (x t n - Mx x n))
      (fun t _ => (Real.exp_pos (x t n - Mx x n)).le) (Finset.mem_univ s)
  linarith

end Cert.Attn

end
-- ==== Proof.Merge.lean ====
/-
  The two cores' final values merged: the context vector and the attention weights.

  With `m₀, l₀, a₀` and `m₁, l₁, a₁` the two cores' final running maximum, normaliser and weighted sum of a batch row, and
  `M = max m₀ m₁`: `l₀ exp (m₀ - M) + l₁ exp (m₁ - M)` is the row's normaliser `Lx` (so at least one), the same
  combination of the weighted sums divided by it is the context vector, and `exp (x_s - M)` divided by it the weight.
-/
import proofs.«420586_j87265145520380_3_alg».proof.Proof.Spec
import proofs.«420586_j87265145520380_3_alg».proof.Proof.Reindex

noncomputable section

namespace Cert.Attn

open OnlineSoftmax

/-- The two cores' normalisers, each rescaled to the larger of the two maxima, add up to the row's normaliser. -/
private theorem merged_den (x : Fin 4096 → Fin 32 → ℝ) (n : Fin 32) :
    runL (tileX x 0 n) 31 * Real.exp (runM (tileX x 0 n) 31 - max (runM (tileX x 0 n) 31) (runM (tileX x 1 n) 31))
      + runL (tileX x 1 n) 31 * Real.exp (runM (tileX x 1 n) 31 - max (runM (tileX x 0 n) 31) (runM (tileX x 1 n) 31))
      = Lx x n := by
  rw [merge_L (tileX x 0 n) (tileX x 1 n) 31, merged_M x n]
  exact merged_L x n

/-- The two cores' weighted sums, rescaled the same way, add up to the row's weighted sum. -/
private theorem merged_num (x : Fin 4096 → Fin 32 → ℝ) (y : Fin 4096 → Fin 32 → Fin 512 → ℝ) (n : Fin 32)
    (h : Fin 512) :
    runA (tileX x 0 n) (tileY y 0 n h) 31 * Real.exp (runM (tileX x 0 n) 31 - max (runM (tileX x 0 n) 31) (runM (tileX x 1 n) 31))
      + runA (tileX x 1 n) (tileY y 1 n h) 31 * Real.exp (runM (tileX x 1 n) 31 - max (runM (tileX x 0 n) 31) (runM (tileX x 1 n) 31))
      = ∑ s : Fin 4096, Real.exp (x s n - Mx x n) * y s n h := by
  rw [merge_A (tileX x 0 n) (tileX x 1 n) (tileY y 0 n h) (tileY y 1 n h) 31, merged_M x n]
  exact merged_A x y n h

theorem merged_one_le (x : Fin 4096 → Fin 32 → ℝ) (n : Fin 32) :
    1 ≤ runL (tileX x 0 n) 31 * Real.exp (runM (tileX x 0 n) 31 - max (runM (tileX x 0 n) 31) (runM (tileX x 1 n) 31))
      + runL (tileX x 1 n) 31 * Real.exp (runM (tileX x 1 n) 31 - max (runM (tileX x 0 n) 31) (runM (tileX x 1 n) 31)) := by
  rw [merged_den x n]
  exact one_le_Lx x n

theorem merged_ctx (x : Fin 4096 → Fin 32 → ℝ) (y : Fin 4096 → Fin 32 → Fin 512 → ℝ) (n : Fin 32) (h : Fin 512) :
    (runA (tileX x 0 n) (tileY y 0 n h) 31 * Real.exp (runM (tileX x 0 n) 31 - max (runM (tileX x 0 n) 31) (runM (tileX x 1 n) 31))
        + runA (tileX x 1 n) (tileY y 1 n h) 31 * Real.exp (runM (tileX x 1 n) 31 - max (runM (tileX x 0 n) 31) (runM (tileX x 1 n) 31)))
      / (runL (tileX x 0 n) 31 * Real.exp (runM (tileX x 0 n) 31 - max (runM (tileX x 0 n) 31) (runM (tileX x 1 n) 31))
        + runL (tileX x 1 n) 31 * Real.exp (runM (tileX x 1 n) 31 - max (runM (tileX x 0 n) 31) (runM (tileX x 1 n) 31)))
      = ctx x y n h := by
  rw [merged_num x y n h, merged_den x n]
  exact ctx_eq x y n h

theorem merged_wts (x : Fin 4096 → Fin 32 → ℝ) (s : Fin 4096) (n : Fin 32) :
    Real.exp (x s n - max (runM (tileX x 0 n) 31) (runM (tileX x 1 n) 31))
      / (runL (tileX x 0 n) 31 * Real.exp (runM (tileX x 0 n) 31 - max (runM (tileX x 0 n) 31) (runM (tileX x 1 n) 31))
        + runL (tileX x 1 n) 31 * Real.exp (runM (tileX x 1 n) 31 - max (runM (tileX x 0 n) 31) (runM (tileX x 1 n) 31)))
      = wts x s n := by
  rw [merged_den x n, merged_M x n]
  rfl

end Cert.Attn

end
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.Finite.lean ====
/-
  The precondition says every input entry is a real number.

  `finite_inputs` is the conjunction, over the eight argument arrays, of "every entry's absolute value is below `+∞`".
  On the extended reals `|x| < +∞` holds exactly of the real numbers, so each array's entries are reals.
-/
import Idealize.ShloMosaic.PureOps.Ideal
import Idealize.ShloMosaic.PureOps.Ideal.Laws
import Idealize.ShloMosaic.Lib.ReduceAll
import Idealize.ShloMosaic.Lib.ValueIdx
import proofs.«420586_j87265145520380_3_alg».proof.Pre_finite_inputs
import proofs.«420586_j87265145520380_3_alg».proof.Proof.LibFinite

noncomputable section

namespace Cert.Attn

open Idealize.ShloMosaic Cert.Pre_finite_inputs

/-- Under the precondition every entry of every argument array is a real number. -/
theorem real_of_pre [hPre_finite_inputs : Cert.Pre_finite_inputs.Facts] (a0 : FVec Ideal S32x512 .f32) (a1 : FVec Ideal S4096x32x512 .f32) (a2 : FVec Ideal S512x512 .f32)
    (a3 : FVec Ideal S512 .f32) (a4 : FVec Ideal S512x512 .f32) (a5 : FVec Ideal S512 .f32) (a6 : FVec Ideal S1x512 .f32)
    (a7 : FVec Ideal S1 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 : Cert.Pre_finite_inputs.fn (F := Ideal) a0 a1 a2 a3 a4 a5 a6 a7 ValueIdx.ix0 = 1#1 :=
    congrFun h ValueIdx.ix0
  dsimp only [Cert.Pre_finite_inputs.fn, fn_part1, fn_part2] at h0
  -- the result is the left-nested conjunction of the eight tests, read at the scalar shape's one index
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨h0, t3⟩ := IntOp.andi_eq_one.1 h0
  obtain ⟨h0, t2⟩ := IntOp.andi_eq_one.1 h0
  obtain ⟨t0, t1⟩ := IntOp.andi_eq_one.1 h0
  exact ⟨FiniteTest.real_of_all_abs_lt_inf_at _ _ _ a0 _ t0, FiniteTest.real_of_all_abs_lt_inf_at _ _ _ a1 _ t1,
    FiniteTest.real_of_all_abs_lt_inf_at _ _ _ a2 _ t2, FiniteTest.real_of_all_abs_lt_inf_at _ _ _ a3 _ t3,
    FiniteTest.real_of_all_abs_lt_inf_at _ _ _ a4 _ t4, FiniteTest.real_of_all_abs_lt_inf_at _ _ _ a5 _ t5,
    FiniteTest.real_of_all_abs_lt_inf_at _ _ _ a6 _ t6, FiniteTest.real_of_all_abs_lt_inf_at _ _ _ a7 _ t7⟩

end Cert.Attn

end
-- ==== Proof.KernelResult.lean ====
/-
  The idealized kernel's run, with both results named.

  After the region and the host lines that follow it the first result holds the context vector and the second the
  attention weights of the memory's scores, and the argument arrays are unchanged: the region's four arrays are each
  core's final running values and the logits, the host lines merge them, and the merged quotients are the softmax
  average and the softmax.
-/
import proofs.«420586_j87265145520380_3_alg».proof.Proof.Gen.KernelIdeal.Frame
import proofs.«420586_j87265145520380_3_alg».proof.Proof.KernelInvariant
import proofs.«420586_j87265145520380_3_alg».proof.Proof.KernelArrays
import proofs.«420586_j87265145520380_3_alg».proof.Proof.KernelTail
import proofs.«420586_j87265145520380_3_alg».proof.Proof.Merge
import proofs.«420586_j87265145520380_3_alg».proof.Proof.Finite
import proofs.«420586_j87265145520380_3_alg».proof.Proof.Gen.Pre_finite_inputs
import proofs.«420586_j87265145520380_3_alg».proof.Defs

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Inv Cert.KernelIdeal.Arrays Cert.KernelIdeal.Tail Cert.Attn OnlineSoftmax

variable (m : (ℓ : Loc nD τ sig) → Buf (Elt Ideal) ℓ) (ρ : Dev nD → PrngReg)

/-- Every weakly fair execution of the idealized kernel program from a memory with finite inputs terminates with the
    context vector and the attention weights of its scores in the two results, the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v42) = (fun i => ((ctx (X m c) (Y m c) (i 0) (i 1) : ℝ) : EReal))
      ∧ r.2.mem ((c.tc : Thread nD τ).loc main_v50) = (fun i => ((wts (X m c) (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_main m ρ)
  obtain ⟨-, r1, -, -, -, -, r6, r7⟩ := Cert.Attn.real_of_pre _ _ _ _ _ _ _ _ (hpre c)
  have hL : ∀ n : Fin 32,
      1 ≤ runL (tileX (X m c) (0 : Fin 2).val n) 31 * Real.exp (runM (tileX (X m c) (0 : Fin 2).val n) 31
            - max (runM (tileX (X m c) (0 : Fin 2).val n) 31) (runM (tileX (X m c) (1 : Fin 2).val n) 31))
        + runL (tileX (X m c) (1 : Fin 2).val n) 31 * Real.exp (runM (tileX (X m c) (1 : Fin 2).val n) 31
            - max (runM (tileX (X m c) (0 : Fin 2).val n) 31) (runM (tileX (X m c) (1 : Fin 2).val n) 31)) :=
    fun n => merged_one_le (X m c) n
  refine ⟨?_, ?_, ((h c).2 main_arg0 (Pipeline.mem_restRefs_of main_arg0 (by decide) (by decide))).trans (W_main_arg0 m (dats m) c),
    ((h c).1 0).trans (((dats m 0 c).arrAt_in 0 rfl _).trans ((A_eq m c 0).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).1 4).trans (((dats m 0 c).arrAt_in 4 rfl _).trans ((A_eq m c 4).trans (V_main_arg6 m c))),
    ((h c).2 main_arg7 (Pipeline.mem_restRefs_of main_arg7 (by decide) (by decide))).trans (W_main_arg7 m (dats m) c)⟩
  · refine ((h c).2 main_v42 (Pipeline.mem_restRefs_of main_v42 (by decide) (by decide))).trans ?_
    refine (tail_ctx m (dats m) c (fun k n => runM (tileX (X m c) k.val n) 31) (fun k n => runL (tileX (X m c) k.val n) 31)
      (fun k n h => runA (tileX (X m c) k.val n) (tileY (Y m c) k.val n h) 31)
      (arr7 m c r1 r6 r7) (arr8 m c r1 r6 r7) (arr9 m c r1 r6 r7) hL).trans ?_
    funext i
    exact congrArg (fun z : ℝ => (z : EReal)) (merged_ctx (X m c) (Y m c) (i 0) (i 1))
  · refine ((h c).2 main_v50 (Pipeline.mem_restRefs_of main_v50 (by decide) (by decide))).trans ?_
    refine (tail_wts m (dats m) c (X m c) (fun k n => runM (tileX (X m c) k.val n) 31) (fun k n => runL (tileX (X m c) k.val n) 31)
      (arr6 m c r6 r7) (arr8 m c r1 r6 r7) (arr9 m c r1 r6 r7) hL).trans ?_
    funext i
    exact congrArg (fun z : ℝ => (z : EReal)) (merged_wts (X m c) (i 0) (i 1))

end Cert.KernelIdeal.Result

end
-- ==== Proof.RefScore.lean ====
/-
  The reference's logits are the scores.

  The reference transposes the hidden state's projection matrix and contracts, contracts the encoder outputs with the
  second projection matrix along its second axis, adds the two biases, applies `tanh`, contracts with the scoring row
  and adds the scoring bias: at position `s`, batch row `n` this is `score s n`.
-/
import proofs.«420586_j87265145520380_3_alg».proof.Proof.Gen.ReferenceIdeal.Read
import proofs.«420586_j87265145520380_3_alg».proof.Proof.Spec

noncomputable section

namespace Cert.ReferenceIdeal.RefValue

open Idealize.ShloMosaic Idealize.ShloMosaic.ValueIdx Cert.ReferenceIdeal Cert.ReferenceIdeal.Read Cert.Attn

/-! ## The reading index functions at literal coordinates -/

private theorem i0 (j k : Fin 512) : idx_main_v0 (ix2 j k) = ix2 k j :=
  funext fun a => Fin.ext (by match a with | ⟨0, _⟩ => rfl | ⟨1, _⟩ => rfl)

private theorem l1 (n : Fin 32) (k j : Fin 512) : lidx_main_v1 (ix2 n k) j = ix2 n j :=
  funext fun a => Fin.ext (by match a with | ⟨0, _⟩ => rfl | ⟨1, _⟩ => rfl)

private theorem r1 (n : Fin 32) (k j : Fin 512) : ridx_main_v1 (ix2 n k) j = ix2 j k :=
  funext fun a => Fin.ext (by match a with | ⟨0, _⟩ => rfl | ⟨1, _⟩ => rfl)

private theorem i3 (n : Fin 32) (k : Fin 512) : idx_main_v3 (ix2 n k) = ix2 (0 : Fin 1) k :=
  funext fun a => Fin.ext (by match a with | ⟨0, _⟩ => rfl | ⟨1, _⟩ => rfl)

private theorem i2 (k : Fin 512) : idx_main_v2 (ix2 (0 : Fin 1) k) = ix1 k :=
  funext fun a => Fin.ext (by match a with | ⟨0, _⟩ => rfl)

private theorem l5 (s : Fin 4096) (n : Fin 32) (k j : Fin 512) : lidx_main_v5 (ix3 s n k) j = ix3 s n j :=
  funext fun a => Fin.ext (by match a with | ⟨0, _⟩ => rfl | ⟨1, _⟩ => rfl | ⟨2, _⟩ => rfl)

private theorem r5 (s : Fin 4096) (n : Fin 32) (k j : Fin 512) : ridx_main_v5 (ix3 s n k) j = ix2 k j :=
  funext fun a => Fin.ext (by match a with | ⟨0, _⟩ => rfl | ⟨1, _⟩ => rfl)

private theorem i7 (s : Fin 4096) (n : Fin 32) (k : Fin 512) :
    idx_main_v7 (ix3 s n k) = ix3 (0 : Fin 1) (0 : Fin 1) k :=
  funext fun a => Fin.ext (by match a with | ⟨0, _⟩ => rfl | ⟨1, _⟩ => rfl | ⟨2, _⟩ => rfl)

private theorem i6 (k : Fin 512) : idx_main_v6 (ix3 (0 : Fin 1) (0 : Fin 1) k) = ix1 k :=
  funext fun a => Fin.ext (by match a with | ⟨0, _⟩ => rfl)

private theorem i10 (s : Fin 4096) (n : Fin 32) (k : Fin 512) : idx_main_v10 (ix3 s n k) = ix3 (0 : Fin 1) n k :=
  funext fun a => Fin.ext (by match a with | ⟨0, _⟩ => rfl | ⟨1, _⟩ => rfl | ⟨2, _⟩ => rfl)

private theorem i9 (n : Fin 32) (k : Fin 512) : idx_main_v9 (ix3 (0 : Fin 1) n k) = ix2 n k :=
  funext fun a => Fin.ext (by match a with | ⟨0, _⟩ => rfl | ⟨1, _⟩ => rfl)

private theorem l13 (s : Fin 4096) (n : Fin 32) (k : Fin 512) : lidx_main_v13 (ix3 s n (0 : Fin 1)) k = ix3 s n k :=
  funext fun a => Fin.ext (by match a with | ⟨0, _⟩ => rfl | ⟨1, _⟩ => rfl | ⟨2, _⟩ => rfl)

private theorem r13 (s : Fin 4096) (n : Fin 32) (k : Fin 512) :
    ridx_main_v13 (ix3 s n (0 : Fin 1)) k = ix2 (0 : Fin 1) k :=
  funext fun a => Fin.ext (by match a with | ⟨0, _⟩ => rfl | ⟨1, _⟩ => rfl)

private theorem i15 (s : Fin 4096) (n : Fin 32) :
    idx_main_v15 (ix3 s n (0 : Fin 1)) = ix3 (0 : Fin 1) (0 : Fin 1) (0 : Fin 1) :=
  funext fun a => Fin.ext (by match a with | ⟨0, _⟩ => rfl | ⟨1, _⟩ => rfl | ⟨2, _⟩ => rfl)

private theorem i14 : idx_main_v14 (ix3 (0 : Fin 1) (0 : Fin 1) (0 : Fin 1)) = ix1 (0 : Fin 1) :=
  funext fun a => Fin.ext (by match a with | ⟨0, _⟩ => rfl)

/-! ## The stages at an index -/

/-- The hidden state's projection stage at (n, k): the contraction with the transposed matrix reads it at (k, j). -/
private theorem v4_at (x0 : FVec Ideal S32x512 .f32) (x2 : FVec Ideal S512x512 .f32) (x3 : FVec Ideal S512 .f32)
    (n : Fin 32) (k : Fin 512) : val_main_v4 (F := Ideal) x0 x2 x3 (ix2 n k) = wh x0 x2 x3 n k := by
  rw [val_main_v4_apply, Ideal.addf_def, val_main_v1_apply, val_main_v3_apply, i3, val_main_v2_apply, i2]
  unfold wh
  congr 1
  refine Finset.sum_congr rfl fun j _ => ?_
  rw [l1, r1, val_main_v0_apply, i0]

/-- The encoder output's projection stage at (s, n, k). -/
private theorem v8_at (x1 : FVec Ideal S4096x32x512 .f32) (x4 : FVec Ideal S512x512 .f32) (x5 : FVec Ideal S512 .f32)
    (s : Fin 4096) (n : Fin 32) (k : Fin 512) : val_main_v8 (F := Ideal) x1 x4 x5 (ix3 s n k) = ue x1 x4 x5 s n k := by
  rw [val_main_v8_apply, Ideal.addf_def, val_main_v5_apply, val_main_v7_apply, i7, val_main_v6_apply, i6]
  unfold ue
  congr 1
  refine Finset.sum_congr rfl fun j _ => ?_
  rw [l5, r5]

/-- The `tanh` stage at (s, n, k): the hidden projection, broadcast along the positions, plus the encoder projection. -/
private theorem v12_at (x0 : FVec Ideal S32x512 .f32) (x1 : FVec Ideal S4096x32x512 .f32) (x2 : FVec Ideal S512x512 .f32)
    (x3 : FVec Ideal S512 .f32) (x4 : FVec Ideal S512x512 .f32) (x5 : FVec Ideal S512 .f32)
    (s : Fin 4096) (n : Fin 32) (k : Fin 512) :
    val_main_v12 (F := Ideal) x0 x1 x2 x3 x4 x5 (ix3 s n k) = Ideal.tanh (wh x0 x2 x3 n k + ue x1 x4 x5 s n k) := by
  rw [val_main_v12_apply, Ideal.hostUnary_tanh_def, val_main_v11_apply, Ideal.addf_def, val_main_v10_apply, i10,
    val_main_v9_apply, i9, v4_at, v8_at]

/-- The reference's logit stage at (s, n, 0) is the score. -/
theorem ref_score (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32) (s : Fin 4096) (n : Fin 32) :
    val_main_v16 (F := Ideal) x0 x1 x2 x3 x4 x5 x6 x7 (ix3 s n 0) = score x0 x1 x2 x3 x4 x5 x6 x7 s n := by
  rw [val_main_v16_apply, Ideal.addf_def, val_main_v13_apply, val_main_v15_apply, i15, val_main_v14_apply, i14]
  unfold score
  congr 1
  refine Finset.sum_congr rfl fun k _ => ?_
  rw [l13, r13, v12_at]

end Cert.ReferenceIdeal.RefValue

end
-- ==== Proof.RefValue.lean ====
/-
  The reference's results, read index by index.

  From the logits the reference takes each batch row's maximum over the positions (a max-reduction from `-∞`, then the
  larger of `-∞` and that), subtracts it, exponentiates, sums over the positions, divides (the attention weights), and
  sums the weights times the encoder outputs over the positions (the context). Over real scores and real encoder outputs
  these are `wts` and `ctx`.
-/
import proofs.«420586_j87265145520380_3_alg».proof.Proof.Gen.ReferenceIdeal.Read
import proofs.«420586_j87265145520380_3_alg».proof.Proof.Spec
import proofs.«420586_j87265145520380_3_alg».proof.Proof.ScoreReal
import proofs.«420586_j87265145520380_3_alg».proof.Proof.RefScore
import Idealize.ShloMosaic.PureOps.BitExact.Laws

noncomputable section

namespace Cert.ReferenceIdeal.RefValue

open Idealize.ShloMosaic Idealize.ShloMosaic.ValueIdx Cert.ReferenceIdeal Cert.ReferenceIdeal.Read Cert.Attn

/-- The fold of `max` from `-∞` over the coercions of finitely many reals (at least one) is the coercion of their
    largest. -/
private theorem fold_max_coe {ι : Type} (t : Finset ι) (ht : t.Nonempty) (f : ι → ℝ) :
    t.fold max (⊥ : EReal) (fun s => ((f s : ℝ) : EReal)) = ((t.sup' ht f : ℝ) : EReal) := by
  induction ht using Finset.Nonempty.cons_induction with
  | singleton a =>
    rw [Finset.fold_singleton, Finset.sup'_singleton]
    exact max_eq_left bot_le
  | cons a t ha ht ih =>
    rw [Finset.fold_cons, ih, Finset.sup'_cons ht]
    exact (EReal.coe_strictMono.monotone.map_max).symm

/-- A finite sum of coerced reals is the coercion of the real sum. -/
private theorem coe_sum {ι : Type} (t : Finset ι) (f : ι → ℝ) :
    ∑ i ∈ t, ((f i : ℝ) : EReal) = ((∑ i ∈ t, f i : ℝ) : EReal) := by
  induction t using Finset.cons_induction with
  | empty => rw [Finset.sum_empty, Finset.sum_empty, EReal.coe_zero]
  | cons a t ha ih => rw [Finset.sum_cons, Finset.sum_cons, ih, EReal.coe_add]

/-- The quotient of two reals, the divisor not zero, is the real quotient. -/
private theorem div_coe_coe (e L : ℝ) (hL : L ≠ 0) : Ideal.div (e : EReal) (L : EReal) = ((e / L : ℝ) : EReal) := by
  rw [Ideal.div_coe hL, ← EReal.coe_mul, mul_one_div]

/-- The pattern of `-∞` denotes the bottom element. -/
private theorem ofBits_negInf : Ideal.ofBits .f32 0xFF800000#32 = (⊥ : EReal) := by
  simp [Ideal.ofBits, Ideal.ieee]

/-- The softmax normaliser is positive: it is a sum of exponentials over a nonempty range. -/
private theorem Lx_pos (x : Fin 4096 → Fin 32 → ℝ) (n : Fin 32) : 0 < Lx x n :=
  Finset.sum_pos (fun _ _ => Real.exp_pos _) Finset.univ_nonempty

/-- The logits are the coercions of the real scores. -/
private theorem v16_coe (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (s : Fin 4096) (n : Fin 32) :
    val_main_v16 (F := Ideal) x0 x1 x2 x3 x4 x5 x6 x7 (ix3 s n 0) = ((xr (score x0 x1 x2 x3 x4 x5 x6 x7) s n : ℝ) : EReal) := by
  rw [ref_score]
  exact eq_coe_xr _ (fun s n => score_real x0 x1 x2 x3 x4 x5 x6 x7 hx6 hx7 s n) s n

/-- The max-reduction over the positions, from `-∞`, is the batch row's largest score. -/
private theorem v17_coe (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (n : Fin 32) :
    val_main_v17 (F := Ideal) x0 x1 x2 x3 x4 x5 x6 x7 (ix2 n 0) = ((Mx (xr (score x0 x1 x2 x3 x4 x5 x6 x7)) n : ℝ) : EReal) := by
  have h : S4096x32x1.Reduces [0] S32x1 := by decide
  unfold val_main_v17
  rw [Host.reduce_eq_fold_single FloatOps.maximumf _ _ Gen.reducesTo_S4096x32x1_S32x1_d0 h Gen.h_S_]
  have hf : (val_main_v16 (F := Ideal) x0 x1 x2 x3 x4 x5 x6 x7 ∘ h.lift (ix2 n 0))
      = fun k : Fin 4096 => ((xr (score x0 x1 x2 x3 x4 x5 x6 x7) k n : ℝ) : EReal) := by
    funext k
    show val_main_v16 (F := Ideal) x0 x1 x2 x3 x4 x5 x6 x7 (h.lift (ix2 n 0) k) = _
    rw [← v16_coe x0 x1 x2 x3 x4 x5 x6 x7 hx6 hx7 k n]
    congr 1
    funext c; apply Fin.ext
    fin_cases c <;> rfl
  have hb : (val_main_cst (F := Ideal)) (Shape.Idx.first Gen.h_S_) = (⊥ : EReal) := ofBits_negInf
  rw [hb, hf]
  exact fold_max_coe Finset.univ Finset.univ_nonempty (fun s => xr (score x0 x1 x2 x3 x4 x5 x6 x7) s n)

/-- The larger of `-∞` and the row's largest score is the row's largest score. -/
private theorem v19_coe (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (n : Fin 32) :
    val_main_v19 (F := Ideal) x0 x1 x2 x3 x4 x5 x6 x7 (ix2 n 0) = ((Mx (xr (score x0 x1 x2 x3 x4 x5 x6 x7)) n : ℝ) : EReal) := by
  rw [val_main_v19_apply, val_main_v18_apply, val_main_cst_0_apply, v17_coe x0 x1 x2 x3 x4 x5 x6 x7 hx6 hx7 n]
  show max (Ideal.ofBits .f32 0xFF800000#32) _ = _
  rw [ofBits_negInf]
  exact max_eq_right bot_le

/-- Broadcast back over the positions, it is still the row's largest score. -/
private theorem v21_coe (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (s : Fin 4096) (n : Fin 32) :
    val_main_v21 (F := Ideal) x0 x1 x2 x3 x4 x5 x6 x7 (ix3 s n 0) = ((Mx (xr (score x0 x1 x2 x3 x4 x5 x6 x7)) n : ℝ) : EReal) := by
  rw [val_main_v21_apply, val_main_v20_apply]
  have hi : idx_main_v20 (idx_main_v21 (ix3 s n (0 : Fin 1))) = ix2 n (0 : Fin 1) := by
    funext a; match a with | ⟨0, _⟩ => rfl | ⟨1, _⟩ => rfl
  rw [hi]
  exact v19_coe x0 x1 x2 x3 x4 x5 x6 x7 hx6 hx7 n

/-- The exponential of a score less the row's largest. -/
private theorem v23_coe (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (s : Fin 4096) (n : Fin 32) :
    val_main_v23 (F := Ideal) x0 x1 x2 x3 x4 x5 x6 x7 (ix3 s n 0)
      = ((Real.exp (xr (score x0 x1 x2 x3 x4 x5 x6 x7) s n - Mx (xr (score x0 x1 x2 x3 x4 x5 x6 x7)) n) : ℝ) : EReal) := by
  rw [val_main_v23_apply, val_main_v22_apply, v16_coe x0 x1 x2 x3 x4 x5 x6 x7 hx6 hx7 s n, v21_coe x0 x1 x2 x3 x4 x5 x6 x7 hx6 hx7 s n]
  show Ideal.exp (((xr (score x0 x1 x2 x3 x4 x5 x6 x7) s n : ℝ) : EReal) - ((Mx (xr (score x0 x1 x2 x3 x4 x5 x6 x7)) n : ℝ) : EReal)) = _
  rw [← EReal.coe_sub, Ideal.exp_coe]

/-- The sum of those exponentials over the positions is the softmax normaliser. -/
private theorem v24_coe (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (n : Fin 32) :
    val_main_v24 (F := Ideal) x0 x1 x2 x3 x4 x5 x6 x7 (ix2 n 0) = ((Lx (xr (score x0 x1 x2 x3 x4 x5 x6 x7)) n : ℝ) : EReal) := by
  rw [val_main_v24_apply, val_main_cst_1_apply]
  have hterm : ∀ k : Fin 4096, val_main_v23 (F := Ideal) x0 x1 x2 x3 x4 x5 x6 x7 (idx_main_v24 (ix2 n (0 : Fin 1)) k)
      = ((Real.exp (xr (score x0 x1 x2 x3 x4 x5 x6 x7) k n - Mx (xr (score x0 x1 x2 x3 x4 x5 x6 x7)) n) : ℝ) : EReal) := by
    intro k
    have hi : idx_main_v24 (ix2 n (0 : Fin 1)) k = ix3 k n (0 : Fin 1) := by
      funext a; match a with | ⟨0, _⟩ => rfl | ⟨1, _⟩ => rfl | ⟨2, _⟩ => rfl
    rw [hi]
    exact v23_coe x0 x1 x2 x3 x4 x5 x6 x7 hx6 hx7 k n
  rw [Finset.sum_congr rfl fun k _ => hterm k, coe_sum]
  show Ideal.ofBits .f32 0x00000000#32 + _ = _
  rw [Ideal.ofBits_zero_f32, zero_add]
  rfl

/-- Broadcast back over the positions, it is still the normaliser. -/
private theorem v26_coe (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (s : Fin 4096) (n : Fin 32) :
    val_main_v26 (F := Ideal) x0 x1 x2 x3 x4 x5 x6 x7 (ix3 s n 0) = ((Lx (xr (score x0 x1 x2 x3 x4 x5 x6 x7)) n : ℝ) : EReal) := by
  rw [val_main_v26_apply, val_main_v25_apply]
  have hi : idx_main_v25 (idx_main_v26 (ix3 s n (0 : Fin 1))) = ix2 n (0 : Fin 1) := by
    funext a; match a with | ⟨0, _⟩ => rfl | ⟨1, _⟩ => rfl
  rw [hi]
  exact v24_coe x0 x1 x2 x3 x4 x5 x6 x7 hx6 hx7 n

/-- The reference's attention weights are the softmax of the scores over the positions. -/
theorem ref_wts (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx6 : ∀ i, ∃ r : ℝ, x6 i = (r : EReal)) (hx7 : ∀ i, ∃ r : ℝ, x7 i = (r : EReal)) (s : Fin 4096) (n : Fin 32) :
    val_main_v27 (F := Ideal) x0 x1 x2 x3 x4 x5 x6 x7 (ix3 s n 0)
      = ((wts (xr (score x0 x1 x2 x3 x4 x5 x6 x7)) s n : ℝ) : EReal) := by
  rw [val_main_v27_apply, v23_coe x0 x1 x2 x3 x4 x5 x6 x7 hx6 hx7 s n, v26_coe x0 x1 x2 x3 x4 x5 x6 x7 hx6 hx7 s n]
  show Ideal.div _ _ = _
  rw [div_coe_coe _ _ (ne_of_gt (Lx_pos _ n))]
  rfl

/-- The reference's context vector is the weights' average of the encoder outputs. -/
theorem ref_ctx (x0 : FVec Ideal S32x512 .f32) (x1 : FVec Ideal S4096x32x512 .f32) (x2 : FVec Ideal S512x512 .f32)
  (x3 : FVec Ideal S512 .f32) (x4 : FVec Ideal S512x512 .f32) (x5 : FVec Ideal S512 .f32) (x6 : FVec Ideal S1x512 .f32)
  (x7 : FVec Ideal S1 .f32)
    (hx1 : ∀ i, ∃ r : ℝ, x1 i = (r : EReal)) (hx6 : ∀ i, ∃ r : ℝ, x6 i = (r : EReal)) (hx7 : ∀ i, ∃ r : ℝ, x7 i = (r : EReal))
    (n : Fin 32) (h : Fin 512) :
    val_main_v30 (F := Ideal) x0 x1 x2 x3 x4 x5 x6 x7 (ix2 n h)
      = ((ctx (xr (score x0 x1 x2 x3 x4 x5 x6 x7)) (yr x1) n h : ℝ) : EReal) := by
  rw [val_main_v30_apply, val_main_cst_2_apply]
  have hterm : ∀ k : Fin 4096, val_main_v29 (F := Ideal) x0 x1 x2 x3 x4 x5 x6 x7 (idx_main_v30 (ix2 n h) k)
      = ((wts (xr (score x0 x1 x2 x3 x4 x5 x6 x7)) k n * yr x1 k n h : ℝ) : EReal) := by
    intro k
    have hi : idx_main_v30 (ix2 n h) k = ix3 k n h := by
      funext a; match a with | ⟨0, _⟩ => rfl | ⟨1, _⟩ => rfl | ⟨2, _⟩ => rfl
    have hj : idx_main_v28 (ix3 k n h) = ix3 k n (0 : Fin 1) := by
      funext a; match a with | ⟨0, _⟩ => rfl | ⟨1, _⟩ => rfl | ⟨2, _⟩ => rfl
    rw [hi, val_main_v29_apply, val_main_v28_apply, hj, ref_wts x0 x1 x2 x3 x4 x5 x6 x7 hx6 hx7 k n, eq_coe_yr x1 hx1 k n h]
    show ((wts (xr (score x0 x1 x2 x3 x4 x5 x6 x7)) k n : ℝ) : EReal) * ((yr x1 k n h : ℝ) : EReal) = _
    rw [← EReal.coe_mul]
  rw [Finset.sum_congr rfl fun k _ => hterm k, coe_sum]
  show Ideal.ofBits .f32 0x00000000#32 + _ = _
  rw [Ideal.ofBits_zero_f32, zero_add]
  rfl

end Cert.ReferenceIdeal.RefValue

end
-- ==== Proof.lean ====
/-
  The certificate: a two-core online-softmax additive attention against the plain softmax.

  The kernel visits the 4096 positions in 64 tiles of 64, core 0 the first 32 tiles and core 1 the last 32. Each core
  keeps, per batch row, a running maximum of the scores, the sum of `exp (score - maximum)` and that sum weighted by the
  encoder outputs, rescaling the two sums by `exp (old maximum - new maximum)` whenever the maximum moves; the host then
  merges the two cores against the larger maximum and divides. The reference takes the maximum, the exponentials, their
  sum and the weighted sum over all positions at once. Over the reals both are the softmax of the scores over the
  positions and the softmax's average of the encoder outputs: `exp a · exp b = exp (a + b)` moves a sum from one maximum
  to another, and the merged normaliser is at least one, so the host's lower bound on it changes nothing. Finiteness of
  the inputs is used: the scoring row, the scoring bias and the encoder outputs must be reals for these identities.
  The three frames are the generated ones (the reference's its generated run); nothing was idealized, so there is
  nothing to preserve.
-/
import proofs.«420586_j87265145520380_3_alg».proof.Defs
import proofs.«420586_j87265145520380_3_alg».proof.Proof.Gen.Kernel
import proofs.«420586_j87265145520380_3_alg».proof.Proof.Gen.Kernel.Frame
import proofs.«420586_j87265145520380_3_alg».proof.Proof.Gen.KernelIdeal
import proofs.«420586_j87265145520380_3_alg».proof.Proof.Gen.KernelIdeal.Frame
import proofs.«420586_j87265145520380_3_alg».proof.Proof.Gen.ReferenceIdeal
import proofs.«420586_j87265145520380_3_alg».proof.Proof.Gen.ReferenceIdeal.Run
import proofs.«420586_j87265145520380_3_alg».proof.Proof.Gen.ReferenceIdeal.Read
import proofs.«420586_j87265145520380_3_alg».proof.Proof.Gen.Pre_finite_inputs
import proofs.«420586_j87265145520380_3_alg».proof.Proof.KernelResult
import proofs.«420586_j87265145520380_3_alg».proof.Proof.RefValue
import Idealize.ShloMosaic.Adequacy
import Idealize.ShloMosaic.Init

noncomputable section

namespace Cert.Proof

open Idealize.ShloMosaic Idealize.ShloMosaic.ValueIdx Idealize.SL.Sem Cert.Attn

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the context vector and the attention weights of the scores of the shared arguments. -/
theorem algebraic : Cert.algebraic_KernelIdeal_ReferenceIdeal := by
  intro m ρ m' ρ' hpre hagree
  refine ⟨fun c => fun i => ((ctx (Cert.KernelIdeal.Inv.X m c) (Cert.KernelIdeal.Inv.Y m c) (i 0) (i 1) : ℝ) : EReal),
    fun c => fun i => ((wts (Cert.KernelIdeal.Inv.X m c) (i 0) (i 1) : ℝ) : EReal),
    Cert.KernelIdeal.Result.run m ρ hpre, ?_⟩
  refine (θ_run Cert.ReferenceIdeal.defs _ _).mono (fun _ h c => ?_) (Cert.ReferenceIdeal.Value.run (F := Ideal) m' ρ')
  obtain ⟨e0, e1, e2, e3, e4, e5, e6, e7⟩ := hagree c
  obtain ⟨-, r1, -, -, -, -, r6, r7⟩ := Cert.Attn.real_of_pre _ _ _ _ _ _ _ _ (hpre c)
  refine ⟨(h c).1.trans ?_, (h c).2.1.trans ?_, (h c).2.2⟩
  · rw [Cert.ReferenceIdeal.Read.val_main_v30_eq, e0, e1, e2, e3, e4, e5, e6, e7]
    funext i
    obtain ⟨n, k, rfl⟩ : ∃ (n : Fin 32) (k : Fin 512), i = ix2 n k := ⟨i 0, i 1, eq_ix2 i⟩
    exact Cert.ReferenceIdeal.RefValue.ref_ctx _ _ _ _ _ _ _ _ r1 r6 r7 n k
  · rw [Cert.ReferenceIdeal.Read.val_main_v27_eq, e0, e1, e2, e3, e4, e5, e6, e7]
    funext i
    obtain ⟨s, n, z, rfl⟩ : ∃ (s : Fin 4096) (n : Fin 32) (z : Fin 1), i = ix3 s n z := ⟨i 0, i 1, i 2, eq_ix3 i⟩
    obtain rfl : z = 0 := Subsingleton.elim _ _
    exact Cert.ReferenceIdeal.RefValue.ref_wts _ _ _ _ _ _ _ _ r6 r7 s n

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
